-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1 : Shape := ⟨3, ![4, 4096, 1]⟩
abbrev S4x4096x4096 : Shape := ⟨3, ![4, 4096, 4096]⟩
abbrev S4x4096x128 : Shape := ⟨3, ![4, 4096, 128]⟩
abbrev S128x64 : Shape := ⟨2, ![128, 64]⟩
abbrev S64x64 : Shape := ⟨2, ![64, 64]⟩
abbrev S64 : Shape := ⟨1, ![64]⟩
abbrev S_ : Shape := ⟨0, ![]⟩

class Facts : Prop where
  bcast_S_S4x4096x1 : S_.BroadcastsInDim S4x4096x1 (![] : Fin 0 → Fin S4x4096x1.rank)
  reducesTo_S4x4096x1_S_d0_1_2 : S4x4096x1.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x4096x128 : S_.BroadcastsInDim S4x4096x128 (![] : Fin 0 → Fin S4x4096x128.rank)
  reducesTo_S4x4096x128_S_d0_1_2 : S4x4096x128.ReducesTo [0, 1, 2] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_arg15 : FVec F S64 .f32) (main_arg16 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg11 : FVec F S64 .f32) (main_arg12 : FVec F S64 .f32) (main_arg13 : FVec F S64 .f32) (main_arg14 : FVec F S64 .f32) (main_arg15 : FVec F S64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_v63 main_v67

def fn_part2 {F : FTy → Type} [FloatOps F] (main_arg7 : FVec F S64x64 .f32) (main_arg8 : FVec F S64x64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4x4096x1 .f32) (main_arg1 : FVec F S4x4096x4096 .f32) (main_arg2 : FVec F S4x4096x128 .f32) (main_arg3 : FVec F S128x64 .f32) (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) : IVec S_ 1 :=
  let main_v0 : FVec F S4x4096x1 .f32 := Host.absf main_arg0
  let main_cst : FVec F S_ .f32 := constant S_ .f32 0x7F800000#32
  let main_v1 : FVec F S4x4096x1 .f32 := broadcastInDim S4x4096x1 ![] bcast_S_S4x4096x1 main_cst
  let main_v2 : IVec S4x4096x1 1 := cmpf .olt main_v0 main_v1
  let main_c : IVec S_ 1 := constantI S_ 1 1#1
  let main_v3 : IVec S_ 1 := (fun x v => Host.reduce IntOp.andi x v reducesTo_S4x4096x1_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4x4096x1 : Shape := ⟨3, ![4, 4096, 1]⟩
abbrev S4x4096x4096 : Shape := ⟨3, ![4, 4096, 4096]⟩
abbrev S4x4096x128 : Shape := ⟨3, ![4, 4096, 128]⟩
abbrev S128x64 : Shape := ⟨2, ![128, 64]⟩
abbrev S64x64 : Shape := ⟨2, ![64, 64]⟩
abbrev S64 : Shape := ⟨1, ![64]⟩
abbrev S4x4096x64 : Shape := ⟨3, ![4, 4096, 64]⟩
abbrev S1x1024x128 : Shape := ⟨3, ![1, 1024, 128]⟩
abbrev S1x1024x64 : Shape := ⟨3, ![1, 1024, 64]⟩
abbrev S1024x128 : Shape := ⟨2, ![1024, 128]⟩
abbrev S1024x64 : Shape := ⟨2, ![1024, 64]⟩
abbrev S1x64 : Shape := ⟨2, ![1, 64]⟩
abbrev S1x512x4096 : Shape := ⟨3, ![1, 512, 4096]⟩
abbrev S1x4096x64 : Shape := ⟨3, ![1, 4096, 64]⟩
abbrev S1x512x64 : Shape := ⟨3, ![1, 512, 64]⟩
abbrev S1x512x1 : Shape := ⟨3, ![1, 512, 1]⟩
abbrev S512x4096 : Shape := ⟨2, ![512, 4096]⟩
abbrev S4096x64 : Shape := ⟨2, ![4096, 64]⟩
abbrev S512x64 : Shape := ⟨2, ![512, 64]⟩
abbrev S512x1 : Shape := ⟨2, ![512, 1]⟩

abbrev nBuf : Space → Nat
  | .hbm => 19
  | .vmem => 28
  | .smem => 0
  | _ => 0

abbrev bufTy : (tb : Table) → Fin (tcTables nBuf tb) → BufTy
  | .hbm, ⟨0, _⟩ => ⟨S4x4096x1, .f32⟩
  | .hbm, ⟨1, _⟩ => ⟨S4x4096x4096, .f32⟩
  | .hbm, ⟨2, _⟩ => ⟨S4x4096x128, .f32⟩
  | .hbm, ⟨3, _⟩ => ⟨S128x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S4x4096x64, .f32⟩
  | .hbm, ⟨18, _⟩ => ⟨S4x4096x64, .f32⟩
  | .local _ .vmem, ⟨0, _⟩ => ⟨S1x1024x128, .f32⟩
  | .local _ .vmem, ⟨1, _⟩ => ⟨S1x1024x128, .f32⟩
  | .local _ .vmem, ⟨2, _⟩ => ⟨S128x64, .f32⟩
  | .local _ .vmem, ⟨3, _⟩ => ⟨S64, .f32⟩
  | .local _ .vmem, ⟨4, _⟩ => ⟨S1x1024x64, .f32⟩
  | .local _ .vmem, ⟨5, _⟩ => ⟨S1x1024x64, .f32⟩
  | .local _ .vmem, ⟨6, _⟩ => ⟨S1x512x4096, .f32⟩
  | .local _ .vmem, ⟨7, _⟩ => ⟨S1x512x4096, .f32⟩
  | .local _ .vmem, ⟨8, _⟩ => ⟨S1x4096x64, .f32⟩
  | .local _ .vmem, ⟨9, _⟩ => ⟨S1x4096x64, .f32⟩
  | .local _ .vmem, ⟨10, _⟩ => ⟨S1x512x64, .f32⟩
  | .local _ .vmem, ⟨11, _⟩ => ⟨S1x512x64, .f32⟩
  | .local _ .vmem, ⟨12, _⟩ => ⟨S1x512x1, .f32⟩
  | .local _ .vmem, ⟨13, _⟩ => ⟨S1x512x1, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S64x64, .f32⟩
  | .local _ .vmem, ⟨18, _⟩ => ⟨S64x64, .f32⟩
  | .local _ .vmem, ⟨19, _⟩ => ⟨S64x64, .f32⟩
  | .local _ .vmem, ⟨20, _⟩ => ⟨S64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S1x512x64, .f32⟩
  | .local _ .vmem, ⟨27, _⟩ => ⟨S1x512x64, .f32⟩
  | _, _ => ⟨S4x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25
abbrev cc1_sem16_0 : DmaSem sig := 26
abbrev cc1_sem16_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_15 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 2 → Memref sig .tc .vmem S1x512x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S64x64_S64x64_0_0 : ∀ a, (![0, 0] : Fin 2 → Nat) a + S64x64.size a ≤ S64x64.size a
  h_S64x64 : 0 < S64x64.numel
  broadcasts_S1x64_S512x64 : S1x64.Broadcasts S512x64
  broadcasts_S512x1_S512x64 : S512x1.Broadcasts S512x64
  shapeCasts_S512x64_S1x512x64 : S512x64.ShapeCasts S1x512x64
  dot_S1024x128_S128x64_S1024x64_1_0_0_1_n_n_wf : DotDims.WF S1024x128 S128x64 S1024x64 [1] [0] [0] [1] [] []
  dot_S512x4096_S4096x64_S512x64_1_0_0_1_n_n_wf : DotDims.WF S512x4096 S4096x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x4096x64.size a
  hwx0_3 : ∀ i : grid0.Coords, EltTy.bits .f32 = 32 ∨ (Rect.block (s := S4x4096x64) S1x1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S4x4096x4096.size a
  hwx1_0 : ∀ i : grid1.Coords, EltTy.bits .f32 = 32 ∨ (Rect.block (s := S4x4096x4096) S1x512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .f32 = 32 ∨ (Rect.block (s := S4x4096x64) S1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S4x4096x64.size a
  hwx1_2 : ∀ i : grid1.Coords, EltTy.bits .f32 = 32 ∨ (Rect.block (s := S4x4096x64) S1x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1.size a ≤ S4x4096x1.size a
  hwx1_3 : ∀ i : grid1.Coords, EltTy.bits .f32 = 32 ∨ (Rect.block (s := S4x4096x1) S1x512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64.size a ≤ S64.size a
  hwx1_11 : ∀ i : grid1.Coords, EltTy.bits .f32 = 32 ∨ (Rect.block (s := S64) S64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64.size a ≤ S64.size a
  hwx1_12 : ∀ i : grid1.Coords, EltTy.bits .f32 = 32 ∨ (Rect.block (s := S64) S64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64.size a ≤ S64.size a
  hwx1_13 : ∀ i : grid1.Coords, EltTy.bits .f32 = 32 ∨ (Rect.block (s := S64) S64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S64.size a ≤ S64.size a
  hwx1_14 : ∀ i : grid1.Coords, EltTy.bits .f32 = 32 ∨ (Rect.block (s := S64) S64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S64.size a ≤ S64.size a
  hwx1_15 : ∀ i : grid1.Coords, EltTy.bits .f32 = 32 ∨ (Rect.block (s := S64) S64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1x512x64.size a ≤ S4x4096x64.size a
  hwx1_16 : ∀ i : grid1.Coords, EltTy.bits .f32 = 32 ∨ (Rect.block (s := S4x4096x64) S1x512x64.size (cc1_transform_16 i) (hinb1_16 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg2) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg13) S64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg14) S64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg15) S64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg16) S64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v1) S1x512x64.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S4x4096x1 : Shape := ⟨3, ![4, 4096, 1]⟩
abbrev S4x4096x4096 : Shape := ⟨3, ![4, 4096, 4096]⟩
abbrev S4x4096x128 : Shape := ⟨3, ![4, 4096, 128]⟩
abbrev S128x64 : Shape := ⟨2, ![128, 64]⟩
abbrev S64x64 : Shape := ⟨2, ![64, 64]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1, .f32⟩
  | .hbm, ⟨1, _⟩ => ⟨S4x4096x4096, .f32⟩
  | .hbm, ⟨2, _⟩ => ⟨S4x4096x128, .f32⟩
  | .hbm, ⟨3, _⟩ => ⟨S128x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S4x4096x64, .f32⟩
  | .hbm, ⟨18, _⟩ => ⟨S1x1x64, .f32⟩
  | .hbm, ⟨19, _⟩ => ⟨S4x4096x64, .f32⟩
  | .hbm, ⟨20, _⟩ => ⟨S4x4096x64, .f32⟩
  | .hbm, ⟨21, _⟩ => ⟨S4x4096x64, .f32⟩
  | .hbm, ⟨22, _⟩ => ⟨S4x4096x64, .f32⟩
  | .hbm, ⟨23, _⟩ => ⟨S1x1x64, .f32⟩
  | .hbm, ⟨24, _⟩ => ⟨S4x4096x64, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S1x1x64, .f32⟩
  | .hbm, ⟨29, _⟩ => ⟨S4x4096x64, .f32⟩
  | .hbm, ⟨30, _⟩ => ⟨S4x4096x64, .f32⟩
  | .hbm, ⟨31, _⟩ => ⟨S4x4096x64, .f32⟩
  | .hbm, ⟨32, _⟩ => ⟨S4x4096x64, .f32⟩
  | .hbm, ⟨33, _⟩ => ⟨S_, .f32⟩
  | .hbm, ⟨34, _⟩ => ⟨S4x4096x64, .f32⟩
  | .hbm, ⟨35, _⟩ => ⟨S4x4096x64, .f32⟩
  | .hbm, ⟨36, _⟩ => ⟨S_, .f32⟩
  | .hbm, ⟨37, _⟩ => ⟨S4x4096x64, .f32⟩
  | .hbm, ⟨38, _⟩ => ⟨S4x4096x64, .f32⟩
  | .hbm, ⟨39, _⟩ => ⟨S4x4096x64, .f32⟩
  | .hbm, ⟨40, _⟩ => ⟨S1x1x64, .f32⟩
  | .hbm, ⟨41, _⟩ => ⟨S4x4096x64, .f32⟩
  | .hbm, ⟨42, _⟩ => ⟨S4x4096x64, .f32⟩
  | .hbm, ⟨43, _⟩ => ⟨S4x4096x64, .f32⟩
  | .hbm, ⟨44, _⟩ => ⟨S4x4096x64, .f32⟩
  | .hbm, ⟨45, _⟩ => ⟨S1x1x64, .f32⟩
  | .hbm, ⟨46, _⟩ => ⟨S4x4096x64, .f32⟩
  | .hbm, ⟨47, _⟩ => ⟨S4x4096x64, .f32⟩
  | .hbm, ⟨48, _⟩ => ⟨S4x4096x64, .f32⟩
  | .hbm, ⟨49, _⟩ => ⟨S4x4096x64, .f32⟩
  | .hbm, ⟨50, _⟩ => ⟨S_, .f32⟩
  | .hbm, ⟨51, _⟩ => ⟨S4x4096x64, .f32⟩
  | .hbm, ⟨52, _⟩ => ⟨S4x4096x64, .f32⟩
  | .hbm, ⟨53, _⟩ => ⟨S_, .f32⟩
  | .hbm, ⟨54, _⟩ => ⟨S4x4096x64, .f32⟩
  | .hbm, ⟨55, _⟩ => ⟨S4x4096x64, .f32⟩
  | .hbm, ⟨56, _⟩ => ⟨S4x4096x64, .f32⟩
  | .hbm, ⟨57, _⟩ => ⟨S1x1x64, .f32⟩
  | .hbm, ⟨58, _⟩ => ⟨S4x4096x64, .f32⟩
  | .hbm, ⟨59, _⟩ => ⟨S4x4096x64, .f32⟩
  | .hbm, ⟨60, _⟩ => ⟨S4x4096x64, .f32⟩
  | .hbm, ⟨61, _⟩ => ⟨S4x4096x64, .f32⟩
  | .hbm, ⟨62, _⟩ => ⟨S4x4096x64, .f32⟩
  | .hbm, ⟨63, _⟩ => ⟨S1x1x64, .f32⟩
  | .hbm, ⟨64, _⟩ => ⟨S4x4096x64, .f32⟩
  | .hbm, ⟨65, _⟩ => ⟨S4x4096x64, .f32⟩
  | .hbm, ⟨66, _⟩ => ⟨S4x4096x64, .f32⟩
  | .hbm, ⟨67, _⟩ => ⟨S4x4096x64, .f32⟩
  | .hbm, ⟨68, _⟩ => ⟨S_, .f32⟩
  | .hbm, ⟨69, _⟩ => ⟨S4x4096x64, .f32⟩
  | .hbm, ⟨70, _⟩ => ⟨S4x4096x64, .f32⟩
  | .hbm, ⟨71, _⟩ => ⟨S4x4096x64, .f32⟩
  | .hbm, ⟨72, _⟩ => ⟨S_, .f32⟩
  | .hbm, ⟨73, _⟩ => ⟨S4x4096x64, .f32⟩
  | .hbm, ⟨74, _⟩ => ⟨S4x4096x64, .f32⟩
  | .hbm, ⟨75, _⟩ => ⟨S4x4096x64, .f32⟩
  | .hbm, ⟨76, _⟩ => ⟨S4x4096x64, .f32⟩
  | _, _ => ⟨S4x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_cst : Ref sig .tc := ⟨.hbm, 68, rfl⟩
abbrev main_call0_v0 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x64 : S_.BroadcastsInDim S4x4096x64 (![] : Fin 0 → Fin S4x4096x64.rank)
  bcast_S4x4096x1_S4x4096x64_0_1_2 : S4x4096x1.BroadcastsInDim S4x4096x64 (![0, 1, 2] : Fin 3 → Fin S4x4096x64.rank)
  dot_S4x4096x128_S128x64_S4x4096x64_2_0_01_1_n_n_wf : DotDims.WF S4x4096x128 S128x64 S4x4096x64 [2] [0] [0, 1] [1] [] []
  dot_S4x4096x4096_S4x4096x64_S4x4096x64_2_1_1_2_0_0_wf : DotDims.WF S4x4096x4096 S4x4096x64 S4x4096x64 [2] [1] [1] [2] [0] [0]
  dot_S4x4096x64_S64x64_S4x4096x64_2_0_01_1_n_n_wf : DotDims.WF S4x4096x64 S64x64 S4x4096x64 [2] [0] [0, 1] [1] [] []

variable [Facts₀]

def dot_S4x4096x128_S128x64_S4x4096x64_2_0_01_1_n_n : DotDims S4x4096x128 S128x64 S4x4096x64 where
  lhsContracting := [2]
  rhsContracting := [0]
  lhsNonContracting := [0, 1]
  rhsNonContracting := [1]
  lhsBatch := []
  rhsBatch := []
  wf := dot_S4x4096x128_S128x64_S4x4096x64_2_0_01_1_n_n_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S64x64_S4x4096x64_2_0_01_1_n_n : DotDims S4x4096x64 S64x64 S4x4096x64 where
  lhsContracting := [2]
  rhsContracting := [0]
  lhsNonContracting := [0, 1]
  rhsNonContracting := [1]
  lhsBatch := []
  rhsBatch := []
  wf := dot_S4x4096x64_S64x64_S4x4096x64_2_0_01_1_n_n_wf

class Facts : Prop extends Facts₀ where

variable [Facts]
-- ==== Proof.KEncodeBody.lean ====
/-
  The encoder region (the first kernel launch), at the contents `V` the TensorCore's buffers hold when it is entered.

  Its grid has 16 points, (batch b, row tile i) with 1024 rows to a tile. At a point the body reads the tile of node
  features (1 × 1024 × 128), the whole encoder matrix (128 × 64) and the whole bias (64), and writes the tile of
  encoded features (1 × 1024 × 64): one store that covers the output block. So what the body leaves in the output
  window's buffer is one function of the three input blocks, `encOut`; the input windows' buffers are left as found.
  The proof data records exactly that, nothing owed and every array held whole, and the body obligation says the
  kernel function, run on those buffers, does it.
-/
import proofs.«168815_j88132728914046_1_alg».proof.Proof.Gen.Kernel.Launch
import proofs.«168815_j88132728914046_1_alg».proof.Proof.Gen.Kernel.Skeleton
import proofs.«168815_j88132728914046_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Encode

variable (V : (c : Dev nD) → (b : Ref sig .tc) → Buf (Elt F) ((c : Thread nD τ).loc b))

/-- Window `w`'s block at point `t`, read off its array as the region finds it. -/
def encBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rFeat : Rect S1x1024x128 := Rect.unit (s := S1x1024x128) ![0, 0, 0] S1x1024x128.size inb_S1x1024x128_S1x1024x128_0_0_0
abbrev rEncW : Rect S128x64 := Rect.unit (s := S128x64) ![0, 0] S128x64.size inb_S128x64_S128x64_0_0
abbrev rBias : Rect S64 := Rect.unit (s := S64) ![0] S64.size inb_S64_S64_0
abbrev rEnc : Rect S1x1024x64 := Rect.unit (s := S1x1024x64) ![0, 0, 0] S1x1024x64.size inb_S1x1024x64_S1x1024x64_0_0_0

/-- What the body leaves in the output window's buffer, from the three input blocks: its one store. -/
def encOut (x : Vec F S1x1024x128 .f32) (w : Vec F S128x64 .f32) (b : Vec F S64 .f32) : Vec F S1x1024x64 .f32 :=
  View.canon [⟨rEnc, k0_pay1 (View.ld x rFeat) (View.ld w rEncW) (View.ld b rBias)⟩]

/-- The proof data of the encoder's pipeline on core `c`. -/
def encDat (c : Dev nD) : Dat τ (Elt F) Unit ℕ (Pipeline.UD sig nD τ) ℕ cfg0 c where
  A w := V c (Pipeline.arrRef spec0 w)
  after w t := match w with
    | ⟨0, _⟩ => encBlk V c 0 t
    | ⟨1, _⟩ => encBlk V c 1 t
    | ⟨2, _⟩ => encBlk V c 2 t
    | ⟨3, _⟩ => encOut (encBlk V c 0 t) (encBlk V c 1 t) (encBlk V c 2 t)
  Φ _ := Pipeline.ΦA spec0 c
  q _ := fullShare
  owed _ := 0

theorem encDat_A (c : Dev nD) (w : Fin cfg0.W) : (encDat V c).A w = V c (Pipeline.arrRef spec0 w) := by
  dsimp only [encDat]

theorem encDat_after_out (c : Dev nD) (t : Fin cfg0.N) :
    (encDat V c).after 3 t = encOut (encBlk V c 0 t) (encBlk V c 1 t) (encBlk V c 2 t) := by dsimp only [encDat]

/-! ## What the body finds in each input window's buffer -/

/-- The feature tile's staging buffer holds its block at every point, for any proof data whose array is the one the
    region finds and whose body leaves the block in place: the window is fetched at every point, uncut, never idle. -/
private theorem encBefore0_of {c : Dev nD} (dat : Dat τ (Elt F) Unit ℕ (Pipeline.UD sig nD τ) ℕ cfg0 c) (hA : dat.A 0 = V c (Pipeline.arrRef spec0 0))
    (hafter : ∀ t, dat.after 0 t = encBlk V c 0 t) (t : Fin cfg0.N) (d) : dat.before 0 t d = encBlk V c 0 t :=
  (dat.before_in_eq_fetched 0 rfl (fun _ => rfl) (fun _ _ _ => rfl) (fun t => by rw [hafter]; unfold Dat.blockOf encBlk; rw [hA]; try rfl) t d).trans
    (by unfold Dat.fetched Dat.blockOf encBlk; rw [hA]; try rfl)

/-- The encoder matrix's staging buffer holds the whole matrix at every point: fetched at the first point only, its
    block index never moves afterwards, so the buffer still holds what the first fetch put there. -/
private theorem encBefore1_of {c : Dev nD} (dat : Dat τ (Elt F) Unit ℕ (Pipeline.UD sig nD τ) ℕ cfg0 c) (hA : dat.A 1 = V c (Pipeline.arrRef spec0 1))
    (hafter : ∀ t, dat.after 1 t = encBlk V c 1 t) (t : Fin cfg0.N) (d) : dat.before 1 t d = encBlk V c 1 t :=
  (dat.before_in_eq_fetched 1 rfl (fun _ => rfl) (fun _ _ _ => rfl) (fun t => by rw [hafter]; unfold Dat.blockOf encBlk; rw [hA]; try rfl) t d).trans
    (by unfold Dat.fetched Dat.blockOf encBlk; rw [hA]; try rfl)

/-- The bias's staging buffer holds the whole bias at every point, for the same reason. -/
private theorem encBefore2_of {c : Dev nD} (dat : Dat τ (Elt F) Unit ℕ (Pipeline.UD sig nD τ) ℕ cfg0 c) (hA : dat.A 2 = V c (Pipeline.arrRef spec0 2))
    (hafter : ∀ t, dat.after 2 t = encBlk V c 2 t) (t : Fin cfg0.N) (d) : dat.before 2 t d = encBlk V c 2 t :=
  (dat.before_in_eq_fetched 2 rfl (fun _ => rfl) (fun _ _ _ => rfl) (fun t => by rw [hafter]; unfold Dat.blockOf encBlk; rw [hA]; try rfl) t d).trans
    (by unfold Dat.fetched Dat.blockOf encBlk; rw [hA]; try rfl)

/-! ## The one store covers the output block -/

/-- The store's rectangle is the whole 1 × 1024 × 64 block, so every index of the block lies in it. -/
private theorem encCover (p : Vec F S1x1024x64 .f32) (y : S1x1024x64.Idx) :
    ∃ pc ∈ ([⟨rEnc, p⟩] : List (View.Piece (Elt F) S1x1024x64 .f32)), y ∈ pc.1.set :=
  View.cover_of_tiled [⟨rEnc, p⟩] S1x1024x64.size (by rfl) y

/-! ## The body's triple -/

set_option maxHeartbeats 1000000 in
/-- The encoder's body on whole staging memrefs: the three inputs' at read contents `x`, `w`, `b` and the output's at
    anything. It loads the three inputs whole, loads the output buffer (a value it never uses), and stores
    `x · w + b` (the payload) over the whole output block; so it ends with the inputs as they were and the output at
    `encOut x w b`, whatever the output buffer held before. -/
private theorem encKernel (c : Dev nD) (E : Set ℕ) (i : grid0.Coords)
    (arg2 : Memref sig .tc .vmem S1x1024x128 .f32) (harg2 : arg2.IsWhole)
    (arg3 : Memref sig .tc .vmem S128x64 .f32) (harg3 : arg3.IsWhole)
    (arg4 : Memref sig .tc .vmem S64 .f32) (harg4 : arg4.IsWhole)
    (arg5 : Memref sig .tc .vmem S1x1024x64 .f32) (harg5 : arg5.IsWhole)
    (x : Vec F S1x1024x128 .f32) (w : Vec F S128x64 .f32) (b : Vec F S64 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (encOut x w b)) -∗ K ⟨⟩))
      ⊢ wp frame (wpE (defs₀ (F := F)) Variants.none c none) E (cc0__encode_kernel i arg2 harg2 arg3 harg3 arg4 harg4 arg5 harg5) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (encCover _)

/-! ## The proof data, window by window -/

/-- What the body leaves in the three input windows' buffers: their blocks. -/
private theorem encAfter0 (c : Dev nD) (t : Fin cfg0.N) : (encDat V c).after 0 t = encBlk V c 0 t := by dsimp only [encDat]
private theorem encAfter1 (c : Dev nD) (t : Fin cfg0.N) : (encDat V c).after 1 t = encBlk V c 1 t := by dsimp only [encDat]
private theorem encAfter2 (c : Dev nD) (t : Fin cfg0.N) : (encDat V c).after 2 t = encBlk V c 2 t := by dsimp only [encDat]

/-- Each input window's current staging buffer holds its block at every point, fetched there or not. -/
private theorem encBefore0 (c : Dev nD) (t : Fin cfg0.N) (d) : (encDat V c).before 0 t d = encBlk V c 0 t :=
  encBefore0_of V (encDat V c) (encDat_A V c 0) (encAfter0 V c) t d
private theorem encBefore1 (c : Dev nD) (t : Fin cfg0.N) (d) : (encDat V c).before 1 t d = encBlk V c 1 t :=
  encBefore1_of V (encDat V c) (encDat_A V c 1) (encAfter1 V c) t d
private theorem encBefore2 (c : Dev nD) (t : Fin cfg0.N) (d) : (encDat V c).before 2 t d = encBlk V c 2 t :=
  encBefore2_of V (encDat V c) (encDat_A V c 2) (encAfter2 V c) t d

/-! ## The body obligation at a point -/

/-- What the body is called with at point `t`: the invariant, the core's debt (none), and each window's current
    staging buffer whole, at what the pipeline left in it. -/
private def encPre (c : Dev nD) (t : Fin cfg0.N) : sProp 𝕄 :=
  iprop((encDat V c).Φ t.castSucc ∗ (encDat V c).owesAt () t.castSucc
    ∗ (∃ d, owns (c : Thread nD τ) (st0_0 t) fullShare ((encDat V c).before 0 t d))
    ∗ (∃ d, owns (c : Thread nD τ) (st0_1 t) fullShare ((encDat V c).before 1 t d))
    ∗ (∃ d, owns (c : Thread nD τ) (st0_2 t) fullShare ((encDat V c).before 2 t d))
    ∗ (∃ d, owns (c : Thread nD τ) (st0_3 t) fullShare ((encDat V c).before 3 t d)))

/-- What it returns: the same invariant and debt, and each buffer at what the proof data says the body leaves. -/
private def encPost (c : Dev nD) (t : Fin cfg0.N) : sProp 𝕄 :=
  iprop((encDat V c).Φ t.succ ∗ (encDat V c).owesAt () t.succ
    ∗ owns (c : Thread nD τ) (st0_0 t) fullShare ((encDat V c).after 0 t)
    ∗ owns (c : Thread nD τ) (st0_1 t) fullShare ((encDat V c).after 1 t)
    ∗ owns (c : Thread nD τ) (st0_2 t) fullShare ((encDat V c).after 2 t)
    ∗ owns (c : Thread nD τ) (st0_3 t) fullShare ((encDat V c).after 3 t))

/-- The body at any point: the three input buffers hold their blocks, so the body's triple applies at those blocks;
    the invariant and the debt are not touched by the body and pass through. -/
private theorem encBody (c : Dev nD) (t : Fin cfg0.N) :
    encPre V c t ⊢ wp frame (wpE (defs₀ (F := F)) Variants.none c none) Set.univ (bodyAt0 t) (fun _ => encPost V c t) := by
  unfold encPre encPost bodyAt0
  simp only [encBefore0, encBefore1, encBefore2]
  rw [show (encDat V c).Φ t.succ = (encDat V c).Φ t.castSucc from rfl,
    show (encDat V c).owesAt () t.succ = (encDat V c).owesAt () t.castSucc from rfl,
    encAfter0, encAfter1, encAfter2, encDat_after_out]
  iintro ⟨HΦ, Ho, ⟨%d0, H0⟩, ⟨%d1, H1⟩, ⟨%d2, H2⟩, ⟨%d3, H3⟩⟩
  iapply (encKernel c Set.univ (grid0.coords t) _ _ _ _ _ _ _ _ (encBlk V c 0 t) (encBlk V c 1 t) (encBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the encoder's pipeline, at every point. -/
theorem encObligation (c : Dev nD) : BodyObligation (encDat (F := F) V c) (defs₀ (F := F)) Variants.none () Set.univ := fun t => by
  rw [bigSep_W0, bigSep_W0]
  exact encBody V c t

end Encode

end Cert.Kernel.Hand

end
-- ==== Proof.KUpdateBody.lean ====
/-
  The update region (the second kernel launch), at the contents `V` the TensorCore's buffers hold when it is entered.

  Its grid has 32 points, (batch b, row tile i) with 512 rows to a tile. At a point the body reads the tile of
  adjacency rows (1 × 512 × 4096), the batch's encoded features whole (1 × 4096 × 64) and their tile (1 × 512 × 64),
  the mask's tile (1 × 512 × 1), the six gate matrices and the six gate biases, and writes the tile of results
  (1 × 512 × 64): one store that covers the output block. What it leaves in the output window's buffer is one function
  of the sixteen input blocks, `updOut`. The encoded features reach the kernel through TWO windows on one array, the
  whole batch and the tile; both only read it, so the proof data holds the left half of that array's share for one and
  the right half for the other, and the full share of every other array.
-/
import proofs.«168815_j88132728914046_1_alg».proof.Proof.Gen.Kernel.Launch
import proofs.«168815_j88132728914046_1_alg».proof.Proof.Gen.Kernel.Skeleton
import proofs.«168815_j88132728914046_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Update

variable (V : (c : Dev nD) → (b : Ref sig .tc) → Buf (Elt F) ((c : Thread nD τ).loc b))

/-- Window `w`'s block at point `t`, read off its array as the region finds it. -/
def updBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rAdj : Rect S1x512x4096 := Rect.unit (s := S1x512x4096) ![0, 0, 0] S1x512x4096.size inb_S1x512x4096_S1x512x4096_0_0_0
abbrev rAll : Rect S1x4096x64 := Rect.unit (s := S1x4096x64) ![0, 0, 0] S1x4096x64.size inb_S1x4096x64_S1x4096x64_0_0_0
abbrev rTile : Rect S1x512x64 := Rect.unit (s := S1x512x64) ![0, 0, 0] S1x512x64.size inb_S1x512x64_S1x512x64_0_0_0
abbrev rMask : Rect S1x512x1 := Rect.unit (s := S1x512x1) ![0, 0, 0] S1x512x1.size inb_S1x512x1_S1x512x1_0_0_0
abbrev rGateW : Rect S64x64 := Rect.unit (s := S64x64) ![0, 0] S64x64.size inb_S64x64_S64x64_0_0
abbrev rGateB : Rect S64 := Rect.unit (s := S64) ![0] S64.size inb_S64_S64_0

/-- What the body leaves in the output window's buffer, from the sixteen input blocks (in window order: adjacency tile,
    features whole, features tile, mask tile, the matrices of the update, reset and candidate gates, their biases):
    its one store. -/
def updOut (adj : Vec F S1x512x4096 .f32) (all : Vec F S1x4096x64 .f32) (own : Vec F S1x512x64 .f32) (msk : Vec F S1x512x1 .f32) (wz0 : Vec F S64x64 .f32) (wz1 : Vec F S64x64 .f32) (wr0 : Vec F S64x64 .f32) (wr1 : Vec F S64x64 .f32) (wh0 : Vec F S64x64 .f32) (wh1 : Vec F S64x64 .f32) (bz0 : Vec F S64 .f32) (bz1 : Vec F S64 .f32) (br0 : Vec F S64 .f32) (br1 : Vec F S64 .f32) (bh0 : Vec F S64 .f32) (bh1 : Vec F S64 .f32) : Vec F S1x512x64 .f32 :=
  View.canon [⟨rTile, k1_pay11 (k1_pay1 (View.ld own rTile)) (k1_pay2 (View.ld msk rMask)) (k1_pay3 (View.ld adj rAdj) (View.ld all rAll)) (k1_pay4 (View.ld own rTile))
      (k1_pay5 (View.ld wz1 rGateW)) (k1_pay6 (View.ld wr0 rGateW)) (k1_pay7 (View.ld wr1 rGateW)) (k1_pay8 (View.ld wh0 rGateW)) (k1_pay9 (View.ld wh1 rGateW))
      (k1_pay10 (View.ld adj rAdj) (View.ld all rAll) (View.ld wz0 rGateW) (View.ld bz0 rGateB)) (constant S512x64 .f32 0x00000000#32)
      (View.ld bz1 rGateB) (View.ld br0 rGateB) (View.ld br1 rGateB) (View.ld bh0 rGateB) (View.ld bh1 rGateB)⟩]

/-- The proof data of the update's pipeline on core `c`. -/
def updDat (c : Dev nD) : Dat τ (Elt F) Unit ℕ (Pipeline.UD sig nD τ) ℕ cfg1 c where
  A w := V c (Pipeline.arrRef spec1 w)
  after w t := match w with
    | ⟨0, _⟩ => updBlk V c 0 t
    | ⟨1, _⟩ => updBlk V c 1 t
    | ⟨2, _⟩ => updBlk V c 2 t
    | ⟨3, _⟩ => updBlk V c 3 t
    | ⟨4, _⟩ => updBlk V c 4 t
    | ⟨5, _⟩ => updBlk V c 5 t
    | ⟨6, _⟩ => updBlk V c 6 t
    | ⟨7, _⟩ => updBlk V c 7 t
    | ⟨8, _⟩ => updBlk V c 8 t
    | ⟨9, _⟩ => updBlk V c 9 t
    | ⟨10, _⟩ => updBlk V c 10 t
    | ⟨11, _⟩ => updBlk V c 11 t
    | ⟨12, _⟩ => updBlk V c 12 t
    | ⟨13, _⟩ => updBlk V c 13 t
    | ⟨14, _⟩ => updBlk V c 14 t
    | ⟨15, _⟩ => updBlk V c 15 t
    | ⟨16, _⟩ => updOut (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t)
    | ⟨_ + 17, h⟩ => absurd h (Nat.not_lt.2 (Nat.le_add_left _ _))
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem updDat_A (c : Dev nD) (w : Fin cfg1.W) : (updDat V c).A w = V c (Pipeline.arrRef spec1 w) := by
  dsimp only [updDat]

theorem updDat_after_out (c : Dev nD) (t : Fin cfg1.N) :
    (updDat V c).after 16 t = updOut (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t) := by dsimp only [updDat]

/-! ## The input windows' staging buffers at a point -/

/-- An input window's current staging buffer holds its block at every point, fetched there or not, for any proof data whose
    array is the region's and whose body leaves the block in place: unfetched, the window's block index has not moved, and
    the block left at the point before is this point's. Window by window (every window uncut and never idle). -/
theorem updBefore_0_of {c : Dev nD} (dat : Dat τ (Elt F) Unit ℕ (Pipeline.UD sig nD τ) ℕ cfg1 c) (hA : dat.A 0 = V c (Pipeline.arrRef spec1 0))
    (hafter : ∀ t, dat.after 0 t = updBlk V c 0 t) (t : Fin cfg1.N) (d) : dat.before 0 t d = updBlk V c 0 t :=
  (dat.before_in_eq_fetched 0 rfl (fun _ => rfl) (fun _ _ _ => rfl) (fun t => by rw [hafter]; unfold Dat.blockOf updBlk; rw [hA]; try rfl) t d).trans
    (by unfold Dat.fetched Dat.blockOf updBlk; rw [hA]; try rfl)

theorem updBefore_1_of {c : Dev nD} (dat : Dat τ (Elt F) Unit ℕ (Pipeline.UD sig nD τ) ℕ cfg1 c) (hA : dat.A 1 = V c (Pipeline.arrRef spec1 1))
    (hafter : ∀ t, dat.after 1 t = updBlk V c 1 t) (t : Fin cfg1.N) (d) : dat.before 1 t d = updBlk V c 1 t :=
  (dat.before_in_eq_fetched 1 rfl (fun _ => rfl) (fun _ _ _ => rfl) (fun t => by rw [hafter]; unfold Dat.blockOf updBlk; rw [hA]; try rfl) t d).trans
    (by unfold Dat.fetched Dat.blockOf updBlk; rw [hA]; try rfl)

theorem updBefore_2_of {c : Dev nD} (dat : Dat τ (Elt F) Unit ℕ (Pipeline.UD sig nD τ) ℕ cfg1 c) (hA : dat.A 2 = V c (Pipeline.arrRef spec1 2))
    (hafter : ∀ t, dat.after 2 t = updBlk V c 2 t) (t : Fin cfg1.N) (d) : dat.before 2 t d = updBlk V c 2 t :=
  (dat.before_in_eq_fetched 2 rfl (fun _ => rfl) (fun _ _ _ => rfl) (fun t => by rw [hafter]; unfold Dat.blockOf updBlk; rw [hA]; try rfl) t d).trans
    (by unfold Dat.fetched Dat.blockOf updBlk; rw [hA]; try rfl)

theorem updBefore_3_of {c : Dev nD} (dat : Dat τ (Elt F) Unit ℕ (Pipeline.UD sig nD τ) ℕ cfg1 c) (hA : dat.A 3 = V c (Pipeline.arrRef spec1 3))
    (hafter : ∀ t, dat.after 3 t = updBlk V c 3 t) (t : Fin cfg1.N) (d) : dat.before 3 t d = updBlk V c 3 t :=
  (dat.before_in_eq_fetched 3 rfl (fun _ => rfl) (fun _ _ _ => rfl) (fun t => by rw [hafter]; unfold Dat.blockOf updBlk; rw [hA]; try rfl) t d).trans
    (by unfold Dat.fetched Dat.blockOf updBlk; rw [hA]; try rfl)

theorem updBefore_4_of {c : Dev nD} (dat : Dat τ (Elt F) Unit ℕ (Pipeline.UD sig nD τ) ℕ cfg1 c) (hA : dat.A 4 = V c (Pipeline.arrRef spec1 4))
    (hafter : ∀ t, dat.after 4 t = updBlk V c 4 t) (t : Fin cfg1.N) (d) : dat.before 4 t d = updBlk V c 4 t :=
  (dat.before_in_eq_fetched 4 rfl (fun _ => rfl) (fun _ _ _ => rfl) (fun t => by rw [hafter]; unfold Dat.blockOf updBlk; rw [hA]; try rfl) t d).trans
    (by unfold Dat.fetched Dat.blockOf updBlk; rw [hA]; try rfl)

theorem updBefore_5_of {c : Dev nD} (dat : Dat τ (Elt F) Unit ℕ (Pipeline.UD sig nD τ) ℕ cfg1 c) (hA : dat.A 5 = V c (Pipeline.arrRef spec1 5))
    (hafter : ∀ t, dat.after 5 t = updBlk V c 5 t) (t : Fin cfg1.N) (d) : dat.before 5 t d = updBlk V c 5 t :=
  (dat.before_in_eq_fetched 5 rfl (fun _ => rfl) (fun _ _ _ => rfl) (fun t => by rw [hafter]; unfold Dat.blockOf updBlk; rw [hA]; try rfl) t d).trans
    (by unfold Dat.fetched Dat.blockOf updBlk; rw [hA]; try rfl)

theorem updBefore_6_of {c : Dev nD} (dat : Dat τ (Elt F) Unit ℕ (Pipeline.UD sig nD τ) ℕ cfg1 c) (hA : dat.A 6 = V c (Pipeline.arrRef spec1 6))
    (hafter : ∀ t, dat.after 6 t = updBlk V c 6 t) (t : Fin cfg1.N) (d) : dat.before 6 t d = updBlk V c 6 t :=
  (dat.before_in_eq_fetched 6 rfl (fun _ => rfl) (fun _ _ _ => rfl) (fun t => by rw [hafter]; unfold Dat.blockOf updBlk; rw [hA]; try rfl) t d).trans
    (by unfold Dat.fetched Dat.blockOf updBlk; rw [hA]; try rfl)

theorem updBefore_7_of {c : Dev nD} (dat : Dat τ (Elt F) Unit ℕ (Pipeline.UD sig nD τ) ℕ cfg1 c) (hA : dat.A 7 = V c (Pipeline.arrRef spec1 7))
    (hafter : ∀ t, dat.after 7 t = updBlk V c 7 t) (t : Fin cfg1.N) (d) : dat.before 7 t d = updBlk V c 7 t :=
  (dat.before_in_eq_fetched 7 rfl (fun _ => rfl) (fun _ _ _ => rfl) (fun t => by rw [hafter]; unfold Dat.blockOf updBlk; rw [hA]; try rfl) t d).trans
    (by unfold Dat.fetched Dat.blockOf updBlk; rw [hA]; try rfl)

theorem updBefore_8_of {c : Dev nD} (dat : Dat τ (Elt F) Unit ℕ (Pipeline.UD sig nD τ) ℕ cfg1 c) (hA : dat.A 8 = V c (Pipeline.arrRef spec1 8))
    (hafter : ∀ t, dat.after 8 t = updBlk V c 8 t) (t : Fin cfg1.N) (d) : dat.before 8 t d = updBlk V c 8 t :=
  (dat.before_in_eq_fetched 8 rfl (fun _ => rfl) (fun _ _ _ => rfl) (fun t => by rw [hafter]; unfold Dat.blockOf updBlk; rw [hA]; try rfl) t d).trans
    (by unfold Dat.fetched Dat.blockOf updBlk; rw [hA]; try rfl)

theorem updBefore_9_of {c : Dev nD} (dat : Dat τ (Elt F) Unit ℕ (Pipeline.UD sig nD τ) ℕ cfg1 c) (hA : dat.A 9 = V c (Pipeline.arrRef spec1 9))
    (hafter : ∀ t, dat.after 9 t = updBlk V c 9 t) (t : Fin cfg1.N) (d) : dat.before 9 t d = updBlk V c 9 t :=
  (dat.before_in_eq_fetched 9 rfl (fun _ => rfl) (fun _ _ _ => rfl) (fun t => by rw [hafter]; unfold Dat.blockOf updBlk; rw [hA]; try rfl) t d).trans
    (by unfold Dat.fetched Dat.blockOf updBlk; rw [hA]; try rfl)

theorem updBefore_10_of {c : Dev nD} (dat : Dat τ (Elt F) Unit ℕ (Pipeline.UD sig nD τ) ℕ cfg1 c) (hA : dat.A 10 = V c (Pipeline.arrRef spec1 10))
    (hafter : ∀ t, dat.after 10 t = updBlk V c 10 t) (t : Fin cfg1.N) (d) : dat.before 10 t d = updBlk V c 10 t :=
  (dat.before_in_eq_fetched 10 rfl (fun _ => rfl) (fun _ _ _ => rfl) (fun t => by rw [hafter]; unfold Dat.blockOf updBlk; rw [hA]; try rfl) t d).trans
    (by unfold Dat.fetched Dat.blockOf updBlk; rw [hA]; try rfl)

theorem updBefore_11_of {c : Dev nD} (dat : Dat τ (Elt F) Unit ℕ (Pipeline.UD sig nD τ) ℕ cfg1 c) (hA : dat.A 11 = V c (Pipeline.arrRef spec1 11))
    (hafter : ∀ t, dat.after 11 t = updBlk V c 11 t) (t : Fin cfg1.N) (d) : dat.before 11 t d = updBlk V c 11 t :=
  (dat.before_in_eq_fetched 11 rfl (fun _ => rfl) (fun _ _ _ => rfl) (fun t => by rw [hafter]; unfold Dat.blockOf updBlk; rw [hA]; try rfl) t d).trans
    (by unfold Dat.fetched Dat.blockOf updBlk; rw [hA]; try rfl)

theorem updBefore_12_of {c : Dev nD} (dat : Dat τ (Elt F) Unit ℕ (Pipeline.UD sig nD τ) ℕ cfg1 c) (hA : dat.A 12 = V c (Pipeline.arrRef spec1 12))
    (hafter : ∀ t, dat.after 12 t = updBlk V c 12 t) (t : Fin cfg1.N) (d) : dat.before 12 t d = updBlk V c 12 t :=
  (dat.before_in_eq_fetched 12 rfl (fun _ => rfl) (fun _ _ _ => rfl) (fun t => by rw [hafter]; unfold Dat.blockOf updBlk; rw [hA]; try rfl) t d).trans
    (by unfold Dat.fetched Dat.blockOf updBlk; rw [hA]; try rfl)

theorem updBefore_13_of {c : Dev nD} (dat : Dat τ (Elt F) Unit ℕ (Pipeline.UD sig nD τ) ℕ cfg1 c) (hA : dat.A 13 = V c (Pipeline.arrRef spec1 13))
    (hafter : ∀ t, dat.after 13 t = updBlk V c 13 t) (t : Fin cfg1.N) (d) : dat.before 13 t d = updBlk V c 13 t :=
  (dat.before_in_eq_fetched 13 rfl (fun _ => rfl) (fun _ _ _ => rfl) (fun t => by rw [hafter]; unfold Dat.blockOf updBlk; rw [hA]; try rfl) t d).trans
    (by unfold Dat.fetched Dat.blockOf updBlk; rw [hA]; try rfl)

theorem updBefore_14_of {c : Dev nD} (dat : Dat τ (Elt F) Unit ℕ (Pipeline.UD sig nD τ) ℕ cfg1 c) (hA : dat.A 14 = V c (Pipeline.arrRef spec1 14))
    (hafter : ∀ t, dat.after 14 t = updBlk V c 14 t) (t : Fin cfg1.N) (d) : dat.before 14 t d = updBlk V c 14 t :=
  (dat.before_in_eq_fetched 14 rfl (fun _ => rfl) (fun _ _ _ => rfl) (fun t => by rw [hafter]; unfold Dat.blockOf updBlk; rw [hA]; try rfl) t d).trans
    (by unfold Dat.fetched Dat.blockOf updBlk; rw [hA]; try rfl)

theorem updBefore_15_of {c : Dev nD} (dat : Dat τ (Elt F) Unit ℕ (Pipeline.UD sig nD τ) ℕ cfg1 c) (hA : dat.A 15 = V c (Pipeline.arrRef spec1 15))
    (hafter : ∀ t, dat.after 15 t = updBlk V c 15 t) (t : Fin cfg1.N) (d) : dat.before 15 t d = updBlk V c 15 t :=
  (dat.before_in_eq_fetched 15 rfl (fun _ => rfl) (fun _ _ _ => rfl) (fun t => by rw [hafter]; unfold Dat.blockOf updBlk; rw [hA]; try rfl) t d).trans
    (by unfold Dat.fetched Dat.blockOf updBlk; rw [hA]; try rfl)

/-! ## The body's one store -/

/-- The body's one store is through the whole-buffer rectangle, so it covers the output buffer. -/
theorem updCover (p : Vec F S1x512x64 .f32) (y : S1x512x64.Idx) :
    ∃ pc ∈ ([⟨rTile, p⟩] : List (View.Piece (Elt F) S1x512x64 .f32)), y ∈ pc.1.set :=
  View.cover_of_tiled [⟨rTile, p⟩] S1x512x64.size (by rfl) y

/-! ## The body's triple -/

set_option maxHeartbeats 4000000 in
/-- The body on whole staging memrefs — the sixteen inputs' reading `adj` … `bh1`, the output's holding anything — runs to
    the continuation with the inputs' as they were and the output's at `updOut` of the inputs: the printed functions are
    their skeletons, part by part; every load reads a buffer whole (the one of the output buffer is dead), and the one
    store covers the output buffer, so what it holds afterwards is the store's payload laid over it. -/
theorem updKernel (c : Dev nD) (E : Set ℕ) (i : grid1.Coords) (arg2 : Memref sig .tc .vmem S1x512x4096 .f32) (harg2 : arg2.IsWhole) (arg3 : Memref sig .tc .vmem S1x4096x64 .f32) (harg3 : arg3.IsWhole) (arg4 : Memref sig .tc .vmem S1x512x64 .f32) (harg4 : arg4.IsWhole) (arg5 : Memref sig .tc .vmem S1x512x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64 .f32) (harg13 : arg13.IsWhole) (arg14 : Memref sig .tc .vmem S64 .f32) (harg14 : arg14.IsWhole) (arg15 : Memref sig .tc .vmem S64 .f32) (harg15 : arg15.IsWhole) (arg16 : Memref sig .tc .vmem S64 .f32) (harg16 : arg16.IsWhole) (arg17 : Memref sig .tc .vmem S64 .f32) (harg17 : arg17.IsWhole) (arg18 : Memref sig .tc .vmem S1x512x64 .f32) (harg18 : arg18.IsWhole)
    (adj : Vec F S1x512x4096 .f32) (all : Vec F S1x4096x64 .f32) (own : Vec F S1x512x64 .f32) (msk : Vec F S1x512x1 .f32) (wz0 : Vec F S64x64 .f32) (wz1 : Vec F S64x64 .f32) (wr0 : Vec F S64x64 .f32) (wr1 : Vec F S64x64 .f32) (wh0 : Vec F S64x64 .f32) (wh1 : Vec F S64x64 .f32) (bz0 : Vec F S64 .f32) (bz1 : Vec F S64 .f32) (br0 : Vec F S64 .f32) (br1 : Vec F S64 .f32) (bh0 : Vec F S64 .f32) (bh1 : Vec F S64 .f32) (K : PUnit → sProp 𝕄) :
    iprop(owns (c : Thread nD τ) arg2 fullShare adj ∗ owns (c : Thread nD τ) arg3 fullShare all ∗ owns (c : Thread nD τ) arg4 fullShare own ∗ owns (c : Thread nD τ) arg5 fullShare msk ∗ owns (c : Thread nD τ) arg6 fullShare wz0 ∗ owns (c : Thread nD τ) arg7 fullShare wz1 ∗ owns (c : Thread nD τ) arg8 fullShare wr0 ∗ owns (c : Thread nD τ) arg9 fullShare wr1 ∗ owns (c : Thread nD τ) arg10 fullShare wh0 ∗ owns (c : Thread nD τ) arg11 fullShare wh1 ∗ owns (c : Thread nD τ) arg12 fullShare bz0 ∗ owns (c : Thread nD τ) arg13 fullShare bz1 ∗ owns (c : Thread nD τ) arg14 fullShare br0 ∗ owns (c : Thread nD τ) arg15 fullShare br1 ∗ owns (c : Thread nD τ) arg16 fullShare bh0 ∗ owns (c : Thread nD τ) arg17 fullShare bh1 ∗ (∃ d, owns (c : Thread nD τ) arg18 fullShare d)
        ∗ (iprop(owns (c : Thread nD τ) arg2 fullShare adj ∗ owns (c : Thread nD τ) arg3 fullShare all ∗ owns (c : Thread nD τ) arg4 fullShare own ∗ owns (c : Thread nD τ) arg5 fullShare msk ∗ owns (c : Thread nD τ) arg6 fullShare wz0 ∗ owns (c : Thread nD τ) arg7 fullShare wz1 ∗ owns (c : Thread nD τ) arg8 fullShare wr0 ∗ owns (c : Thread nD τ) arg9 fullShare wr1 ∗ owns (c : Thread nD τ) arg10 fullShare wh0 ∗ owns (c : Thread nD τ) arg11 fullShare wh1 ∗ owns (c : Thread nD τ) arg12 fullShare bz0 ∗ owns (c : Thread nD τ) arg13 fullShare bz1 ∗ owns (c : Thread nD τ) arg14 fullShare br0 ∗ owns (c : Thread nD τ) arg15 fullShare br1 ∗ owns (c : Thread nD τ) arg16 fullShare bh0 ∗ owns (c : Thread nD τ) arg17 fullShare bh1 ∗ owns (c : Thread nD τ) arg18 fullShare (updOut adj all own msk wz0 wz1 wr0 wr1 wh0 wh1 bz0 bz1 br0 br1 bh0 bh1)) -∗ K ⟨⟩))
      ⊢ wp frame (wpE (defs₀ (F := F)) Variants.none c none) E (cc1__gnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__gnn_kernel_eq_skeleton]; unfold cc1__gnn_kernel_skel
  simp only [k1_part2_eq_skeleton]; unfold k1_part2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  unfold updOut
  try dsimp only
  exact View.read_writes_eq_canon _ _ _ (updCover _)

/-! ## The proof data's windows, one by one -/

/-- What the body leaves in an input window's buffer is the block it found there. -/
theorem updDat_after_0 (c : Dev nD) (t : Fin cfg1.N) : (updDat V c).after 0 t = updBlk V c 0 t := by dsimp only [updDat]
theorem updDat_after_1 (c : Dev nD) (t : Fin cfg1.N) : (updDat V c).after 1 t = updBlk V c 1 t := by dsimp only [updDat]
theorem updDat_after_2 (c : Dev nD) (t : Fin cfg1.N) : (updDat V c).after 2 t = updBlk V c 2 t := by dsimp only [updDat]
theorem updDat_after_3 (c : Dev nD) (t : Fin cfg1.N) : (updDat V c).after 3 t = updBlk V c 3 t := by dsimp only [updDat]
theorem updDat_after_4 (c : Dev nD) (t : Fin cfg1.N) : (updDat V c).after 4 t = updBlk V c 4 t := by dsimp only [updDat]
theorem updDat_after_5 (c : Dev nD) (t : Fin cfg1.N) : (updDat V c).after 5 t = updBlk V c 5 t := by dsimp only [updDat]
theorem updDat_after_6 (c : Dev nD) (t : Fin cfg1.N) : (updDat V c).after 6 t = updBlk V c 6 t := by dsimp only [updDat]
theorem updDat_after_7 (c : Dev nD) (t : Fin cfg1.N) : (updDat V c).after 7 t = updBlk V c 7 t := by dsimp only [updDat]
theorem updDat_after_8 (c : Dev nD) (t : Fin cfg1.N) : (updDat V c).after 8 t = updBlk V c 8 t := by dsimp only [updDat]
theorem updDat_after_9 (c : Dev nD) (t : Fin cfg1.N) : (updDat V c).after 9 t = updBlk V c 9 t := by dsimp only [updDat]
theorem updDat_after_10 (c : Dev nD) (t : Fin cfg1.N) : (updDat V c).after 10 t = updBlk V c 10 t := by dsimp only [updDat]
theorem updDat_after_11 (c : Dev nD) (t : Fin cfg1.N) : (updDat V c).after 11 t = updBlk V c 11 t := by dsimp only [updDat]
theorem updDat_after_12 (c : Dev nD) (t : Fin cfg1.N) : (updDat V c).after 12 t = updBlk V c 12 t := by dsimp only [updDat]
theorem updDat_after_13 (c : Dev nD) (t : Fin cfg1.N) : (updDat V c).after 13 t = updBlk V c 13 t := by dsimp only [updDat]
theorem updDat_after_14 (c : Dev nD) (t : Fin cfg1.N) : (updDat V c).after 14 t = updBlk V c 14 t := by dsimp only [updDat]
theorem updDat_after_15 (c : Dev nD) (t : Fin cfg1.N) : (updDat V c).after 15 t = updBlk V c 15 t := by dsimp only [updDat]

/-- So each input's current staging buffer holds its block at every point. -/
theorem updBefore_0 (c : Dev nD) (t : Fin cfg1.N) (d) : (updDat V c).before 0 t d = updBlk V c 0 t :=
  updBefore_0_of V (updDat V c) (updDat_A V c 0) (updDat_after_0 V c) t d
theorem updBefore_1 (c : Dev nD) (t : Fin cfg1.N) (d) : (updDat V c).before 1 t d = updBlk V c 1 t :=
  updBefore_1_of V (updDat V c) (updDat_A V c 1) (updDat_after_1 V c) t d
theorem updBefore_2 (c : Dev nD) (t : Fin cfg1.N) (d) : (updDat V c).before 2 t d = updBlk V c 2 t :=
  updBefore_2_of V (updDat V c) (updDat_A V c 2) (updDat_after_2 V c) t d
theorem updBefore_3 (c : Dev nD) (t : Fin cfg1.N) (d) : (updDat V c).before 3 t d = updBlk V c 3 t :=
  updBefore_3_of V (updDat V c) (updDat_A V c 3) (updDat_after_3 V c) t d
theorem updBefore_4 (c : Dev nD) (t : Fin cfg1.N) (d) : (updDat V c).before 4 t d = updBlk V c 4 t :=
  updBefore_4_of V (updDat V c) (updDat_A V c 4) (updDat_after_4 V c) t d
theorem updBefore_5 (c : Dev nD) (t : Fin cfg1.N) (d) : (updDat V c).before 5 t d = updBlk V c 5 t :=
  updBefore_5_of V (updDat V c) (updDat_A V c 5) (updDat_after_5 V c) t d
theorem updBefore_6 (c : Dev nD) (t : Fin cfg1.N) (d) : (updDat V c).before 6 t d = updBlk V c 6 t :=
  updBefore_6_of V (updDat V c) (updDat_A V c 6) (updDat_after_6 V c) t d
theorem updBefore_7 (c : Dev nD) (t : Fin cfg1.N) (d) : (updDat V c).before 7 t d = updBlk V c 7 t :=
  updBefore_7_of V (updDat V c) (updDat_A V c 7) (updDat_after_7 V c) t d
theorem updBefore_8 (c : Dev nD) (t : Fin cfg1.N) (d) : (updDat V c).before 8 t d = updBlk V c 8 t :=
  updBefore_8_of V (updDat V c) (updDat_A V c 8) (updDat_after_8 V c) t d
theorem updBefore_9 (c : Dev nD) (t : Fin cfg1.N) (d) : (updDat V c).before 9 t d = updBlk V c 9 t :=
  updBefore_9_of V (updDat V c) (updDat_A V c 9) (updDat_after_9 V c) t d
theorem updBefore_10 (c : Dev nD) (t : Fin cfg1.N) (d) : (updDat V c).before 10 t d = updBlk V c 10 t :=
  updBefore_10_of V (updDat V c) (updDat_A V c 10) (updDat_after_10 V c) t d
theorem updBefore_11 (c : Dev nD) (t : Fin cfg1.N) (d) : (updDat V c).before 11 t d = updBlk V c 11 t :=
  updBefore_11_of V (updDat V c) (updDat_A V c 11) (updDat_after_11 V c) t d
theorem updBefore_12 (c : Dev nD) (t : Fin cfg1.N) (d) : (updDat V c).before 12 t d = updBlk V c 12 t :=
  updBefore_12_of V (updDat V c) (updDat_A V c 12) (updDat_after_12 V c) t d
theorem updBefore_13 (c : Dev nD) (t : Fin cfg1.N) (d) : (updDat V c).before 13 t d = updBlk V c 13 t :=
  updBefore_13_of V (updDat V c) (updDat_A V c 13) (updDat_after_13 V c) t d
theorem updBefore_14 (c : Dev nD) (t : Fin cfg1.N) (d) : (updDat V c).before 14 t d = updBlk V c 14 t :=
  updBefore_14_of V (updDat V c) (updDat_A V c 14) (updDat_after_14 V c) t d
theorem updBefore_15 (c : Dev nD) (t : Fin cfg1.N) (d) : (updDat V c).before 15 t d = updBlk V c 15 t :=
  updBefore_15_of V (updDat V c) (updDat_A V c 15) (updDat_after_15 V c) t d

/-! ## The body obligation, at a generic point -/

/-- What the body is handed at point `t`: the invariant, what the core owes, and each window's current staging buffer at
    what it then holds, the windows one by one. -/
def updPre (c : Dev nD) (t : Fin cfg1.N) : sProp 𝕄 :=
  iprop((updDat V c).Φ t.castSucc ∗ (updDat V c).owesAt () t.castSucc
    ∗ (∃ d, owns (c : Thread nD τ) (st1_0 t) fullShare ((updDat V c).before 0 t d))
    ∗ (∃ d, owns (c : Thread nD τ) (st1_1 t) fullShare ((updDat V c).before 1 t d))
    ∗ (∃ d, owns (c : Thread nD τ) (st1_2 t) fullShare ((updDat V c).before 2 t d))
    ∗ (∃ d, owns (c : Thread nD τ) (st1_3 t) fullShare ((updDat V c).before 3 t d))
    ∗ (∃ d, owns (c : Thread nD τ) (st1_4 t) fullShare ((updDat V c).before 4 t d))
    ∗ (∃ d, owns (c : Thread nD τ) (st1_5 t) fullShare ((updDat V c).before 5 t d))
    ∗ (∃ d, owns (c : Thread nD τ) (st1_6 t) fullShare ((updDat V c).before 6 t d))
    ∗ (∃ d, owns (c : Thread nD τ) (st1_7 t) fullShare ((updDat V c).before 7 t d))
    ∗ (∃ d, owns (c : Thread nD τ) (st1_8 t) fullShare ((updDat V c).before 8 t d))
    ∗ (∃ d, owns (c : Thread nD τ) (st1_9 t) fullShare ((updDat V c).before 9 t d))
    ∗ (∃ d, owns (c : Thread nD τ) (st1_10 t) fullShare ((updDat V c).before 10 t d))
    ∗ (∃ d, owns (c : Thread nD τ) (st1_11 t) fullShare ((updDat V c).before 11 t d))
    ∗ (∃ d, owns (c : Thread nD τ) (st1_12 t) fullShare ((updDat V c).before 12 t d))
    ∗ (∃ d, owns (c : Thread nD τ) (st1_13 t) fullShare ((updDat V c).before 13 t d))
    ∗ (∃ d, owns (c : Thread nD τ) (st1_14 t) fullShare ((updDat V c).before 14 t d))
    ∗ (∃ d, owns (c : Thread nD τ) (st1_15 t) fullShare ((updDat V c).before 15 t d))
    ∗ (∃ d, owns (c : Thread nD τ) (st1_16 t) fullShare ((updDat V c).before 16 t d)))

/-- What it hands back: the invariant and the debt at the next point, and each current staging buffer at what the body
    leaves in it. -/
def updPost (c : Dev nD) (t : Fin cfg1.N) : sProp 𝕄 :=
  iprop((updDat V c).Φ t.succ ∗ (updDat V c).owesAt () t.succ
    ∗ owns (c : Thread nD τ) (st1_0 t) fullShare ((updDat V c).after 0 t)
    ∗ owns (c : Thread nD τ) (st1_1 t) fullShare ((updDat V c).after 1 t)
    ∗ owns (c : Thread nD τ) (st1_2 t) fullShare ((updDat V c).after 2 t)
    ∗ owns (c : Thread nD τ) (st1_3 t) fullShare ((updDat V c).after 3 t)
    ∗ owns (c : Thread nD τ) (st1_4 t) fullShare ((updDat V c).after 4 t)
    ∗ owns (c : Thread nD τ) (st1_5 t) fullShare ((updDat V c).after 5 t)
    ∗ owns (c : Thread nD τ) (st1_6 t) fullShare ((updDat V c).after 6 t)
    ∗ owns (c : Thread nD τ) (st1_7 t) fullShare ((updDat V c).after 7 t)
    ∗ owns (c : Thread nD τ) (st1_8 t) fullShare ((updDat V c).after 8 t)
    ∗ owns (c : Thread nD τ) (st1_9 t) fullShare ((updDat V c).after 9 t)
    ∗ owns (c : Thread nD τ) (st1_10 t) fullShare ((updDat V c).after 10 t)
    ∗ owns (c : Thread nD τ) (st1_11 t) fullShare ((updDat V c).after 11 t)
    ∗ owns (c : Thread nD τ) (st1_12 t) fullShare ((updDat V c).after 12 t)
    ∗ owns (c : Thread nD τ) (st1_13 t) fullShare ((updDat V c).after 13 t)
    ∗ owns (c : Thread nD τ) (st1_14 t) fullShare ((updDat V c).after 14 t)
    ∗ owns (c : Thread nD τ) (st1_15 t) fullShare ((updDat V c).after 15 t)
    ∗ owns (c : Thread nD τ) (st1_16 t) fullShare ((updDat V c).after 16 t))

set_option maxHeartbeats 1000000 in
/-- The body at any point: each input's staging buffer holds its window's block there (`updBefore_W`), so the body's triple
    applies at the blocks; the invariant and the debt pass through unread, and are the same at the next point. -/
theorem updBody (c : Dev nD) (t : Fin cfg1.N) :
    updPre V c t ⊢ wp frame (wpE (defs₀ (F := F)) Variants.none c none) Set.univ (bodyAt1 t) (fun _ => updPost V c t) := by
  unfold updPre updPost bodyAt1
  simp only [updBefore_0, updBefore_1, updBefore_2, updBefore_3, updBefore_4, updBefore_5, updBefore_6, updBefore_7, updBefore_8, updBefore_9, updBefore_10, updBefore_11, updBefore_12, updBefore_13, updBefore_14, updBefore_15]
  rw [show (updDat V c).Φ t.succ = (updDat V c).Φ t.castSucc from rfl,
    show (updDat V c).owesAt () t.succ = (updDat V c).owesAt () t.castSucc from rfl,
    updDat_after_0, updDat_after_1, updDat_after_2, updDat_after_3, updDat_after_4, updDat_after_5, updDat_after_6, updDat_after_7, updDat_after_8, updDat_after_9, updDat_after_10, updDat_after_11, updDat_after_12, updDat_after_13, updDat_after_14, updDat_after_15, updDat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (updKernel c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16))
    (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body obligation of the update's pipeline, at every point. -/
theorem updObligation (c : Dev nD) : BodyObligation (updDat (F := F) V c) (defs₀ (F := F)) Variants.none () Set.univ := fun t => by
  rw [bigSep_W1, bigSep_W1]
  exact updBody V c t

end Update

end Cert.Kernel.Hand

end
-- ==== Proof.KVals.lean ====
/-
  What the TensorCore's unscoped buffers hold at the two region boundaries.

  At launch every buffer holds the launch memory. The encoder changes one buffer, the encoded features, to what its
  write-backs leave; the update then changes one other buffer, the result, to what ITS write-backs leave, reading the
  encoded features (through two windows) and eleven arguments but writing none of them. So every argument array holds,
  at the end, what it held at launch, and the result buffer holds the update pipeline's output array after its last
  point.
-/
import proofs.«168815_j88132728914046_1_alg».proof.Proof.KEncodeBody
import proofs.«168815_j88132728914046_1_alg».proof.Proof.KUpdateBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Vals

variable (m : (ℓ : Loc nD τ sig) → Buf (Elt F) ℓ)

/-- Core `c`'s buffers at launch: the encoder's entry contents. -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b

/-- At the encoder's exit: its arrays at what the pipeline leaves, every other buffer as entered. -/
def W1 (c : Dev nD) : Valuation τ sig (Elt F) :=
  Pipeline.withArrays spec0 c (W0 m c) fun w => (encDat (V0 m) c).arrAt w cfg0.N
theorem W1_arr (c : Dev nD) (w : Fin cfg0.W) :
    W1 m c (Proc.devRef .tc (Pipeline.arrRef spec0 w)) = (encDat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: the update's entry contents. -/
abbrev V1 : (c : Dev nD) → (b : Ref sig .tc) → Buf (Elt F) ((c : Thread nD τ).loc b) := fun c b => W1 m c b

theorem encExit_arr (c : Dev nD) (w : Fin cfg0.W) : (encDat (V0 m) c).arrAt w cfg0.N = V1 m c (Pipeline.arrRef spec0 w) :=
  (W1_arr m c w).symm
theorem encExit_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- The result array: what the update pipeline's write-backs leave in its output window's array. -/
def resultArr (c : Dev nD) : Buf (Elt F) ((c : Thread nD τ).loc main_v1) :=
  (updDat (V1 m) c).arrAt 16 cfg1.N

/-- At the update's exit: the result buffer at the result array, every other buffer as entered. -/
def W2 (c : Dev nD) : Valuation τ sig (Elt F) :=
  Function.update (W1 m c) (Proc.devRef .tc main_v1) (resultArr m c)
theorem W2_result (c : Dev nD) : W2 m c (Proc.devRef .tc main_v1) = resultArr m c := by
  unfold W2; exact Function.update_self _ _ _
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) _ _
/-- The same read at the TensorCore's references: the contents at the return. -/
abbrev V2 : (c : Dev nD) → (b : Ref sig .tc) → Buf (Elt F) ((c : Thread nD τ).loc b) := fun c b => W2 m c b

/-- `main_arg0` reaches the end as launched: the update region's only output is another buffer, and the encoder does not touch it. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := W1_of_ne m c main_arg0 (by decide)
    _ = m ((c : Thread nD τ).loc main_arg0) := rfl
/-- `main_arg1` reaches the end as launched: the update region's only output is another buffer, and the encoder does not touch it. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
/-- `main_arg2` reaches the end as launched: the update region's only output is another buffer, and the encoder reads it through an input window, which leaves its array as found. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 0).trans (((encDat (V0 m) c).arrAt_in 0 rfl _).trans (encDat_A (V0 m) c 0))
    _ = m ((c : Thread nD τ).loc main_arg2) := rfl
/-- `main_arg3` reaches the end as launched: the update region's only output is another buffer, and the encoder reads it through an input window, which leaves its array as found. -/
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 1).trans (((encDat (V0 m) c).arrAt_in 1 rfl _).trans (encDat_A (V0 m) c 1))
    _ = m ((c : Thread nD τ).loc main_arg3) := rfl
/-- `main_arg4` reaches the end as launched: the update region's only output is another buffer, and the encoder does not touch it. -/
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl
/-- `main_arg5` reaches the end as launched: the update region's only output is another buffer, and the encoder does not touch it. -/
theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl
/-- `main_arg6` reaches the end as launched: the update region's only output is another buffer, and the encoder does not touch it. -/
theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := W1_of_ne m c main_arg6 (by decide)
    _ = m ((c : Thread nD τ).loc main_arg6) := rfl
/-- `main_arg7` reaches the end as launched: the update region's only output is another buffer, and the encoder does not touch it. -/
theorem W2_main_arg7 (c : Dev nD) : W2 m c (Proc.devRef .tc main_arg7) = m ((c : Thread nD τ).loc main_arg7) :=
  calc W2 m c (Proc.devRef .tc main_arg7)
    _ = W1 m c (Proc.devRef .tc main_arg7) := W2_of_ne m c main_arg7 (by decide)
    _ = W0 m c (Proc.devRef .tc main_arg7) := W1_of_ne m c main_arg7 (by decide)
    _ = m ((c : Thread nD τ).loc main_arg7) := rfl
/-- `main_arg8` reaches the end as launched: the update region's only output is another buffer, and the encoder does not touch it. -/
theorem W2_main_arg8 (c : Dev nD) : W2 m c (Proc.devRef .tc main_arg8) = m ((c : Thread nD τ).loc main_arg8) :=
  calc W2 m c (Proc.devRef .tc main_arg8)
    _ = W1 m c (Proc.devRef .tc main_arg8) := W2_of_ne m c main_arg8 (by decide)
    _ = W0 m c (Proc.devRef .tc main_arg8) := W1_of_ne m c main_arg8 (by decide)
    _ = m ((c : Thread nD τ).loc main_arg8) := rfl
/-- `main_arg9` reaches the end as launched: the update region's only output is another buffer, and the encoder does not touch it. -/
theorem W2_main_arg9 (c : Dev nD) : W2 m c (Proc.devRef .tc main_arg9) = m ((c : Thread nD τ).loc main_arg9) :=
  calc W2 m c (Proc.devRef .tc main_arg9)
    _ = W1 m c (Proc.devRef .tc main_arg9) := W2_of_ne m c main_arg9 (by decide)
    _ = W0 m c (Proc.devRef .tc main_arg9) := W1_of_ne m c main_arg9 (by decide)
    _ = m ((c : Thread nD τ).loc main_arg9) := rfl
/-- `main_arg10` reaches the end as launched: the update region's only output is another buffer, and the encoder reads it through an input window, which leaves its array as found. -/
theorem W2_main_arg10 (c : Dev nD) : W2 m c (Proc.devRef .tc main_arg10) = m ((c : Thread nD τ).loc main_arg10) :=
  calc W2 m c (Proc.devRef .tc main_arg10)
    _ = W1 m c (Proc.devRef .tc main_arg10) := W2_of_ne m c main_arg10 (by decide)
    _ = W0 m c (Proc.devRef .tc main_arg10) := (W1_arr m c 2).trans (((encDat (V0 m) c).arrAt_in 2 rfl _).trans (encDat_A (V0 m) c 2))
    _ = m ((c : Thread nD τ).loc main_arg10) := rfl
/-- `main_arg11` reaches the end as launched: the update region's only output is another buffer, and the encoder does not touch it. -/
theorem W2_main_arg11 (c : Dev nD) : W2 m c (Proc.devRef .tc main_arg11) = m ((c : Thread nD τ).loc main_arg11) :=
  calc W2 m c (Proc.devRef .tc main_arg11)
    _ = W1 m c (Proc.devRef .tc main_arg11) := W2_of_ne m c main_arg11 (by decide)
    _ = W0 m c (Proc.devRef .tc main_arg11) := W1_of_ne m c main_arg11 (by decide)
    _ = m ((c : Thread nD τ).loc main_arg11) := rfl
/-- `main_arg12` reaches the end as launched: the update region's only output is another buffer, and the encoder does not touch it. -/
theorem W2_main_arg12 (c : Dev nD) : W2 m c (Proc.devRef .tc main_arg12) = m ((c : Thread nD τ).loc main_arg12) :=
  calc W2 m c (Proc.devRef .tc main_arg12)
    _ = W1 m c (Proc.devRef .tc main_arg12) := W2_of_ne m c main_arg12 (by decide)
    _ = W0 m c (Proc.devRef .tc main_arg12) := W1_of_ne m c main_arg12 (by decide)
    _ = m ((c : Thread nD τ).loc main_arg12) := rfl
/-- `main_arg13` reaches the end as launched: the update region's only output is another buffer, and the encoder does not touch it. -/
theorem W2_main_arg13 (c : Dev nD) : W2 m c (Proc.devRef .tc main_arg13) = m ((c : Thread nD τ).loc main_arg13) :=
  calc W2 m c (Proc.devRef .tc main_arg13)
    _ = W1 m c (Proc.devRef .tc main_arg13) := W2_of_ne m c main_arg13 (by decide)
    _ = W0 m c (Proc.devRef .tc main_arg13) := W1_of_ne m c main_arg13 (by decide)
    _ = m ((c : Thread nD τ).loc main_arg13) := rfl
/-- `main_arg14` reaches the end as launched: the update region's only output is another buffer, and the encoder does not touch it. -/
theorem W2_main_arg14 (c : Dev nD) : W2 m c (Proc.devRef .tc main_arg14) = m ((c : Thread nD τ).loc main_arg14) :=
  calc W2 m c (Proc.devRef .tc main_arg14)
    _ = W1 m c (Proc.devRef .tc main_arg14) := W2_of_ne m c main_arg14 (by decide)
    _ = W0 m c (Proc.devRef .tc main_arg14) := W1_of_ne m c main_arg14 (by decide)
    _ = m ((c : Thread nD τ).loc main_arg14) := rfl
/-- `main_arg15` reaches the end as launched: the update region's only output is another buffer, and the encoder does not touch it. -/
theorem W2_main_arg15 (c : Dev nD) : W2 m c (Proc.devRef .tc main_arg15) = m ((c : Thread nD τ).loc main_arg15) :=
  calc W2 m c (Proc.devRef .tc main_arg15)
    _ = W1 m c (Proc.devRef .tc main_arg15) := W2_of_ne m c main_arg15 (by decide)
    _ = W0 m c (Proc.devRef .tc main_arg15) := W1_of_ne m c main_arg15 (by decide)
    _ = m ((c : Thread nD τ).loc main_arg15) := rfl
/-- `main_arg16` reaches the end as launched: the update region's only output is another buffer, and the encoder does not touch it. -/
theorem W2_main_arg16 (c : Dev nD) : W2 m c (Proc.devRef .tc main_arg16) = m ((c : Thread nD τ).loc main_arg16) :=
  calc W2 m c (Proc.devRef .tc main_arg16)
    _ = W1 m c (Proc.devRef .tc main_arg16) := W2_of_ne m c main_arg16 (by decide)
    _ = W0 m c (Proc.devRef .tc main_arg16) := W1_of_ne m c main_arg16 (by decide)
    _ = m ((c : Thread nD τ).loc main_arg16) := rfl

end Vals

end Cert.Kernel.Hand

end
-- ==== Proof.KFamily.lean ====
/-
  What the two regions share: every pipeline's proof data at its own region's entry contents, and the part of a
  TensorCore's state that no region reads — its generator register at some state and the fact that it owes no other
  core anything. Neither kernel signals or waits on a semaphore of its own, so no level is ever assigned.
-/
import proofs.«168815_j88132728914046_1_alg».proof.Proof.KVals

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Family

variable (m : (ℓ : Loc nD τ sig) → Buf (Elt F) ℓ)

/-- No pipeline prefetches a table. -/
abbrev adm : (p : Fin 2) → (pcfgs (F := F) p).Adm := fun p => (cfgs p).toPCfg_adm

/-- Every pipeline's proof data, the encoder's at the launch contents and the update's at the encoder's exit. -/
def pdats : (p : Fin 2) → (c : Dev nD) → Dat τ (Elt F) Unit ℕ (Pipeline.UD sig nD τ) ℕ (Pipeline.pin (pcfgs (F := F)) adm p) c
  | ⟨0, _⟩ => fun c => encDat (V0 m) c
  | ⟨1, _⟩ => fun c => updDat (V1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through both regions: the generator register at some state, and nothing owed. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Family

end Cert.Kernel.Hand

end
-- ==== Proof.KReg0.lean ====
/-
  The encoder region as a segment of the program's run.

  It is entered with every unscoped buffer at the launch contents and left with the encoded-features buffer at what
  the pipeline's write-backs leave and every other buffer as it was. Its four arrays are distinct buffers, so they
  are split out of the unscoped buffers whole, handed to the pipeline, and joined back at the exit; the generator
  register goes into the pipeline's invariant and comes back; the kernel has no semaphore of its own and owes nothing.
-/
import proofs.«168815_j88132728914046_1_alg».proof.Proof.KFamily

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Reg0

variable (m : (ℓ : Loc nD τ sig) → Buf (Elt F) ℓ)

set_option backward.isDefEq.respectTransparency.types false in
/-- The encoder region over the thread state "every unscoped buffer at the boundary's contents, the generator
    register at some state, nothing owed". -/
def encReg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (encObligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (encExit_arr m c) (encExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Reg0

end Cert.Kernel.Hand

end
-- ==== Proof.KReg1.lean ====
/-
  The update region as a segment of the program's run.

  It is entered with every unscoped buffer at the encoder's exit contents and left with the result buffer at what
  the pipeline's write-backs leave and every other buffer as it was. Seventeen windows stand on sixteen buffers: the
  encoded features are read through two windows, the whole batch and the row tile. A core holds that buffer once, at
  the full share; the pipeline wants each window's array at the share its proof data names. So at the entry the full
  share of the encoded features is dealt in halves, the left to the whole-batch window and the right to the tile
  window, and every other buffer goes whole to its one window; at the exit the two halves, still at the contents they
  were dealt at because both windows only read, are joined to the full share again. The rest is as for any region:
  the generator register into the pipeline's invariant and back, no semaphore of the kernel's own, nothing owed.
-/
import proofs.«168815_j88132728914046_1_alg».proof.Proof.KFamily

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Reg1

variable (V : (c : Dev nD) → (b : Ref sig .tc) → Buf (Elt F) ((c : Thread nD τ).loc b))

/-- The update pipeline's arrays, window by window, each at the share the proof data holds of it. -/
theorem updArrays_eq (c : Dev nD) (G : (w : Fin cfg1.W) → Buf (Elt F) ((cfg1.win w).arr.view.loc (c.tc : Thread nD τ))) :
    ((updDat V c).arrays G : sProp 𝕄)
      = bigSep Finset.univ fun w : Fin cfg1.W => (((c.tc : Thread nD τ).loc (Pipeline.arrRef spec1 w)) ↦{(updDat V c).share w} G w : sProp 𝕄) := by
  unfold Dat.arrays
  exact bigSep_congr fun w _ => by rw [(arr_whole1 w).set_eq_univ]

theorem updShare0 (c : Dev nD) : (updDat V c).share 0 = fullShare := rfl
theorem updShare1 (c : Dev nD) : (updDat V c).share 1 = fullShare.left := rfl
theorem updShare2 (c : Dev nD) : (updDat V c).share 2 = fullShare.right := rfl
theorem updShare3 (c : Dev nD) : (updDat V c).share 3 = fullShare := rfl
theorem updShare4 (c : Dev nD) : (updDat V c).share 4 = fullShare := rfl
theorem updShare5 (c : Dev nD) : (updDat V c).share 5 = fullShare := rfl
theorem updShare6 (c : Dev nD) : (updDat V c).share 6 = fullShare := rfl
theorem updShare7 (c : Dev nD) : (updDat V c).share 7 = fullShare := rfl
theorem updShare8 (c : Dev nD) : (updDat V c).share 8 = fullShare := rfl
theorem updShare9 (c : Dev nD) : (updDat V c).share 9 = fullShare := rfl
theorem updShare10 (c : Dev nD) : (updDat V c).share 10 = fullShare := rfl
theorem updShare11 (c : Dev nD) : (updDat V c).share 11 = fullShare := rfl
theorem updShare12 (c : Dev nD) : (updDat V c).share 12 = fullShare := rfl
theorem updShare13 (c : Dev nD) : (updDat V c).share 13 = fullShare := rfl
theorem updShare14 (c : Dev nD) : (updDat V c).share 14 = fullShare := rfl
theorem updShare15 (c : Dev nD) : (updDat V c).share 15 = fullShare := rfl
theorem updShare16 (c : Dev nD) : (updDat V c).share 16 = fullShare := rfl

/-- The distinct buffers behind the update's seventeen windows: sixteen, the encoded features counted once. -/
theorem arrBufs1_eq (c : Dev nD) (W : (b : Ref sig .tc) → Buf (Elt F) ((c : Thread nD τ).loc b)) :
    (Pipeline.arrBufs (Ix := Unit) (Name := ℕ) (U := Pipeline.UD sig nD τ) (Lvl := ℕ) spec1 c W : sProp 𝕄)
      = iprop((((c : Thread nD τ).loc main_arg1) ↦{fullShare} W main_arg1) ∗ (((c : Thread nD τ).loc main_v0) ↦{fullShare} W main_v0) ∗ (((c : Thread nD τ).loc main_arg0) ↦{fullShare} W main_arg0) ∗ (((c : Thread nD τ).loc main_arg4) ↦{fullShare} W main_arg4) ∗ (((c : Thread nD τ).loc main_arg5) ↦{fullShare} W main_arg5) ∗ (((c : Thread nD τ).loc main_arg6) ↦{fullShare} W main_arg6) ∗ (((c : Thread nD τ).loc main_arg7) ↦{fullShare} W main_arg7) ∗ (((c : Thread nD τ).loc main_arg8) ↦{fullShare} W main_arg8) ∗ (((c : Thread nD τ).loc main_arg9) ↦{fullShare} W main_arg9) ∗ (((c : Thread nD τ).loc main_arg11) ↦{fullShare} W main_arg11) ∗ (((c : Thread nD τ).loc main_arg12) ↦{fullShare} W main_arg12) ∗ (((c : Thread nD τ).loc main_arg13) ↦{fullShare} W main_arg13) ∗ (((c : Thread nD τ).loc main_arg14) ↦{fullShare} W main_arg14) ∗ (((c : Thread nD τ).loc main_arg15) ↦{fullShare} W main_arg15) ∗ (((c : Thread nD τ).loc main_arg16) ↦{fullShare} W main_arg16) ∗ (((c : Thread nD τ).loc main_v1) ↦{fullShare} W main_v1)) := by
  unfold Pipeline.arrBufs
  exact bigSep_eq_bigSepL_of_eq [main_arg1, main_v0, main_arg0, main_arg4, main_arg5, main_arg6, main_arg7, main_arg8, main_arg9, main_arg11, main_arg12, main_arg13, main_arg14, main_arg15, main_arg16, main_v1] (by decide) (by decide) _

local instance : IsOp fullShare fullShare.left fullShare.right := IsOp.posShare_halves fullShare

set_option maxHeartbeats 2000000 in
/-- ENTRY. The sixteen buffers behind the update's windows, each whole at contents `W`, are the pipeline's arrays at
    any contents `G` read off `W`: fifteen windows take their buffer whole; the encoded features' full share is dealt
    in halves to the two windows that read that array. -/
theorem updArrays_of_bufs (c : Dev nD) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    (Pipeline.arrBufs (Ix := Unit) (Name := ℕ) (U := Pipeline.UD sig nD τ) (Lvl := ℕ) spec1 c W : sProp 𝕄) ⊢ (updDat V c).arrays G := by
  have h0 : G 0 = W main_arg1 := hG 0
  have h1 : G 1 = W main_v0 := hG 1
  have h2 : G 2 = W main_v0 := hG 2
  have h3 : G 3 = W main_arg0 := hG 3
  have h4 : G 4 = W main_arg4 := hG 4
  have h5 : G 5 = W main_arg5 := hG 5
  have h6 : G 6 = W main_arg6 := hG 6
  have h7 : G 7 = W main_arg7 := hG 7
  have h8 : G 8 = W main_arg8 := hG 8
  have h9 : G 9 = W main_arg9 := hG 9
  have h10 : G 10 = W main_arg11 := hG 10
  have h11 : G 11 = W main_arg12 := hG 11
  have h12 : G 12 = W main_arg13 := hG 12
  have h13 : G 13 = W main_arg14 := hG 13
  have h14 : G 14 = W main_arg15 := hG 14
  have h15 : G 15 = W main_arg16 := hG 15
  have h16 : G 16 = W main_v1 := hG 16
  rw [arrBufs1_eq, updArrays_eq, bigSep_W1]
  simp only [updShare0 V c, updShare1 V c, updShare2 V c, updShare3 V c, updShare4 V c, updShare5 V c, updShare6 V c, updShare7 V c, updShare8 V c, updShare9 V c, updShare10 V c, updShare11 V c, updShare12 V c, updShare13 V c, updShare14 V c, updShare15 V c, updShare16 V c]
  rw [h0, h1, h2, h3, h4, h5, h6, h7, h8, h9, h10, h11, h12, h13, h14, h15, h16]
  iintro ⟨Ha1, Hv0, Ha0, Ha4, Ha5, Ha6, Ha7, Ha8, Ha9, Ha11, Ha12, Ha13, Ha14, Ha15, Ha16, Hv1⟩
  icases Hv0 with ⟨Hl, Hr⟩
  isplitl [Ha1]; · iexact Ha1
  isplitl [Hl]; · iexact Hl
  isplitl [Hr]; · iexact Hr
  isplitl [Ha0]; · iexact Ha0
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha11]; · iexact Ha11
  isplitl [Ha12]; · iexact Ha12
  isplitl [Ha13]; · iexact Ha13
  isplitl [Ha14]; · iexact Ha14
  isplitl [Ha15]; · iexact Ha15
  isplitl [Ha16]; · iexact Ha16
  iexact Hv1

set_option maxHeartbeats 2000000 in
/-- EXIT. The pipeline's arrays at contents `G` read off `W` are the sixteen buffers whole at `W`: the two halves of
    the encoded features' share, held at the same contents, are the full share again. -/
theorem bufs_of_updArrays (c : Dev nD) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    ((updDat V c).arrays G : sProp 𝕄) ⊢ Pipeline.arrBufs (Ix := Unit) (Name := ℕ) (U := Pipeline.UD sig nD τ) (Lvl := ℕ) spec1 c W := by
  have h0 : G 0 = W main_arg1 := hG 0
  have h1 : G 1 = W main_v0 := hG 1
  have h2 : G 2 = W main_v0 := hG 2
  have h3 : G 3 = W main_arg0 := hG 3
  have h4 : G 4 = W main_arg4 := hG 4
  have h5 : G 5 = W main_arg5 := hG 5
  have h6 : G 6 = W main_arg6 := hG 6
  have h7 : G 7 = W main_arg7 := hG 7
  have h8 : G 8 = W main_arg8 := hG 8
  have h9 : G 9 = W main_arg9 := hG 9
  have h10 : G 10 = W main_arg11 := hG 10
  have h11 : G 11 = W main_arg12 := hG 11
  have h12 : G 12 = W main_arg13 := hG 12
  have h13 : G 13 = W main_arg14 := hG 13
  have h14 : G 14 = W main_arg15 := hG 14
  have h15 : G 15 = W main_arg16 := hG 15
  have h16 : G 16 = W main_v1 := hG 16
  rw [arrBufs1_eq, updArrays_eq, bigSep_W1]
  simp only [updShare0 V c, updShare1 V c, updShare2 V c, updShare3 V c, updShare4 V c, updShare5 V c, updShare6 V c, updShare7 V c, updShare8 V c, updShare9 V c, updShare10 V c, updShare11 V c, updShare12 V c, updShare13 V c, updShare14 V c, updShare15 V c, updShare16 V c]
  rw [h0, h1, h2, h3, h4, h5, h6, h7, h8, h9, h10, h11, h12, h13, h14, h15, h16]
  iintro ⟨Ha1, Hl, Hr, Ha0, Ha4, Ha5, Ha6, Ha7, Ha8, Ha9, Ha11, Ha12, Ha13, Ha14, Ha15, Ha16, Hv1⟩
  isplitl [Ha1]; · iexact Ha1
  isplitl [Hl Hr]
  · isplitl [Hl]; · iexact Hl
    iexact Hr
  isplitl [Ha0]; · iexact Ha0
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha11]; · iexact Ha11
  isplitl [Ha12]; · iexact Ha12
  isplitl [Ha13]; · iexact Ha13
  isplitl [Ha14]; · iexact Ha14
  isplitl [Ha15]; · iexact Ha15
  isplitl [Ha16]; · iexact Ha16
  iexact Hv1

variable (m : (ℓ : Loc nD τ sig) → Buf (Elt F) ℓ)

set_option maxHeartbeats 2000000 in
/-- At the update's exit every window's array holds what the exit contents say: an input window's array is as the
    region found it, and no input is the result buffer; the output window's array is the result array. -/
theorem updExit_arr (c : Dev nD) : ∀ w : Fin cfg1.W, (updDat (V1 m) c).arrAt w cfg1.N = V2 m c (Pipeline.arrRef spec1 w)
  | ⟨0, _⟩ => (((updDat (V1 m) c).arrAt_in 0 rfl _).trans (updDat_A (V1 m) c 0)).trans (W2_of_ne m c main_arg1 (by decide)).symm
  | ⟨1, _⟩ => (((updDat (V1 m) c).arrAt_in 1 rfl _).trans (updDat_A (V1 m) c 1)).trans (W2_of_ne m c main_v0 (by decide)).symm
  | ⟨2, _⟩ => (((updDat (V1 m) c).arrAt_in 2 rfl _).trans (updDat_A (V1 m) c 2)).trans (W2_of_ne m c main_v0 (by decide)).symm
  | ⟨3, _⟩ => (((updDat (V1 m) c).arrAt_in 3 rfl _).trans (updDat_A (V1 m) c 3)).trans (W2_of_ne m c main_arg0 (by decide)).symm
  | ⟨4, _⟩ => (((updDat (V1 m) c).arrAt_in 4 rfl _).trans (updDat_A (V1 m) c 4)).trans (W2_of_ne m c main_arg4 (by decide)).symm
  | ⟨5, _⟩ => (((updDat (V1 m) c).arrAt_in 5 rfl _).trans (updDat_A (V1 m) c 5)).trans (W2_of_ne m c main_arg5 (by decide)).symm
  | ⟨6, _⟩ => (((updDat (V1 m) c).arrAt_in 6 rfl _).trans (updDat_A (V1 m) c 6)).trans (W2_of_ne m c main_arg6 (by decide)).symm
  | ⟨7, _⟩ => (((updDat (V1 m) c).arrAt_in 7 rfl _).trans (updDat_A (V1 m) c 7)).trans (W2_of_ne m c main_arg7 (by decide)).symm
  | ⟨8, _⟩ => (((updDat (V1 m) c).arrAt_in 8 rfl _).trans (updDat_A (V1 m) c 8)).trans (W2_of_ne m c main_arg8 (by decide)).symm
  | ⟨9, _⟩ => (((updDat (V1 m) c).arrAt_in 9 rfl _).trans (updDat_A (V1 m) c 9)).trans (W2_of_ne m c main_arg9 (by decide)).symm
  | ⟨10, _⟩ => (((updDat (V1 m) c).arrAt_in 10 rfl _).trans (updDat_A (V1 m) c 10)).trans (W2_of_ne m c main_arg11 (by decide)).symm
  | ⟨11, _⟩ => (((updDat (V1 m) c).arrAt_in 11 rfl _).trans (updDat_A (V1 m) c 11)).trans (W2_of_ne m c main_arg12 (by decide)).symm
  | ⟨12, _⟩ => (((updDat (V1 m) c).arrAt_in 12 rfl _).trans (updDat_A (V1 m) c 12)).trans (W2_of_ne m c main_arg13 (by decide)).symm
  | ⟨13, _⟩ => (((updDat (V1 m) c).arrAt_in 13 rfl _).trans (updDat_A (V1 m) c 13)).trans (W2_of_ne m c main_arg14 (by decide)).symm
  | ⟨14, _⟩ => (((updDat (V1 m) c).arrAt_in 14 rfl _).trans (updDat_A (V1 m) c 14)).trans (W2_of_ne m c main_arg15 (by decide)).symm
  | ⟨15, _⟩ => (((updDat (V1 m) c).arrAt_in 15 rfl _).trans (updDat_A (V1 m) c 15)).trans (W2_of_ne m c main_arg16 (by decide)).symm
  | ⟨16, _⟩ => (W2_result m c).symm
  | ⟨_ + 17, h⟩ => absurd h (Nat.not_lt.2 (Nat.le_add_left _ _))

set_option maxHeartbeats 2000000 in
/-- Off the windows' arrays the exit contents are the entry contents: the one buffer that changes is an array. -/
theorem updExit_rest (c : Dev nD) : ∀ b, b ∉ Finset.univ.image (Pipeline.arrRef spec1) → V2 m c b = V1 m c b :=
  fun b hb => W2_of_ne m c b fun e => hb (Finset.mem_image.mpr ⟨16, Finset.mem_univ _, e.symm⟩)

set_option maxHeartbeats 2000000 in
set_option backward.isDefEq.respectTransparency.types false in
/-- The update region over the thread state "every unscoped buffer at the boundary's contents, the generator register
    at some state, nothing owed". -/
def updReg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (updObligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0) ∗ Pipeline.unscopedRest spec1 c (V1 m c)) := by
      rw [Pipeline.unscopedBufs_split₀ (Pipeline.pin (pcfgs (F := F)) adm) 1 winFacts₀1.arr_unscoped c (V1 m c)]
      exact sep_mono (updArrays_of_bufs (V1 m) c (V1 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (unscopedBufs c (V2 m c) : sProp 𝕄) := by
      rw [Pipeline.unscopedBufs_split₀ (Pipeline.pin (pcfgs (F := F)) adm) 1 winFacts₀1.arr_unscoped c (V2 m c)]
      refine sep_mono (bufs_of_updArrays (V1 m) c (V2 m c) _ (updExit_arr m c)) (Entails.of_eq ?_)
      unfold Pipeline.unscopedRest
      exact bigSep_congr fun b hb => by rw [updExit_rest m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Reg1

end Cert.Kernel.Hand

end
-- ==== Proof.KRun.lean ====
/-
  The program's run: the encoder region, then the update region.

  From any launch memory with every semaphore counter at zero, every weakly fair execution terminates, nothing
  faults, and at the end every unscoped buffer holds what the two regions' boundaries say: each argument array what
  it held at launch, the result buffer the update pipeline's output array after its last point. The frame claim is
  that statement with the result dropped.
-/
import proofs.«168815_j88132728914046_1_alg».proof.Proof.KReg0
import proofs.«168815_j88132728914046_1_alg».proof.Proof.KReg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Run

variable (m : (ℓ : Loc nD τ sig) → Buf (Elt F) ℓ) (ρ : Dev nD → PrngReg)

/-- The program's two segments, in order. -/
abbrev segs : List (Pipeline.Seg (pcfgs (F := F)) adm (pdats m) () defs₀ 𝒱₀ L lv) :=
  [ .region (encReg m),
    .region (updReg m) ]

/-- The program is the run of its segments. -/
theorem main_run (c : Dev nD) : main (F := F) c = Pipeline.Seg.run (segs m) := (main_chain c).trans (by chain_rfl)

/-- The last thread state without the debt: every unscoped buffer at the exit contents, the generator register at
    some state. -/
abbrev Tₙ (c : Dev nD) : sProp 𝕄 := iprop(StableHlo.held (c : Thread nD τ) (Pipeline.ucRefs τ sig) (W2 m c) ∗ ∃ r, prngReg c r)

set_option maxHeartbeats 2000000 in
set_option backward.isDefEq.respectTransparency.types false in
/-- THE RUN, with the result named: the result buffer ends at the update pipeline's output array, every argument as
    launched. -/
theorem run_result : θ_run defs (onTc (τ := τ) (main (F := F))) ⟨m, fun _ => 0, ρ⟩ (fun r => ∀ c : Dev nD,
      r.2.mem ((c.tc : Thread nD τ).loc main_v1) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c => by
      show iprop(StableHlo.held (c : Thread nD τ) (Pipeline.ucRefs τ sig) (W2 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_result m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c),
       (h c _ (mem_uc main_arg5 (by decide))).trans (W2_main_arg5 m c),
       (h c _ (mem_uc main_arg6 (by decide))).trans (W2_main_arg6 m c),
       (h c _ (mem_uc main_arg7 (by decide))).trans (W2_main_arg7 m c),
       (h c _ (mem_uc main_arg8 (by decide))).trans (W2_main_arg8 m c),
       (h c _ (mem_uc main_arg9 (by decide))).trans (W2_main_arg9 m c),
       (h c _ (mem_uc main_arg10 (by decide))).trans (W2_main_arg10 m c),
       (h c _ (mem_uc main_arg11 (by decide))).trans (W2_main_arg11 m c),
       (h c _ (mem_uc main_arg12 (by decide))).trans (W2_main_arg12 m c),
       (h c _ (mem_uc main_arg13 (by decide))).trans (W2_main_arg13 m c),
       (h c _ (mem_uc main_arg14 (by decide))).trans (W2_main_arg14 m c),
       (h c _ (mem_uc main_arg15 (by decide))).trans (W2_main_arg15 m c),
       (h c _ (mem_uc main_arg16 (by decide))).trans (W2_main_arg16 m c)⟩)

/-- THE FRAME: every argument array ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_result m ρ)

end Run

end Cert.Kernel.Hand

end
-- ==== Proof.EncodeBody.lean ====
/-
  The encoder region (the first kernel launch), at the contents `V` the TensorCore's buffers hold when it is entered.

  Its grid has 16 points, (batch b, row tile i) with 1024 rows to a tile. At a point the body reads the tile of node
  features (1 × 1024 × 128), the whole encoder matrix (128 × 64) and the whole bias (64), and writes the tile of
  encoded features (1 × 1024 × 64): one store that covers the output block. So what the body leaves in the output
  window's buffer is one function of the three input blocks, `encOut`; the input windows' buffers are left as found.
  The proof data records exactly that, nothing owed and every array held whole, and the body obligation says the
  kernel function, run on those buffers, does it.
-/
import proofs.«168815_j88132728914046_1_alg».proof.Proof.Gen.KernelIdeal.Launch
import proofs.«168815_j88132728914046_1_alg».proof.Proof.Gen.KernelIdeal.Skeleton
import proofs.«168815_j88132728914046_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Encode

variable (V : (c : Dev nD) → (b : Ref sig .tc) → Buf (Elt F) ((c : Thread nD τ).loc b))

/-- Window `w`'s block at point `t`, read off its array as the region finds it. -/
def encBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rFeat : Rect S1x1024x128 := Rect.unit (s := S1x1024x128) ![0, 0, 0] S1x1024x128.size inb_S1x1024x128_S1x1024x128_0_0_0
abbrev rEncW : Rect S128x64 := Rect.unit (s := S128x64) ![0, 0] S128x64.size inb_S128x64_S128x64_0_0
abbrev rBias : Rect S64 := Rect.unit (s := S64) ![0] S64.size inb_S64_S64_0
abbrev rEnc : Rect S1x1024x64 := Rect.unit (s := S1x1024x64) ![0, 0, 0] S1x1024x64.size inb_S1x1024x64_S1x1024x64_0_0_0

/-- What the body leaves in the output window's buffer, from the three input blocks: its one store. -/
def encOut (x : Vec F S1x1024x128 .f32) (w : Vec F S128x64 .f32) (b : Vec F S64 .f32) : Vec F S1x1024x64 .f32 :=
  View.canon [⟨rEnc, k0_pay1 (View.ld x rFeat) (View.ld w rEncW) (View.ld b rBias)⟩]

/-- The proof data of the encoder's pipeline on core `c`. -/
def encDat (c : Dev nD) : Dat τ (Elt F) Unit ℕ (Pipeline.UD sig nD τ) ℕ cfg0 c where
  A w := V c (Pipeline.arrRef spec0 w)
  after w t := match w with
    | ⟨0, _⟩ => encBlk V c 0 t
    | ⟨1, _⟩ => encBlk V c 1 t
    | ⟨2, _⟩ => encBlk V c 2 t
    | ⟨3, _⟩ => encOut (encBlk V c 0 t) (encBlk V c 1 t) (encBlk V c 2 t)
  Φ _ := Pipeline.ΦA spec0 c
  q _ := fullShare
  owed _ := 0

theorem encDat_A (c : Dev nD) (w : Fin cfg0.W) : (encDat V c).A w = V c (Pipeline.arrRef spec0 w) := by
  dsimp only [encDat]

theorem encDat_after_out (c : Dev nD) (t : Fin cfg0.N) :
    (encDat V c).after 3 t = encOut (encBlk V c 0 t) (encBlk V c 1 t) (encBlk V c 2 t) := by dsimp only [encDat]

/-! ## What the body finds in each input window's buffer -/

/-- The feature tile's staging buffer holds its block at every point, for any proof data whose array is the one the
    region finds and whose body leaves the block in place: the window is fetched at every point, uncut, never idle. -/
private theorem encBefore0_of {c : Dev nD} (dat : Dat τ (Elt F) Unit ℕ (Pipeline.UD sig nD τ) ℕ cfg0 c) (hA : dat.A 0 = V c (Pipeline.arrRef spec0 0))
    (hafter : ∀ t, dat.after 0 t = encBlk V c 0 t) (t : Fin cfg0.N) (d) : dat.before 0 t d = encBlk V c 0 t :=
  (dat.before_in_eq_fetched 0 rfl (fun _ => rfl) (fun _ _ _ => rfl) (fun t => by rw [hafter]; unfold Dat.blockOf encBlk; rw [hA]; try rfl) t d).trans
    (by unfold Dat.fetched Dat.blockOf encBlk; rw [hA]; try rfl)

/-- The encoder matrix's staging buffer holds the whole matrix at every point: fetched at the first point only, its
    block index never moves afterwards, so the buffer still holds what the first fetch put there. -/
private theorem encBefore1_of {c : Dev nD} (dat : Dat τ (Elt F) Unit ℕ (Pipeline.UD sig nD τ) ℕ cfg0 c) (hA : dat.A 1 = V c (Pipeline.arrRef spec0 1))
    (hafter : ∀ t, dat.after 1 t = encBlk V c 1 t) (t : Fin cfg0.N) (d) : dat.before 1 t d = encBlk V c 1 t :=
  (dat.before_in_eq_fetched 1 rfl (fun _ => rfl) (fun _ _ _ => rfl) (fun t => by rw [hafter]; unfold Dat.blockOf encBlk; rw [hA]; try rfl) t d).trans
    (by unfold Dat.fetched Dat.blockOf encBlk; rw [hA]; try rfl)

/-- The bias's staging buffer holds the whole bias at every point, for the same reason. -/
private theorem encBefore2_of {c : Dev nD} (dat : Dat τ (Elt F) Unit ℕ (Pipeline.UD sig nD τ) ℕ cfg0 c) (hA : dat.A 2 = V c (Pipeline.arrRef spec0 2))
    (hafter : ∀ t, dat.after 2 t = encBlk V c 2 t) (t : Fin cfg0.N) (d) : dat.before 2 t d = encBlk V c 2 t :=
  (dat.before_in_eq_fetched 2 rfl (fun _ => rfl) (fun _ _ _ => rfl) (fun t => by rw [hafter]; unfold Dat.blockOf encBlk; rw [hA]; try rfl) t d).trans
    (by unfold Dat.fetched Dat.blockOf encBlk; rw [hA]; try rfl)

/-! ## The one store covers the output block -/

/-- The store's rectangle is the whole 1 × 1024 × 64 block, so every index of the block lies in it. -/
private theorem encCover (p : Vec F S1x1024x64 .f32) (y : S1x1024x64.Idx) :
    ∃ pc ∈ ([⟨rEnc, p⟩] : List (View.Piece (Elt F) S1x1024x64 .f32)), y ∈ pc.1.set :=
  View.cover_of_tiled [⟨rEnc, p⟩] S1x1024x64.size (by rfl) y

/-! ## The body's triple -/

set_option maxHeartbeats 1000000 in
/-- The encoder's body on whole staging memrefs: the three inputs' at read contents `x`, `w`, `b` and the output's at
    anything. It loads the three inputs whole, loads the output buffer (a value it never uses), and stores
    `x · w + b` (the payload) over the whole output block; so it ends with the inputs as they were and the output at
    `encOut x w b`, whatever the output buffer held before. -/
private theorem encKernel (c : Dev nD) (E : Set ℕ) (i : grid0.Coords)
    (arg2 : Memref sig .tc .vmem S1x1024x128 .f32) (harg2 : arg2.IsWhole)
    (arg3 : Memref sig .tc .vmem S128x64 .f32) (harg3 : arg3.IsWhole)
    (arg4 : Memref sig .tc .vmem S64 .f32) (harg4 : arg4.IsWhole)
    (arg5 : Memref sig .tc .vmem S1x1024x64 .f32) (harg5 : arg5.IsWhole)
    (x : Vec F S1x1024x128 .f32) (w : Vec F S128x64 .f32) (b : Vec F S64 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (encOut x w b)) -∗ K ⟨⟩))
      ⊢ wp frame (wpE (defs₀ (F := F)) Variants.none c none) E (cc0__encode_kernel i arg2 harg2 arg3 harg3 arg4 harg4 arg5 harg5) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (encCover _)

/-! ## The proof data, window by window -/

/-- What the body leaves in the three input windows' buffers: their blocks. -/
private theorem encAfter0 (c : Dev nD) (t : Fin cfg0.N) : (encDat V c).after 0 t = encBlk V c 0 t := by dsimp only [encDat]
private theorem encAfter1 (c : Dev nD) (t : Fin cfg0.N) : (encDat V c).after 1 t = encBlk V c 1 t := by dsimp only [encDat]
private theorem encAfter2 (c : Dev nD) (t : Fin cfg0.N) : (encDat V c).after 2 t = encBlk V c 2 t := by dsimp only [encDat]

/-- Each input window's current staging buffer holds its block at every point, fetched there or not. -/
private theorem encBefore0 (c : Dev nD) (t : Fin cfg0.N) (d) : (encDat V c).before 0 t d = encBlk V c 0 t :=
  encBefore0_of V (encDat V c) (encDat_A V c 0) (encAfter0 V c) t d
private theorem encBefore1 (c : Dev nD) (t : Fin cfg0.N) (d) : (encDat V c).before 1 t d = encBlk V c 1 t :=
  encBefore1_of V (encDat V c) (encDat_A V c 1) (encAfter1 V c) t d
private theorem encBefore2 (c : Dev nD) (t : Fin cfg0.N) (d) : (encDat V c).before 2 t d = encBlk V c 2 t :=
  encBefore2_of V (encDat V c) (encDat_A V c 2) (encAfter2 V c) t d

/-! ## The body obligation at a point -/

/-- What the body is called with at point `t`: the invariant, the core's debt (none), and each window's current
    staging buffer whole, at what the pipeline left in it. -/
private def encPre (c : Dev nD) (t : Fin cfg0.N) : sProp 𝕄 :=
  iprop((encDat V c).Φ t.castSucc ∗ (encDat V c).owesAt () t.castSucc
    ∗ (∃ d, owns (c : Thread nD τ) (st0_0 t) fullShare ((encDat V c).before 0 t d))
    ∗ (∃ d, owns (c : Thread nD τ) (st0_1 t) fullShare ((encDat V c).before 1 t d))
    ∗ (∃ d, owns (c : Thread nD τ) (st0_2 t) fullShare ((encDat V c).before 2 t d))
    ∗ (∃ d, owns (c : Thread nD τ) (st0_3 t) fullShare ((encDat V c).before 3 t d)))

/-- What it returns: the same invariant and debt, and each buffer at what the proof data says the body leaves. -/
private def encPost (c : Dev nD) (t : Fin cfg0.N) : sProp 𝕄 :=
  iprop((encDat V c).Φ t.succ ∗ (encDat V c).owesAt () t.succ
    ∗ owns (c : Thread nD τ) (st0_0 t) fullShare ((encDat V c).after 0 t)
    ∗ owns (c : Thread nD τ) (st0_1 t) fullShare ((encDat V c).after 1 t)
    ∗ owns (c : Thread nD τ) (st0_2 t) fullShare ((encDat V c).after 2 t)
    ∗ owns (c : Thread nD τ) (st0_3 t) fullShare ((encDat V c).after 3 t))

/-- The body at any point: the three input buffers hold their blocks, so the body's triple applies at those blocks;
    the invariant and the debt are not touched by the body and pass through. -/
private theorem encBody (c : Dev nD) (t : Fin cfg0.N) :
    encPre V c t ⊢ wp frame (wpE (defs₀ (F := F)) Variants.none c none) Set.univ (bodyAt0 t) (fun _ => encPost V c t) := by
  unfold encPre encPost bodyAt0
  simp only [encBefore0, encBefore1, encBefore2]
  rw [show (encDat V c).Φ t.succ = (encDat V c).Φ t.castSucc from rfl,
    show (encDat V c).owesAt () t.succ = (encDat V c).owesAt () t.castSucc from rfl,
    encAfter0, encAfter1, encAfter2, encDat_after_out]
  iintro ⟨HΦ, Ho, ⟨%d0, H0⟩, ⟨%d1, H1⟩, ⟨%d2, H2⟩, ⟨%d3, H3⟩⟩
  iapply (encKernel c Set.univ (grid0.coords t) _ _ _ _ _ _ _ _ (encBlk V c 0 t) (encBlk V c 1 t) (encBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the encoder's pipeline, at every point. -/
theorem encObligation (c : Dev nD) : BodyObligation (encDat (F := F) V c) (defs₀ (F := F)) Variants.none () Set.univ := fun t => by
  rw [bigSep_W0, bigSep_W0]
  exact encBody V c t

end Encode

end Cert.KernelIdeal.Hand

end
-- ==== Proof.UpdateBody.lean ====
/-
  The update region (the second kernel launch), at the contents `V` the TensorCore's buffers hold when it is entered.

  Its grid has 32 points, (batch b, row tile i) with 512 rows to a tile. At a point the body reads the tile of
  adjacency rows (1 × 512 × 4096), the batch's encoded features whole (1 × 4096 × 64) and their tile (1 × 512 × 64),
  the mask's tile (1 × 512 × 1), the six gate matrices and the six gate biases, and writes the tile of results
  (1 × 512 × 64): one store that covers the output block. What it leaves in the output window's buffer is one function
  of the sixteen input blocks, `updOut`. The encoded features reach the kernel through TWO windows on one array, the
  whole batch and the tile; both only read it, so the proof data holds the left half of that array's share for one and
  the right half for the other, and the full share of every other array.
-/
import proofs.«168815_j88132728914046_1_alg».proof.Proof.Gen.KernelIdeal.Launch
import proofs.«168815_j88132728914046_1_alg».proof.Proof.Gen.KernelIdeal.Skeleton
import proofs.«168815_j88132728914046_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Update

variable (V : (c : Dev nD) → (b : Ref sig .tc) → Buf (Elt F) ((c : Thread nD τ).loc b))

/-- Window `w`'s block at point `t`, read off its array as the region finds it. -/
def updBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rAdj : Rect S1x512x4096 := Rect.unit (s := S1x512x4096) ![0, 0, 0] S1x512x4096.size inb_S1x512x4096_S1x512x4096_0_0_0
abbrev rAll : Rect S1x4096x64 := Rect.unit (s := S1x4096x64) ![0, 0, 0] S1x4096x64.size inb_S1x4096x64_S1x4096x64_0_0_0
abbrev rTile : Rect S1x512x64 := Rect.unit (s := S1x512x64) ![0, 0, 0] S1x512x64.size inb_S1x512x64_S1x512x64_0_0_0
abbrev rMask : Rect S1x512x1 := Rect.unit (s := S1x512x1) ![0, 0, 0] S1x512x1.size inb_S1x512x1_S1x512x1_0_0_0
abbrev rGateW : Rect S64x64 := Rect.unit (s := S64x64) ![0, 0] S64x64.size inb_S64x64_S64x64_0_0
abbrev rGateB : Rect S64 := Rect.unit (s := S64) ![0] S64.size inb_S64_S64_0

/-- What the body leaves in the output window's buffer, from the sixteen input blocks (in window order: adjacency tile,
    features whole, features tile, mask tile, the matrices of the update, reset and candidate gates, their biases):
    its one store. -/
def updOut (adj : Vec F S1x512x4096 .f32) (all : Vec F S1x4096x64 .f32) (own : Vec F S1x512x64 .f32) (msk : Vec F S1x512x1 .f32) (wz0 : Vec F S64x64 .f32) (wz1 : Vec F S64x64 .f32) (wr0 : Vec F S64x64 .f32) (wr1 : Vec F S64x64 .f32) (wh0 : Vec F S64x64 .f32) (wh1 : Vec F S64x64 .f32) (bz0 : Vec F S64 .f32) (bz1 : Vec F S64 .f32) (br0 : Vec F S64 .f32) (br1 : Vec F S64 .f32) (bh0 : Vec F S64 .f32) (bh1 : Vec F S64 .f32) : Vec F S1x512x64 .f32 :=
  View.canon [⟨rTile, k1_pay11 (k1_pay1 (View.ld own rTile)) (k1_pay2 (View.ld msk rMask)) (k1_pay3 (View.ld adj rAdj) (View.ld all rAll)) (k1_pay4 (View.ld own rTile))
      (k1_pay5 (View.ld wz1 rGateW)) (k1_pay6 (View.ld wr0 rGateW)) (k1_pay7 (View.ld wr1 rGateW)) (k1_pay8 (View.ld wh0 rGateW)) (k1_pay9 (View.ld wh1 rGateW))
      (k1_pay10 (View.ld adj rAdj) (View.ld all rAll) (View.ld wz0 rGateW) (View.ld bz0 rGateB)) (constant S512x64 .f32 0x00000000#32)
      (View.ld bz1 rGateB) (View.ld br0 rGateB) (View.ld br1 rGateB) (View.ld bh0 rGateB) (View.ld bh1 rGateB)⟩]

/-- The proof data of the update's pipeline on core `c`. -/
def updDat (c : Dev nD) : Dat τ (Elt F) Unit ℕ (Pipeline.UD sig nD τ) ℕ cfg1 c where
  A w := V c (Pipeline.arrRef spec1 w)
  after w t := match w with
    | ⟨0, _⟩ => updBlk V c 0 t
    | ⟨1, _⟩ => updBlk V c 1 t
    | ⟨2, _⟩ => updBlk V c 2 t
    | ⟨3, _⟩ => updBlk V c 3 t
    | ⟨4, _⟩ => updBlk V c 4 t
    | ⟨5, _⟩ => updBlk V c 5 t
    | ⟨6, _⟩ => updBlk V c 6 t
    | ⟨7, _⟩ => updBlk V c 7 t
    | ⟨8, _⟩ => updBlk V c 8 t
    | ⟨9, _⟩ => updBlk V c 9 t
    | ⟨10, _⟩ => updBlk V c 10 t
    | ⟨11, _⟩ => updBlk V c 11 t
    | ⟨12, _⟩ => updBlk V c 12 t
    | ⟨13, _⟩ => updBlk V c 13 t
    | ⟨14, _⟩ => updBlk V c 14 t
    | ⟨15, _⟩ => updBlk V c 15 t
    | ⟨16, _⟩ => updOut (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t)
    | ⟨_ + 17, h⟩ => absurd h (Nat.not_lt.2 (Nat.le_add_left _ _))
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem updDat_A (c : Dev nD) (w : Fin cfg1.W) : (updDat V c).A w = V c (Pipeline.arrRef spec1 w) := by
  dsimp only [updDat]

theorem updDat_after_out (c : Dev nD) (t : Fin cfg1.N) :
    (updDat V c).after 16 t = updOut (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t) := by dsimp only [updDat]

/-! ## The input windows' staging buffers at a point -/

/-- An input window's current staging buffer holds its block at every point, fetched there or not, for any proof data whose
    array is the region's and whose body leaves the block in place: unfetched, the window's block index has not moved, and
    the block left at the point before is this point's. Window by window (every window uncut and never idle). -/
theorem updBefore_0_of {c : Dev nD} (dat : Dat τ (Elt F) Unit ℕ (Pipeline.UD sig nD τ) ℕ cfg1 c) (hA : dat.A 0 = V c (Pipeline.arrRef spec1 0))
    (hafter : ∀ t, dat.after 0 t = updBlk V c 0 t) (t : Fin cfg1.N) (d) : dat.before 0 t d = updBlk V c 0 t :=
  (dat.before_in_eq_fetched 0 rfl (fun _ => rfl) (fun _ _ _ => rfl) (fun t => by rw [hafter]; unfold Dat.blockOf updBlk; rw [hA]; try rfl) t d).trans
    (by unfold Dat.fetched Dat.blockOf updBlk; rw [hA]; try rfl)

theorem updBefore_1_of {c : Dev nD} (dat : Dat τ (Elt F) Unit ℕ (Pipeline.UD sig nD τ) ℕ cfg1 c) (hA : dat.A 1 = V c (Pipeline.arrRef spec1 1))
    (hafter : ∀ t, dat.after 1 t = updBlk V c 1 t) (t : Fin cfg1.N) (d) : dat.before 1 t d = updBlk V c 1 t :=
  (dat.before_in_eq_fetched 1 rfl (fun _ => rfl) (fun _ _ _ => rfl) (fun t => by rw [hafter]; unfold Dat.blockOf updBlk; rw [hA]; try rfl) t d).trans
    (by unfold Dat.fetched Dat.blockOf updBlk; rw [hA]; try rfl)

theorem updBefore_2_of {c : Dev nD} (dat : Dat τ (Elt F) Unit ℕ (Pipeline.UD sig nD τ) ℕ cfg1 c) (hA : dat.A 2 = V c (Pipeline.arrRef spec1 2))
    (hafter : ∀ t, dat.after 2 t = updBlk V c 2 t) (t : Fin cfg1.N) (d) : dat.before 2 t d = updBlk V c 2 t :=
  (dat.before_in_eq_fetched 2 rfl (fun _ => rfl) (fun _ _ _ => rfl) (fun t => by rw [hafter]; unfold Dat.blockOf updBlk; rw [hA]; try rfl) t d).trans
    (by unfold Dat.fetched Dat.blockOf updBlk; rw [hA]; try rfl)

theorem updBefore_3_of {c : Dev nD} (dat : Dat τ (Elt F) Unit ℕ (Pipeline.UD sig nD τ) ℕ cfg1 c) (hA : dat.A 3 = V c (Pipeline.arrRef spec1 3))
    (hafter : ∀ t, dat.after 3 t = updBlk V c 3 t) (t : Fin cfg1.N) (d) : dat.before 3 t d = updBlk V c 3 t :=
  (dat.before_in_eq_fetched 3 rfl (fun _ => rfl) (fun _ _ _ => rfl) (fun t => by rw [hafter]; unfold Dat.blockOf updBlk; rw [hA]; try rfl) t d).trans
    (by unfold Dat.fetched Dat.blockOf updBlk; rw [hA]; try rfl)

theorem updBefore_4_of {c : Dev nD} (dat : Dat τ (Elt F) Unit ℕ (Pipeline.UD sig nD τ) ℕ cfg1 c) (hA : dat.A 4 = V c (Pipeline.arrRef spec1 4))
    (hafter : ∀ t, dat.after 4 t = updBlk V c 4 t) (t : Fin cfg1.N) (d) : dat.before 4 t d = updBlk V c 4 t :=
  (dat.before_in_eq_fetched 4 rfl (fun _ => rfl) (fun _ _ _ => rfl) (fun t => by rw [hafter]; unfold Dat.blockOf updBlk; rw [hA]; try rfl) t d).trans
    (by unfold Dat.fetched Dat.blockOf updBlk; rw [hA]; try rfl)

theorem updBefore_5_of {c : Dev nD} (dat : Dat τ (Elt F) Unit ℕ (Pipeline.UD sig nD τ) ℕ cfg1 c) (hA : dat.A 5 = V c (Pipeline.arrRef spec1 5))
    (hafter : ∀ t, dat.after 5 t = updBlk V c 5 t) (t : Fin cfg1.N) (d) : dat.before 5 t d = updBlk V c 5 t :=
  (dat.before_in_eq_fetched 5 rfl (fun _ => rfl) (fun _ _ _ => rfl) (fun t => by rw [hafter]; unfold Dat.blockOf updBlk; rw [hA]; try rfl) t d).trans
    (by unfold Dat.fetched Dat.blockOf updBlk; rw [hA]; try rfl)

theorem updBefore_6_of {c : Dev nD} (dat : Dat τ (Elt F) Unit ℕ (Pipeline.UD sig nD τ) ℕ cfg1 c) (hA : dat.A 6 = V c (Pipeline.arrRef spec1 6))
    (hafter : ∀ t, dat.after 6 t = updBlk V c 6 t) (t : Fin cfg1.N) (d) : dat.before 6 t d = updBlk V c 6 t :=
  (dat.before_in_eq_fetched 6 rfl (fun _ => rfl) (fun _ _ _ => rfl) (fun t => by rw [hafter]; unfold Dat.blockOf updBlk; rw [hA]; try rfl) t d).trans
    (by unfold Dat.fetched Dat.blockOf updBlk; rw [hA]; try rfl)

theorem updBefore_7_of {c : Dev nD} (dat : Dat τ (Elt F) Unit ℕ (Pipeline.UD sig nD τ) ℕ cfg1 c) (hA : dat.A 7 = V c (Pipeline.arrRef spec1 7))
    (hafter : ∀ t, dat.after 7 t = updBlk V c 7 t) (t : Fin cfg1.N) (d) : dat.before 7 t d = updBlk V c 7 t :=
  (dat.before_in_eq_fetched 7 rfl (fun _ => rfl) (fun _ _ _ => rfl) (fun t => by rw [hafter]; unfold Dat.blockOf updBlk; rw [hA]; try rfl) t d).trans
    (by unfold Dat.fetched Dat.blockOf updBlk; rw [hA]; try rfl)

theorem updBefore_8_of {c : Dev nD} (dat : Dat τ (Elt F) Unit ℕ (Pipeline.UD sig nD τ) ℕ cfg1 c) (hA : dat.A 8 = V c (Pipeline.arrRef spec1 8))
    (hafter : ∀ t, dat.after 8 t = updBlk V c 8 t) (t : Fin cfg1.N) (d) : dat.before 8 t d = updBlk V c 8 t :=
  (dat.before_in_eq_fetched 8 rfl (fun _ => rfl) (fun _ _ _ => rfl) (fun t => by rw [hafter]; unfold Dat.blockOf updBlk; rw [hA]; try rfl) t d).trans
    (by unfold Dat.fetched Dat.blockOf updBlk; rw [hA]; try rfl)

theorem updBefore_9_of {c : Dev nD} (dat : Dat τ (Elt F) Unit ℕ (Pipeline.UD sig nD τ) ℕ cfg1 c) (hA : dat.A 9 = V c (Pipeline.arrRef spec1 9))
    (hafter : ∀ t, dat.after 9 t = updBlk V c 9 t) (t : Fin cfg1.N) (d) : dat.before 9 t d = updBlk V c 9 t :=
  (dat.before_in_eq_fetched 9 rfl (fun _ => rfl) (fun _ _ _ => rfl) (fun t => by rw [hafter]; unfold Dat.blockOf updBlk; rw [hA]; try rfl) t d).trans
    (by unfold Dat.fetched Dat.blockOf updBlk; rw [hA]; try rfl)

theorem updBefore_10_of {c : Dev nD} (dat : Dat τ (Elt F) Unit ℕ (Pipeline.UD sig nD τ) ℕ cfg1 c) (hA : dat.A 10 = V c (Pipeline.arrRef spec1 10))
    (hafter : ∀ t, dat.after 10 t = updBlk V c 10 t) (t : Fin cfg1.N) (d) : dat.before 10 t d = updBlk V c 10 t :=
  (dat.before_in_eq_fetched 10 rfl (fun _ => rfl) (fun _ _ _ => rfl) (fun t => by rw [hafter]; unfold Dat.blockOf updBlk; rw [hA]; try rfl) t d).trans
    (by unfold Dat.fetched Dat.blockOf updBlk; rw [hA]; try rfl)

theorem updBefore_11_of {c : Dev nD} (dat : Dat τ (Elt F) Unit ℕ (Pipeline.UD sig nD τ) ℕ cfg1 c) (hA : dat.A 11 = V c (Pipeline.arrRef spec1 11))
    (hafter : ∀ t, dat.after 11 t = updBlk V c 11 t) (t : Fin cfg1.N) (d) : dat.before 11 t d = updBlk V c 11 t :=
  (dat.before_in_eq_fetched 11 rfl (fun _ => rfl) (fun _ _ _ => rfl) (fun t => by rw [hafter]; unfold Dat.blockOf updBlk; rw [hA]; try rfl) t d).trans
    (by unfold Dat.fetched Dat.blockOf updBlk; rw [hA]; try rfl)

theorem updBefore_12_of {c : Dev nD} (dat : Dat τ (Elt F) Unit ℕ (Pipeline.UD sig nD τ) ℕ cfg1 c) (hA : dat.A 12 = V c (Pipeline.arrRef spec1 12))
    (hafter : ∀ t, dat.after 12 t = updBlk V c 12 t) (t : Fin cfg1.N) (d) : dat.before 12 t d = updBlk V c 12 t :=
  (dat.before_in_eq_fetched 12 rfl (fun _ => rfl) (fun _ _ _ => rfl) (fun t => by rw [hafter]; unfold Dat.blockOf updBlk; rw [hA]; try rfl) t d).trans
    (by unfold Dat.fetched Dat.blockOf updBlk; rw [hA]; try rfl)

theorem updBefore_13_of {c : Dev nD} (dat : Dat τ (Elt F) Unit ℕ (Pipeline.UD sig nD τ) ℕ cfg1 c) (hA : dat.A 13 = V c (Pipeline.arrRef spec1 13))
    (hafter : ∀ t, dat.after 13 t = updBlk V c 13 t) (t : Fin cfg1.N) (d) : dat.before 13 t d = updBlk V c 13 t :=
  (dat.before_in_eq_fetched 13 rfl (fun _ => rfl) (fun _ _ _ => rfl) (fun t => by rw [hafter]; unfold Dat.blockOf updBlk; rw [hA]; try rfl) t d).trans
    (by unfold Dat.fetched Dat.blockOf updBlk; rw [hA]; try rfl)

theorem updBefore_14_of {c : Dev nD} (dat : Dat τ (Elt F) Unit ℕ (Pipeline.UD sig nD τ) ℕ cfg1 c) (hA : dat.A 14 = V c (Pipeline.arrRef spec1 14))
    (hafter : ∀ t, dat.after 14 t = updBlk V c 14 t) (t : Fin cfg1.N) (d) : dat.before 14 t d = updBlk V c 14 t :=
  (dat.before_in_eq_fetched 14 rfl (fun _ => rfl) (fun _ _ _ => rfl) (fun t => by rw [hafter]; unfold Dat.blockOf updBlk; rw [hA]; try rfl) t d).trans
    (by unfold Dat.fetched Dat.blockOf updBlk; rw [hA]; try rfl)

theorem updBefore_15_of {c : Dev nD} (dat : Dat τ (Elt F) Unit ℕ (Pipeline.UD sig nD τ) ℕ cfg1 c) (hA : dat.A 15 = V c (Pipeline.arrRef spec1 15))
    (hafter : ∀ t, dat.after 15 t = updBlk V c 15 t) (t : Fin cfg1.N) (d) : dat.before 15 t d = updBlk V c 15 t :=
  (dat.before_in_eq_fetched 15 rfl (fun _ => rfl) (fun _ _ _ => rfl) (fun t => by rw [hafter]; unfold Dat.blockOf updBlk; rw [hA]; try rfl) t d).trans
    (by unfold Dat.fetched Dat.blockOf updBlk; rw [hA]; try rfl)

/-! ## The body's one store -/

/-- The body's one store is through the whole-buffer rectangle, so it covers the output buffer. -/
theorem updCover (p : Vec F S1x512x64 .f32) (y : S1x512x64.Idx) :
    ∃ pc ∈ ([⟨rTile, p⟩] : List (View.Piece (Elt F) S1x512x64 .f32)), y ∈ pc.1.set :=
  View.cover_of_tiled [⟨rTile, p⟩] S1x512x64.size (by rfl) y

/-! ## The body's triple -/

set_option maxHeartbeats 4000000 in
/-- The body on whole staging memrefs — the sixteen inputs' reading `adj` … `bh1`, the output's holding anything — runs to
    the continuation with the inputs' as they were and the output's at `updOut` of the inputs: the printed functions are
    their skeletons, part by part; every load reads a buffer whole (the one of the output buffer is dead), and the one
    store covers the output buffer, so what it holds afterwards is the store's payload laid over it. -/
theorem updKernel (c : Dev nD) (E : Set ℕ) (i : grid1.Coords) (arg2 : Memref sig .tc .vmem S1x512x4096 .f32) (harg2 : arg2.IsWhole) (arg3 : Memref sig .tc .vmem S1x4096x64 .f32) (harg3 : arg3.IsWhole) (arg4 : Memref sig .tc .vmem S1x512x64 .f32) (harg4 : arg4.IsWhole) (arg5 : Memref sig .tc .vmem S1x512x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64 .f32) (harg13 : arg13.IsWhole) (arg14 : Memref sig .tc .vmem S64 .f32) (harg14 : arg14.IsWhole) (arg15 : Memref sig .tc .vmem S64 .f32) (harg15 : arg15.IsWhole) (arg16 : Memref sig .tc .vmem S64 .f32) (harg16 : arg16.IsWhole) (arg17 : Memref sig .tc .vmem S64 .f32) (harg17 : arg17.IsWhole) (arg18 : Memref sig .tc .vmem S1x512x64 .f32) (harg18 : arg18.IsWhole)
    (adj : Vec F S1x512x4096 .f32) (all : Vec F S1x4096x64 .f32) (own : Vec F S1x512x64 .f32) (msk : Vec F S1x512x1 .f32) (wz0 : Vec F S64x64 .f32) (wz1 : Vec F S64x64 .f32) (wr0 : Vec F S64x64 .f32) (wr1 : Vec F S64x64 .f32) (wh0 : Vec F S64x64 .f32) (wh1 : Vec F S64x64 .f32) (bz0 : Vec F S64 .f32) (bz1 : Vec F S64 .f32) (br0 : Vec F S64 .f32) (br1 : Vec F S64 .f32) (bh0 : Vec F S64 .f32) (bh1 : Vec F S64 .f32) (K : PUnit → sProp 𝕄) :
    iprop(owns (c : Thread nD τ) arg2 fullShare adj ∗ owns (c : Thread nD τ) arg3 fullShare all ∗ owns (c : Thread nD τ) arg4 fullShare own ∗ owns (c : Thread nD τ) arg5 fullShare msk ∗ owns (c : Thread nD τ) arg6 fullShare wz0 ∗ owns (c : Thread nD τ) arg7 fullShare wz1 ∗ owns (c : Thread nD τ) arg8 fullShare wr0 ∗ owns (c : Thread nD τ) arg9 fullShare wr1 ∗ owns (c : Thread nD τ) arg10 fullShare wh0 ∗ owns (c : Thread nD τ) arg11 fullShare wh1 ∗ owns (c : Thread nD τ) arg12 fullShare bz0 ∗ owns (c : Thread nD τ) arg13 fullShare bz1 ∗ owns (c : Thread nD τ) arg14 fullShare br0 ∗ owns (c : Thread nD τ) arg15 fullShare br1 ∗ owns (c : Thread nD τ) arg16 fullShare bh0 ∗ owns (c : Thread nD τ) arg17 fullShare bh1 ∗ (∃ d, owns (c : Thread nD τ) arg18 fullShare d)
        ∗ (iprop(owns (c : Thread nD τ) arg2 fullShare adj ∗ owns (c : Thread nD τ) arg3 fullShare all ∗ owns (c : Thread nD τ) arg4 fullShare own ∗ owns (c : Thread nD τ) arg5 fullShare msk ∗ owns (c : Thread nD τ) arg6 fullShare wz0 ∗ owns (c : Thread nD τ) arg7 fullShare wz1 ∗ owns (c : Thread nD τ) arg8 fullShare wr0 ∗ owns (c : Thread nD τ) arg9 fullShare wr1 ∗ owns (c : Thread nD τ) arg10 fullShare wh0 ∗ owns (c : Thread nD τ) arg11 fullShare wh1 ∗ owns (c : Thread nD τ) arg12 fullShare bz0 ∗ owns (c : Thread nD τ) arg13 fullShare bz1 ∗ owns (c : Thread nD τ) arg14 fullShare br0 ∗ owns (c : Thread nD τ) arg15 fullShare br1 ∗ owns (c : Thread nD τ) arg16 fullShare bh0 ∗ owns (c : Thread nD τ) arg17 fullShare bh1 ∗ owns (c : Thread nD τ) arg18 fullShare (updOut adj all own msk wz0 wz1 wr0 wr1 wh0 wh1 bz0 bz1 br0 br1 bh0 bh1)) -∗ K ⟨⟩))
      ⊢ wp frame (wpE (defs₀ (F := F)) Variants.none c none) E (cc1__gnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__gnn_kernel_eq_skeleton]; unfold cc1__gnn_kernel_skel
  simp only [k1_part2_eq_skeleton]; unfold k1_part2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  unfold updOut
  try dsimp only
  exact View.read_writes_eq_canon _ _ _ (updCover _)

/-! ## The proof data's windows, one by one -/

/-- What the body leaves in an input window's buffer is the block it found there. -/
theorem updDat_after_0 (c : Dev nD) (t : Fin cfg1.N) : (updDat V c).after 0 t = updBlk V c 0 t := by dsimp only [updDat]
theorem updDat_after_1 (c : Dev nD) (t : Fin cfg1.N) : (updDat V c).after 1 t = updBlk V c 1 t := by dsimp only [updDat]
theorem updDat_after_2 (c : Dev nD) (t : Fin cfg1.N) : (updDat V c).after 2 t = updBlk V c 2 t := by dsimp only [updDat]
theorem updDat_after_3 (c : Dev nD) (t : Fin cfg1.N) : (updDat V c).after 3 t = updBlk V c 3 t := by dsimp only [updDat]
theorem updDat_after_4 (c : Dev nD) (t : Fin cfg1.N) : (updDat V c).after 4 t = updBlk V c 4 t := by dsimp only [updDat]
theorem updDat_after_5 (c : Dev nD) (t : Fin cfg1.N) : (updDat V c).after 5 t = updBlk V c 5 t := by dsimp only [updDat]
theorem updDat_after_6 (c : Dev nD) (t : Fin cfg1.N) : (updDat V c).after 6 t = updBlk V c 6 t := by dsimp only [updDat]
theorem updDat_after_7 (c : Dev nD) (t : Fin cfg1.N) : (updDat V c).after 7 t = updBlk V c 7 t := by dsimp only [updDat]
theorem updDat_after_8 (c : Dev nD) (t : Fin cfg1.N) : (updDat V c).after 8 t = updBlk V c 8 t := by dsimp only [updDat]
theorem updDat_after_9 (c : Dev nD) (t : Fin cfg1.N) : (updDat V c).after 9 t = updBlk V c 9 t := by dsimp only [updDat]
theorem updDat_after_10 (c : Dev nD) (t : Fin cfg1.N) : (updDat V c).after 10 t = updBlk V c 10 t := by dsimp only [updDat]
theorem updDat_after_11 (c : Dev nD) (t : Fin cfg1.N) : (updDat V c).after 11 t = updBlk V c 11 t := by dsimp only [updDat]
theorem updDat_after_12 (c : Dev nD) (t : Fin cfg1.N) : (updDat V c).after 12 t = updBlk V c 12 t := by dsimp only [updDat]
theorem updDat_after_13 (c : Dev nD) (t : Fin cfg1.N) : (updDat V c).after 13 t = updBlk V c 13 t := by dsimp only [updDat]
theorem updDat_after_14 (c : Dev nD) (t : Fin cfg1.N) : (updDat V c).after 14 t = updBlk V c 14 t := by dsimp only [updDat]
theorem updDat_after_15 (c : Dev nD) (t : Fin cfg1.N) : (updDat V c).after 15 t = updBlk V c 15 t := by dsimp only [updDat]

/-- So each input's current staging buffer holds its block at every point. -/
theorem updBefore_0 (c : Dev nD) (t : Fin cfg1.N) (d) : (updDat V c).before 0 t d = updBlk V c 0 t :=
  updBefore_0_of V (updDat V c) (updDat_A V c 0) (updDat_after_0 V c) t d
theorem updBefore_1 (c : Dev nD) (t : Fin cfg1.N) (d) : (updDat V c).before 1 t d = updBlk V c 1 t :=
  updBefore_1_of V (updDat V c) (updDat_A V c 1) (updDat_after_1 V c) t d
theorem updBefore_2 (c : Dev nD) (t : Fin cfg1.N) (d) : (updDat V c).before 2 t d = updBlk V c 2 t :=
  updBefore_2_of V (updDat V c) (updDat_A V c 2) (updDat_after_2 V c) t d
theorem updBefore_3 (c : Dev nD) (t : Fin cfg1.N) (d) : (updDat V c).before 3 t d = updBlk V c 3 t :=
  updBefore_3_of V (updDat V c) (updDat_A V c 3) (updDat_after_3 V c) t d
theorem updBefore_4 (c : Dev nD) (t : Fin cfg1.N) (d) : (updDat V c).before 4 t d = updBlk V c 4 t :=
  updBefore_4_of V (updDat V c) (updDat_A V c 4) (updDat_after_4 V c) t d
theorem updBefore_5 (c : Dev nD) (t : Fin cfg1.N) (d) : (updDat V c).before 5 t d = updBlk V c 5 t :=
  updBefore_5_of V (updDat V c) (updDat_A V c 5) (updDat_after_5 V c) t d
theorem updBefore_6 (c : Dev nD) (t : Fin cfg1.N) (d) : (updDat V c).before 6 t d = updBlk V c 6 t :=
  updBefore_6_of V (updDat V c) (updDat_A V c 6) (updDat_after_6 V c) t d
theorem updBefore_7 (c : Dev nD) (t : Fin cfg1.N) (d) : (updDat V c).before 7 t d = updBlk V c 7 t :=
  updBefore_7_of V (updDat V c) (updDat_A V c 7) (updDat_after_7 V c) t d
theorem updBefore_8 (c : Dev nD) (t : Fin cfg1.N) (d) : (updDat V c).before 8 t d = updBlk V c 8 t :=
  updBefore_8_of V (updDat V c) (updDat_A V c 8) (updDat_after_8 V c) t d
theorem updBefore_9 (c : Dev nD) (t : Fin cfg1.N) (d) : (updDat V c).before 9 t d = updBlk V c 9 t :=
  updBefore_9_of V (updDat V c) (updDat_A V c 9) (updDat_after_9 V c) t d
theorem updBefore_10 (c : Dev nD) (t : Fin cfg1.N) (d) : (updDat V c).before 10 t d = updBlk V c 10 t :=
  updBefore_10_of V (updDat V c) (updDat_A V c 10) (updDat_after_10 V c) t d
theorem updBefore_11 (c : Dev nD) (t : Fin cfg1.N) (d) : (updDat V c).before 11 t d = updBlk V c 11 t :=
  updBefore_11_of V (updDat V c) (updDat_A V c 11) (updDat_after_11 V c) t d
theorem updBefore_12 (c : Dev nD) (t : Fin cfg1.N) (d) : (updDat V c).before 12 t d = updBlk V c 12 t :=
  updBefore_12_of V (updDat V c) (updDat_A V c 12) (updDat_after_12 V c) t d
theorem updBefore_13 (c : Dev nD) (t : Fin cfg1.N) (d) : (updDat V c).before 13 t d = updBlk V c 13 t :=
  updBefore_13_of V (updDat V c) (updDat_A V c 13) (updDat_after_13 V c) t d
theorem updBefore_14 (c : Dev nD) (t : Fin cfg1.N) (d) : (updDat V c).before 14 t d = updBlk V c 14 t :=
  updBefore_14_of V (updDat V c) (updDat_A V c 14) (updDat_after_14 V c) t d
theorem updBefore_15 (c : Dev nD) (t : Fin cfg1.N) (d) : (updDat V c).before 15 t d = updBlk V c 15 t :=
  updBefore_15_of V (updDat V c) (updDat_A V c 15) (updDat_after_15 V c) t d

/-! ## The body obligation, at a generic point -/

/-- What the body is handed at point `t`: the invariant, what the core owes, and each window's current staging buffer at
    what it then holds, the windows one by one. -/
def updPre (c : Dev nD) (t : Fin cfg1.N) : sProp 𝕄 :=
  iprop((updDat V c).Φ t.castSucc ∗ (updDat V c).owesAt () t.castSucc
    ∗ (∃ d, owns (c : Thread nD τ) (st1_0 t) fullShare ((updDat V c).before 0 t d))
    ∗ (∃ d, owns (c : Thread nD τ) (st1_1 t) fullShare ((updDat V c).before 1 t d))
    ∗ (∃ d, owns (c : Thread nD τ) (st1_2 t) fullShare ((updDat V c).before 2 t d))
    ∗ (∃ d, owns (c : Thread nD τ) (st1_3 t) fullShare ((updDat V c).before 3 t d))
    ∗ (∃ d, owns (c : Thread nD τ) (st1_4 t) fullShare ((updDat V c).before 4 t d))
    ∗ (∃ d, owns (c : Thread nD τ) (st1_5 t) fullShare ((updDat V c).before 5 t d))
    ∗ (∃ d, owns (c : Thread nD τ) (st1_6 t) fullShare ((updDat V c).before 6 t d))
    ∗ (∃ d, owns (c : Thread nD τ) (st1_7 t) fullShare ((updDat V c).before 7 t d))
    ∗ (∃ d, owns (c : Thread nD τ) (st1_8 t) fullShare ((updDat V c).before 8 t d))
    ∗ (∃ d, owns (c : Thread nD τ) (st1_9 t) fullShare ((updDat V c).before 9 t d))
    ∗ (∃ d, owns (c : Thread nD τ) (st1_10 t) fullShare ((updDat V c).before 10 t d))
    ∗ (∃ d, owns (c : Thread nD τ) (st1_11 t) fullShare ((updDat V c).before 11 t d))
    ∗ (∃ d, owns (c : Thread nD τ) (st1_12 t) fullShare ((updDat V c).before 12 t d))
    ∗ (∃ d, owns (c : Thread nD τ) (st1_13 t) fullShare ((updDat V c).before 13 t d))
    ∗ (∃ d, owns (c : Thread nD τ) (st1_14 t) fullShare ((updDat V c).before 14 t d))
    ∗ (∃ d, owns (c : Thread nD τ) (st1_15 t) fullShare ((updDat V c).before 15 t d))
    ∗ (∃ d, owns (c : Thread nD τ) (st1_16 t) fullShare ((updDat V c).before 16 t d)))

/-- What it hands back: the invariant and the debt at the next point, and each current staging buffer at what the body
    leaves in it. -/
def updPost (c : Dev nD) (t : Fin cfg1.N) : sProp 𝕄 :=
  iprop((updDat V c).Φ t.succ ∗ (updDat V c).owesAt () t.succ
    ∗ owns (c : Thread nD τ) (st1_0 t) fullShare ((updDat V c).after 0 t)
    ∗ owns (c : Thread nD τ) (st1_1 t) fullShare ((updDat V c).after 1 t)
    ∗ owns (c : Thread nD τ) (st1_2 t) fullShare ((updDat V c).after 2 t)
    ∗ owns (c : Thread nD τ) (st1_3 t) fullShare ((updDat V c).after 3 t)
    ∗ owns (c : Thread nD τ) (st1_4 t) fullShare ((updDat V c).after 4 t)
    ∗ owns (c : Thread nD τ) (st1_5 t) fullShare ((updDat V c).after 5 t)
    ∗ owns (c : Thread nD τ) (st1_6 t) fullShare ((updDat V c).after 6 t)
    ∗ owns (c : Thread nD τ) (st1_7 t) fullShare ((updDat V c).after 7 t)
    ∗ owns (c : Thread nD τ) (st1_8 t) fullShare ((updDat V c).after 8 t)
    ∗ owns (c : Thread nD τ) (st1_9 t) fullShare ((updDat V c).after 9 t)
    ∗ owns (c : Thread nD τ) (st1_10 t) fullShare ((updDat V c).after 10 t)
    ∗ owns (c : Thread nD τ) (st1_11 t) fullShare ((updDat V c).after 11 t)
    ∗ owns (c : Thread nD τ) (st1_12 t) fullShare ((updDat V c).after 12 t)
    ∗ owns (c : Thread nD τ) (st1_13 t) fullShare ((updDat V c).after 13 t)
    ∗ owns (c : Thread nD τ) (st1_14 t) fullShare ((updDat V c).after 14 t)
    ∗ owns (c : Thread nD τ) (st1_15 t) fullShare ((updDat V c).after 15 t)
    ∗ owns (c : Thread nD τ) (st1_16 t) fullShare ((updDat V c).after 16 t))

set_option maxHeartbeats 1000000 in
/-- The body at any point: each input's staging buffer holds its window's block there (`updBefore_W`), so the body's triple
    applies at the blocks; the invariant and the debt pass through unread, and are the same at the next point. -/
theorem updBody (c : Dev nD) (t : Fin cfg1.N) :
    updPre V c t ⊢ wp frame (wpE (defs₀ (F := F)) Variants.none c none) Set.univ (bodyAt1 t) (fun _ => updPost V c t) := by
  unfold updPre updPost bodyAt1
  simp only [updBefore_0, updBefore_1, updBefore_2, updBefore_3, updBefore_4, updBefore_5, updBefore_6, updBefore_7, updBefore_8, updBefore_9, updBefore_10, updBefore_11, updBefore_12, updBefore_13, updBefore_14, updBefore_15]
  rw [show (updDat V c).Φ t.succ = (updDat V c).Φ t.castSucc from rfl,
    show (updDat V c).owesAt () t.succ = (updDat V c).owesAt () t.castSucc from rfl,
    updDat_after_0, updDat_after_1, updDat_after_2, updDat_after_3, updDat_after_4, updDat_after_5, updDat_after_6, updDat_after_7, updDat_after_8, updDat_after_9, updDat_after_10, updDat_after_11, updDat_after_12, updDat_after_13, updDat_after_14, updDat_after_15, updDat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (updKernel c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16))
    (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body obligation of the update's pipeline, at every point. -/
theorem updObligation (c : Dev nD) : BodyObligation (updDat (F := F) V c) (defs₀ (F := F)) Variants.none () Set.univ := fun t => by
  rw [bigSep_W1, bigSep_W1]
  exact updBody V c t

end Update

end Cert.KernelIdeal.Hand

end
-- ==== Proof.Vals.lean ====
/-
  What the TensorCore's unscoped buffers hold at the two region boundaries.

  At launch every buffer holds the launch memory. The encoder changes one buffer, the encoded features, to what its
  write-backs leave; the update then changes one other buffer, the result, to what ITS write-backs leave, reading the
  encoded features (through two windows) and eleven arguments but writing none of them. So every argument array holds,
  at the end, what it held at launch, and the result buffer holds the update pipeline's output array after its last
  point.
-/
import proofs.«168815_j88132728914046_1_alg».proof.Proof.EncodeBody
import proofs.«168815_j88132728914046_1_alg».proof.Proof.UpdateBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Vals

variable (m : (ℓ : Loc nD τ sig) → Buf (Elt F) ℓ)

/-- Core `c`'s buffers at launch: the encoder's entry contents. -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b

/-- At the encoder's exit: its arrays at what the pipeline leaves, every other buffer as entered. -/
def W1 (c : Dev nD) : Valuation τ sig (Elt F) :=
  Pipeline.withArrays spec0 c (W0 m c) fun w => (encDat (V0 m) c).arrAt w cfg0.N
theorem W1_arr (c : Dev nD) (w : Fin cfg0.W) :
    W1 m c (Proc.devRef .tc (Pipeline.arrRef spec0 w)) = (encDat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: the update's entry contents. -/
abbrev V1 : (c : Dev nD) → (b : Ref sig .tc) → Buf (Elt F) ((c : Thread nD τ).loc b) := fun c b => W1 m c b

theorem encExit_arr (c : Dev nD) (w : Fin cfg0.W) : (encDat (V0 m) c).arrAt w cfg0.N = V1 m c (Pipeline.arrRef spec0 w) :=
  (W1_arr m c w).symm
theorem encExit_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- The result array: what the update pipeline's write-backs leave in its output window's array. -/
def resultArr (c : Dev nD) : Buf (Elt F) ((c : Thread nD τ).loc main_v1) :=
  (updDat (V1 m) c).arrAt 16 cfg1.N

/-- At the update's exit: the result buffer at the result array, every other buffer as entered. -/
def W2 (c : Dev nD) : Valuation τ sig (Elt F) :=
  Function.update (W1 m c) (Proc.devRef .tc main_v1) (resultArr m c)
theorem W2_result (c : Dev nD) : W2 m c (Proc.devRef .tc main_v1) = resultArr m c := by
  unfold W2; exact Function.update_self _ _ _
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) _ _
/-- The same read at the TensorCore's references: the contents at the return. -/
abbrev V2 : (c : Dev nD) → (b : Ref sig .tc) → Buf (Elt F) ((c : Thread nD τ).loc b) := fun c b => W2 m c b

/-- `main_arg0` reaches the end as launched: the update region's only output is another buffer, and the encoder does not touch it. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := W1_of_ne m c main_arg0 (by decide)
    _ = m ((c : Thread nD τ).loc main_arg0) := rfl
/-- `main_arg1` reaches the end as launched: the update region's only output is another buffer, and the encoder does not touch it. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
/-- `main_arg2` reaches the end as launched: the update region's only output is another buffer, and the encoder reads it through an input window, which leaves its array as found. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 0).trans (((encDat (V0 m) c).arrAt_in 0 rfl _).trans (encDat_A (V0 m) c 0))
    _ = m ((c : Thread nD τ).loc main_arg2) := rfl
/-- `main_arg3` reaches the end as launched: the update region's only output is another buffer, and the encoder reads it through an input window, which leaves its array as found. -/
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 1).trans (((encDat (V0 m) c).arrAt_in 1 rfl _).trans (encDat_A (V0 m) c 1))
    _ = m ((c : Thread nD τ).loc main_arg3) := rfl
/-- `main_arg4` reaches the end as launched: the update region's only output is another buffer, and the encoder does not touch it. -/
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl
/-- `main_arg5` reaches the end as launched: the update region's only output is another buffer, and the encoder does not touch it. -/
theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl
/-- `main_arg6` reaches the end as launched: the update region's only output is another buffer, and the encoder does not touch it. -/
theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := W1_of_ne m c main_arg6 (by decide)
    _ = m ((c : Thread nD τ).loc main_arg6) := rfl
/-- `main_arg7` reaches the end as launched: the update region's only output is another buffer, and the encoder does not touch it. -/
theorem W2_main_arg7 (c : Dev nD) : W2 m c (Proc.devRef .tc main_arg7) = m ((c : Thread nD τ).loc main_arg7) :=
  calc W2 m c (Proc.devRef .tc main_arg7)
    _ = W1 m c (Proc.devRef .tc main_arg7) := W2_of_ne m c main_arg7 (by decide)
    _ = W0 m c (Proc.devRef .tc main_arg7) := W1_of_ne m c main_arg7 (by decide)
    _ = m ((c : Thread nD τ).loc main_arg7) := rfl
/-- `main_arg8` reaches the end as launched: the update region's only output is another buffer, and the encoder does not touch it. -/
theorem W2_main_arg8 (c : Dev nD) : W2 m c (Proc.devRef .tc main_arg8) = m ((c : Thread nD τ).loc main_arg8) :=
  calc W2 m c (Proc.devRef .tc main_arg8)
    _ = W1 m c (Proc.devRef .tc main_arg8) := W2_of_ne m c main_arg8 (by decide)
    _ = W0 m c (Proc.devRef .tc main_arg8) := W1_of_ne m c main_arg8 (by decide)
    _ = m ((c : Thread nD τ).loc main_arg8) := rfl
/-- `main_arg9` reaches the end as launched: the update region's only output is another buffer, and the encoder does not touch it. -/
theorem W2_main_arg9 (c : Dev nD) : W2 m c (Proc.devRef .tc main_arg9) = m ((c : Thread nD τ).loc main_arg9) :=
  calc W2 m c (Proc.devRef .tc main_arg9)
    _ = W1 m c (Proc.devRef .tc main_arg9) := W2_of_ne m c main_arg9 (by decide)
    _ = W0 m c (Proc.devRef .tc main_arg9) := W1_of_ne m c main_arg9 (by decide)
    _ = m ((c : Thread nD τ).loc main_arg9) := rfl
/-- `main_arg10` reaches the end as launched: the update region's only output is another buffer, and the encoder reads it through an input window, which leaves its array as found. -/
theorem W2_main_arg10 (c : Dev nD) : W2 m c (Proc.devRef .tc main_arg10) = m ((c : Thread nD τ).loc main_arg10) :=
  calc W2 m c (Proc.devRef .tc main_arg10)
    _ = W1 m c (Proc.devRef .tc main_arg10) := W2_of_ne m c main_arg10 (by decide)
    _ = W0 m c (Proc.devRef .tc main_arg10) := (W1_arr m c 2).trans (((encDat (V0 m) c).arrAt_in 2 rfl _).trans (encDat_A (V0 m) c 2))
    _ = m ((c : Thread nD τ).loc main_arg10) := rfl
/-- `main_arg11` reaches the end as launched: the update region's only output is another buffer, and the encoder does not touch it. -/
theorem W2_main_arg11 (c : Dev nD) : W2 m c (Proc.devRef .tc main_arg11) = m ((c : Thread nD τ).loc main_arg11) :=
  calc W2 m c (Proc.devRef .tc main_arg11)
    _ = W1 m c (Proc.devRef .tc main_arg11) := W2_of_ne m c main_arg11 (by decide)
    _ = W0 m c (Proc.devRef .tc main_arg11) := W1_of_ne m c main_arg11 (by decide)
    _ = m ((c : Thread nD τ).loc main_arg11) := rfl
/-- `main_arg12` reaches the end as launched: the update region's only output is another buffer, and the encoder does not touch it. -/
theorem W2_main_arg12 (c : Dev nD) : W2 m c (Proc.devRef .tc main_arg12) = m ((c : Thread nD τ).loc main_arg12) :=
  calc W2 m c (Proc.devRef .tc main_arg12)
    _ = W1 m c (Proc.devRef .tc main_arg12) := W2_of_ne m c main_arg12 (by decide)
    _ = W0 m c (Proc.devRef .tc main_arg12) := W1_of_ne m c main_arg12 (by decide)
    _ = m ((c : Thread nD τ).loc main_arg12) := rfl
/-- `main_arg13` reaches the end as launched: the update region's only output is another buffer, and the encoder does not touch it. -/
theorem W2_main_arg13 (c : Dev nD) : W2 m c (Proc.devRef .tc main_arg13) = m ((c : Thread nD τ).loc main_arg13) :=
  calc W2 m c (Proc.devRef .tc main_arg13)
    _ = W1 m c (Proc.devRef .tc main_arg13) := W2_of_ne m c main_arg13 (by decide)
    _ = W0 m c (Proc.devRef .tc main_arg13) := W1_of_ne m c main_arg13 (by decide)
    _ = m ((c : Thread nD τ).loc main_arg13) := rfl
/-- `main_arg14` reaches the end as launched: the update region's only output is another buffer, and the encoder does not touch it. -/
theorem W2_main_arg14 (c : Dev nD) : W2 m c (Proc.devRef .tc main_arg14) = m ((c : Thread nD τ).loc main_arg14) :=
  calc W2 m c (Proc.devRef .tc main_arg14)
    _ = W1 m c (Proc.devRef .tc main_arg14) := W2_of_ne m c main_arg14 (by decide)
    _ = W0 m c (Proc.devRef .tc main_arg14) := W1_of_ne m c main_arg14 (by decide)
    _ = m ((c : Thread nD τ).loc main_arg14) := rfl
/-- `main_arg15` reaches the end as launched: the update region's only output is another buffer, and the encoder does not touch it. -/
theorem W2_main_arg15 (c : Dev nD) : W2 m c (Proc.devRef .tc main_arg15) = m ((c : Thread nD τ).loc main_arg15) :=
  calc W2 m c (Proc.devRef .tc main_arg15)
    _ = W1 m c (Proc.devRef .tc main_arg15) := W2_of_ne m c main_arg15 (by decide)
    _ = W0 m c (Proc.devRef .tc main_arg15) := W1_of_ne m c main_arg15 (by decide)
    _ = m ((c : Thread nD τ).loc main_arg15) := rfl
/-- `main_arg16` reaches the end as launched: the update region's only output is another buffer, and the encoder does not touch it. -/
theorem W2_main_arg16 (c : Dev nD) : W2 m c (Proc.devRef .tc main_arg16) = m ((c : Thread nD τ).loc main_arg16) :=
  calc W2 m c (Proc.devRef .tc main_arg16)
    _ = W1 m c (Proc.devRef .tc main_arg16) := W2_of_ne m c main_arg16 (by decide)
    _ = W0 m c (Proc.devRef .tc main_arg16) := W1_of_ne m c main_arg16 (by decide)
    _ = m ((c : Thread nD τ).loc main_arg16) := rfl

end Vals

end Cert.KernelIdeal.Hand

end
-- ==== Proof.Family.lean ====
/-
  What the two regions share: every pipeline's proof data at its own region's entry contents, and the part of a
  TensorCore's state that no region reads — its generator register at some state and the fact that it owes no other
  core anything. Neither kernel signals or waits on a semaphore of its own, so no level is ever assigned.
-/
import proofs.«168815_j88132728914046_1_alg».proof.Proof.Vals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Family

variable (m : (ℓ : Loc nD τ sig) → Buf (Elt F) ℓ)

/-- No pipeline prefetches a table. -/
abbrev adm : (p : Fin 2) → (pcfgs (F := F) p).Adm := fun p => (cfgs p).toPCfg_adm

/-- Every pipeline's proof data, the encoder's at the launch contents and the update's at the encoder's exit. -/
def pdats : (p : Fin 2) → (c : Dev nD) → Dat τ (Elt F) Unit ℕ (Pipeline.UD sig nD τ) ℕ (Pipeline.pin (pcfgs (F := F)) adm p) c
  | ⟨0, _⟩ => fun c => encDat (V0 m) c
  | ⟨1, _⟩ => fun c => updDat (V1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through both regions: the generator register at some state, and nothing owed. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Family

end Cert.KernelIdeal.Hand

end
-- ==== Proof.Reg0.lean ====
/-
  The encoder region as a segment of the program's run.

  It is entered with every unscoped buffer at the launch contents and left with the encoded-features buffer at what
  the pipeline's write-backs leave and every other buffer as it was. Its four arrays are distinct buffers, so they
  are split out of the unscoped buffers whole, handed to the pipeline, and joined back at the exit; the generator
  register goes into the pipeline's invariant and comes back; the kernel has no semaphore of its own and owes nothing.
-/
import proofs.«168815_j88132728914046_1_alg».proof.Proof.Family

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Reg0

variable (m : (ℓ : Loc nD τ sig) → Buf (Elt F) ℓ)

set_option backward.isDefEq.respectTransparency.types false in
/-- The encoder region over the thread state "every unscoped buffer at the boundary's contents, the generator
    register at some state, nothing owed". -/
def encReg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (encObligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (encExit_arr m c) (encExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Reg0

end Cert.KernelIdeal.Hand

end
-- ==== Proof.Reg1.lean ====
/-
  The update region as a segment of the program's run.

  It is entered with every unscoped buffer at the encoder's exit contents and left with the result buffer at what
  the pipeline's write-backs leave and every other buffer as it was. Seventeen windows stand on sixteen buffers: the
  encoded features are read through two windows, the whole batch and the row tile. A core holds that buffer once, at
  the full share; the pipeline wants each window's array at the share its proof data names. So at the entry the full
  share of the encoded features is dealt in halves, the left to the whole-batch window and the right to the tile
  window, and every other buffer goes whole to its one window; at the exit the two halves, still at the contents they
  were dealt at because both windows only read, are joined to the full share again. The rest is as for any region:
  the generator register into the pipeline's invariant and back, no semaphore of the kernel's own, nothing owed.
-/
import proofs.«168815_j88132728914046_1_alg».proof.Proof.Family

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Reg1

variable (V : (c : Dev nD) → (b : Ref sig .tc) → Buf (Elt F) ((c : Thread nD τ).loc b))

/-- The update pipeline's arrays, window by window, each at the share the proof data holds of it. -/
theorem updArrays_eq (c : Dev nD) (G : (w : Fin cfg1.W) → Buf (Elt F) ((cfg1.win w).arr.view.loc (c.tc : Thread nD τ))) :
    ((updDat V c).arrays G : sProp 𝕄)
      = bigSep Finset.univ fun w : Fin cfg1.W => (((c.tc : Thread nD τ).loc (Pipeline.arrRef spec1 w)) ↦{(updDat V c).share w} G w : sProp 𝕄) := by
  unfold Dat.arrays
  exact bigSep_congr fun w _ => by rw [(arr_whole1 w).set_eq_univ]

theorem updShare0 (c : Dev nD) : (updDat V c).share 0 = fullShare := rfl
theorem updShare1 (c : Dev nD) : (updDat V c).share 1 = fullShare.left := rfl
theorem updShare2 (c : Dev nD) : (updDat V c).share 2 = fullShare.right := rfl
theorem updShare3 (c : Dev nD) : (updDat V c).share 3 = fullShare := rfl
theorem updShare4 (c : Dev nD) : (updDat V c).share 4 = fullShare := rfl
theorem updShare5 (c : Dev nD) : (updDat V c).share 5 = fullShare := rfl
theorem updShare6 (c : Dev nD) : (updDat V c).share 6 = fullShare := rfl
theorem updShare7 (c : Dev nD) : (updDat V c).share 7 = fullShare := rfl
theorem updShare8 (c : Dev nD) : (updDat V c).share 8 = fullShare := rfl
theorem updShare9 (c : Dev nD) : (updDat V c).share 9 = fullShare := rfl
theorem updShare10 (c : Dev nD) : (updDat V c).share 10 = fullShare := rfl
theorem updShare11 (c : Dev nD) : (updDat V c).share 11 = fullShare := rfl
theorem updShare12 (c : Dev nD) : (updDat V c).share 12 = fullShare := rfl
theorem updShare13 (c : Dev nD) : (updDat V c).share 13 = fullShare := rfl
theorem updShare14 (c : Dev nD) : (updDat V c).share 14 = fullShare := rfl
theorem updShare15 (c : Dev nD) : (updDat V c).share 15 = fullShare := rfl
theorem updShare16 (c : Dev nD) : (updDat V c).share 16 = fullShare := rfl

/-- The distinct buffers behind the update's seventeen windows: sixteen, the encoded features counted once. -/
theorem arrBufs1_eq (c : Dev nD) (W : (b : Ref sig .tc) → Buf (Elt F) ((c : Thread nD τ).loc b)) :
    (Pipeline.arrBufs (Ix := Unit) (Name := ℕ) (U := Pipeline.UD sig nD τ) (Lvl := ℕ) spec1 c W : sProp 𝕄)
      = iprop((((c : Thread nD τ).loc main_arg1) ↦{fullShare} W main_arg1) ∗ (((c : Thread nD τ).loc main_v0) ↦{fullShare} W main_v0) ∗ (((c : Thread nD τ).loc main_arg0) ↦{fullShare} W main_arg0) ∗ (((c : Thread nD τ).loc main_arg4) ↦{fullShare} W main_arg4) ∗ (((c : Thread nD τ).loc main_arg5) ↦{fullShare} W main_arg5) ∗ (((c : Thread nD τ).loc main_arg6) ↦{fullShare} W main_arg6) ∗ (((c : Thread nD τ).loc main_arg7) ↦{fullShare} W main_arg7) ∗ (((c : Thread nD τ).loc main_arg8) ↦{fullShare} W main_arg8) ∗ (((c : Thread nD τ).loc main_arg9) ↦{fullShare} W main_arg9) ∗ (((c : Thread nD τ).loc main_arg11) ↦{fullShare} W main_arg11) ∗ (((c : Thread nD τ).loc main_arg12) ↦{fullShare} W main_arg12) ∗ (((c : Thread nD τ).loc main_arg13) ↦{fullShare} W main_arg13) ∗ (((c : Thread nD τ).loc main_arg14) ↦{fullShare} W main_arg14) ∗ (((c : Thread nD τ).loc main_arg15) ↦{fullShare} W main_arg15) ∗ (((c : Thread nD τ).loc main_arg16) ↦{fullShare} W main_arg16) ∗ (((c : Thread nD τ).loc main_v1) ↦{fullShare} W main_v1)) := by
  unfold Pipeline.arrBufs
  exact bigSep_eq_bigSepL_of_eq [main_arg1, main_v0, main_arg0, main_arg4, main_arg5, main_arg6, main_arg7, main_arg8, main_arg9, main_arg11, main_arg12, main_arg13, main_arg14, main_arg15, main_arg16, main_v1] (by decide) (by decide) _

local instance : IsOp fullShare fullShare.left fullShare.right := IsOp.posShare_halves fullShare

set_option maxHeartbeats 2000000 in
/-- ENTRY. The sixteen buffers behind the update's windows, each whole at contents `W`, are the pipeline's arrays at
    any contents `G` read off `W`: fifteen windows take their buffer whole; the encoded features' full share is dealt
    in halves to the two windows that read that array. -/
theorem updArrays_of_bufs (c : Dev nD) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    (Pipeline.arrBufs (Ix := Unit) (Name := ℕ) (U := Pipeline.UD sig nD τ) (Lvl := ℕ) spec1 c W : sProp 𝕄) ⊢ (updDat V c).arrays G := by
  have h0 : G 0 = W main_arg1 := hG 0
  have h1 : G 1 = W main_v0 := hG 1
  have h2 : G 2 = W main_v0 := hG 2
  have h3 : G 3 = W main_arg0 := hG 3
  have h4 : G 4 = W main_arg4 := hG 4
  have h5 : G 5 = W main_arg5 := hG 5
  have h6 : G 6 = W main_arg6 := hG 6
  have h7 : G 7 = W main_arg7 := hG 7
  have h8 : G 8 = W main_arg8 := hG 8
  have h9 : G 9 = W main_arg9 := hG 9
  have h10 : G 10 = W main_arg11 := hG 10
  have h11 : G 11 = W main_arg12 := hG 11
  have h12 : G 12 = W main_arg13 := hG 12
  have h13 : G 13 = W main_arg14 := hG 13
  have h14 : G 14 = W main_arg15 := hG 14
  have h15 : G 15 = W main_arg16 := hG 15
  have h16 : G 16 = W main_v1 := hG 16
  rw [arrBufs1_eq, updArrays_eq, bigSep_W1]
  simp only [updShare0 V c, updShare1 V c, updShare2 V c, updShare3 V c, updShare4 V c, updShare5 V c, updShare6 V c, updShare7 V c, updShare8 V c, updShare9 V c, updShare10 V c, updShare11 V c, updShare12 V c, updShare13 V c, updShare14 V c, updShare15 V c, updShare16 V c]
  rw [h0, h1, h2, h3, h4, h5, h6, h7, h8, h9, h10, h11, h12, h13, h14, h15, h16]
  iintro ⟨Ha1, Hv0, Ha0, Ha4, Ha5, Ha6, Ha7, Ha8, Ha9, Ha11, Ha12, Ha13, Ha14, Ha15, Ha16, Hv1⟩
  icases Hv0 with ⟨Hl, Hr⟩
  isplitl [Ha1]; · iexact Ha1
  isplitl [Hl]; · iexact Hl
  isplitl [Hr]; · iexact Hr
  isplitl [Ha0]; · iexact Ha0
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha11]; · iexact Ha11
  isplitl [Ha12]; · iexact Ha12
  isplitl [Ha13]; · iexact Ha13
  isplitl [Ha14]; · iexact Ha14
  isplitl [Ha15]; · iexact Ha15
  isplitl [Ha16]; · iexact Ha16
  iexact Hv1

set_option maxHeartbeats 2000000 in
/-- EXIT. The pipeline's arrays at contents `G` read off `W` are the sixteen buffers whole at `W`: the two halves of
    the encoded features' share, held at the same contents, are the full share again. -/
theorem bufs_of_updArrays (c : Dev nD) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    ((updDat V c).arrays G : sProp 𝕄) ⊢ Pipeline.arrBufs (Ix := Unit) (Name := ℕ) (U := Pipeline.UD sig nD τ) (Lvl := ℕ) spec1 c W := by
  have h0 : G 0 = W main_arg1 := hG 0
  have h1 : G 1 = W main_v0 := hG 1
  have h2 : G 2 = W main_v0 := hG 2
  have h3 : G 3 = W main_arg0 := hG 3
  have h4 : G 4 = W main_arg4 := hG 4
  have h5 : G 5 = W main_arg5 := hG 5
  have h6 : G 6 = W main_arg6 := hG 6
  have h7 : G 7 = W main_arg7 := hG 7
  have h8 : G 8 = W main_arg8 := hG 8
  have h9 : G 9 = W main_arg9 := hG 9
  have h10 : G 10 = W main_arg11 := hG 10
  have h11 : G 11 = W main_arg12 := hG 11
  have h12 : G 12 = W main_arg13 := hG 12
  have h13 : G 13 = W main_arg14 := hG 13
  have h14 : G 14 = W main_arg15 := hG 14
  have h15 : G 15 = W main_arg16 := hG 15
  have h16 : G 16 = W main_v1 := hG 16
  rw [arrBufs1_eq, updArrays_eq, bigSep_W1]
  simp only [updShare0 V c, updShare1 V c, updShare2 V c, updShare3 V c, updShare4 V c, updShare5 V c, updShare6 V c, updShare7 V c, updShare8 V c, updShare9 V c, updShare10 V c, updShare11 V c, updShare12 V c, updShare13 V c, updShare14 V c, updShare15 V c, updShare16 V c]
  rw [h0, h1, h2, h3, h4, h5, h6, h7, h8, h9, h10, h11, h12, h13, h14, h15, h16]
  iintro ⟨Ha1, Hl, Hr, Ha0, Ha4, Ha5, Ha6, Ha7, Ha8, Ha9, Ha11, Ha12, Ha13, Ha14, Ha15, Ha16, Hv1⟩
  isplitl [Ha1]; · iexact Ha1
  isplitl [Hl Hr]
  · isplitl [Hl]; · iexact Hl
    iexact Hr
  isplitl [Ha0]; · iexact Ha0
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha11]; · iexact Ha11
  isplitl [Ha12]; · iexact Ha12
  isplitl [Ha13]; · iexact Ha13
  isplitl [Ha14]; · iexact Ha14
  isplitl [Ha15]; · iexact Ha15
  isplitl [Ha16]; · iexact Ha16
  iexact Hv1

variable (m : (ℓ : Loc nD τ sig) → Buf (Elt F) ℓ)

set_option maxHeartbeats 2000000 in
/-- At the update's exit every window's array holds what the exit contents say: an input window's array is as the
    region found it, and no input is the result buffer; the output window's array is the result array. -/
theorem updExit_arr (c : Dev nD) : ∀ w : Fin cfg1.W, (updDat (V1 m) c).arrAt w cfg1.N = V2 m c (Pipeline.arrRef spec1 w)
  | ⟨0, _⟩ => (((updDat (V1 m) c).arrAt_in 0 rfl _).trans (updDat_A (V1 m) c 0)).trans (W2_of_ne m c main_arg1 (by decide)).symm
  | ⟨1, _⟩ => (((updDat (V1 m) c).arrAt_in 1 rfl _).trans (updDat_A (V1 m) c 1)).trans (W2_of_ne m c main_v0 (by decide)).symm
  | ⟨2, _⟩ => (((updDat (V1 m) c).arrAt_in 2 rfl _).trans (updDat_A (V1 m) c 2)).trans (W2_of_ne m c main_v0 (by decide)).symm
  | ⟨3, _⟩ => (((updDat (V1 m) c).arrAt_in 3 rfl _).trans (updDat_A (V1 m) c 3)).trans (W2_of_ne m c main_arg0 (by decide)).symm
  | ⟨4, _⟩ => (((updDat (V1 m) c).arrAt_in 4 rfl _).trans (updDat_A (V1 m) c 4)).trans (W2_of_ne m c main_arg4 (by decide)).symm
  | ⟨5, _⟩ => (((updDat (V1 m) c).arrAt_in 5 rfl _).trans (updDat_A (V1 m) c 5)).trans (W2_of_ne m c main_arg5 (by decide)).symm
  | ⟨6, _⟩ => (((updDat (V1 m) c).arrAt_in 6 rfl _).trans (updDat_A (V1 m) c 6)).trans (W2_of_ne m c main_arg6 (by decide)).symm
  | ⟨7, _⟩ => (((updDat (V1 m) c).arrAt_in 7 rfl _).trans (updDat_A (V1 m) c 7)).trans (W2_of_ne m c main_arg7 (by decide)).symm
  | ⟨8, _⟩ => (((updDat (V1 m) c).arrAt_in 8 rfl _).trans (updDat_A (V1 m) c 8)).trans (W2_of_ne m c main_arg8 (by decide)).symm
  | ⟨9, _⟩ => (((updDat (V1 m) c).arrAt_in 9 rfl _).trans (updDat_A (V1 m) c 9)).trans (W2_of_ne m c main_arg9 (by decide)).symm
  | ⟨10, _⟩ => (((updDat (V1 m) c).arrAt_in 10 rfl _).trans (updDat_A (V1 m) c 10)).trans (W2_of_ne m c main_arg11 (by decide)).symm
  | ⟨11, _⟩ => (((updDat (V1 m) c).arrAt_in 11 rfl _).trans (updDat_A (V1 m) c 11)).trans (W2_of_ne m c main_arg12 (by decide)).symm
  | ⟨12, _⟩ => (((updDat (V1 m) c).arrAt_in 12 rfl _).trans (updDat_A (V1 m) c 12)).trans (W2_of_ne m c main_arg13 (by decide)).symm
  | ⟨13, _⟩ => (((updDat (V1 m) c).arrAt_in 13 rfl _).trans (updDat_A (V1 m) c 13)).trans (W2_of_ne m c main_arg14 (by decide)).symm
  | ⟨14, _⟩ => (((updDat (V1 m) c).arrAt_in 14 rfl _).trans (updDat_A (V1 m) c 14)).trans (W2_of_ne m c main_arg15 (by decide)).symm
  | ⟨15, _⟩ => (((updDat (V1 m) c).arrAt_in 15 rfl _).trans (updDat_A (V1 m) c 15)).trans (W2_of_ne m c main_arg16 (by decide)).symm
  | ⟨16, _⟩ => (W2_result m c).symm
  | ⟨_ + 17, h⟩ => absurd h (Nat.not_lt.2 (Nat.le_add_left _ _))

set_option maxHeartbeats 2000000 in
/-- Off the windows' arrays the exit contents are the entry contents: the one buffer that changes is an array. -/
theorem updExit_rest (c : Dev nD) : ∀ b, b ∉ Finset.univ.image (Pipeline.arrRef spec1) → V2 m c b = V1 m c b :=
  fun b hb => W2_of_ne m c b fun e => hb (Finset.mem_image.mpr ⟨16, Finset.mem_univ _, e.symm⟩)

set_option maxHeartbeats 2000000 in
set_option backward.isDefEq.respectTransparency.types false in
/-- The update region over the thread state "every unscoped buffer at the boundary's contents, the generator register
    at some state, nothing owed". -/
def updReg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (updObligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0) ∗ Pipeline.unscopedRest spec1 c (V1 m c)) := by
      rw [Pipeline.unscopedBufs_split₀ (Pipeline.pin (pcfgs (F := F)) adm) 1 winFacts₀1.arr_unscoped c (V1 m c)]
      exact sep_mono (updArrays_of_bufs (V1 m) c (V1 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (unscopedBufs c (V2 m c) : sProp 𝕄) := by
      rw [Pipeline.unscopedBufs_split₀ (Pipeline.pin (pcfgs (F := F)) adm) 1 winFacts₀1.arr_unscoped c (V2 m c)]
      refine sep_mono (bufs_of_updArrays (V1 m) c (V2 m c) _ (updExit_arr m c)) (Entails.of_eq ?_)
      unfold Pipeline.unscopedRest
      exact bigSep_congr fun b hb => by rw [updExit_rest m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Reg1

end Cert.KernelIdeal.Hand

end
-- ==== Proof.Run.lean ====
/-
  The program's run: the encoder region, then the update region.

  From any launch memory with every semaphore counter at zero, every weakly fair execution terminates, nothing
  faults, and at the end every unscoped buffer holds what the two regions' boundaries say: each argument array what
  it held at launch, the result buffer the update pipeline's output array after its last point. The frame claim is
  that statement with the result dropped.
-/
import proofs.«168815_j88132728914046_1_alg».proof.Proof.Reg0
import proofs.«168815_j88132728914046_1_alg».proof.Proof.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Run

variable (m : (ℓ : Loc nD τ sig) → Buf (Elt F) ℓ) (ρ : Dev nD → PrngReg)

/-- The program's two segments, in order. -/
abbrev segs : List (Pipeline.Seg (pcfgs (F := F)) adm (pdats m) () defs₀ 𝒱₀ L lv) :=
  [ .region (encReg m),
    .region (updReg m) ]

/-- The program is the run of its segments. -/
theorem main_run (c : Dev nD) : main (F := F) c = Pipeline.Seg.run (segs m) := (main_chain c).trans (by chain_rfl)

/-- The last thread state without the debt: every unscoped buffer at the exit contents, the generator register at
    some state. -/
abbrev Tₙ (c : Dev nD) : sProp 𝕄 := iprop(StableHlo.held (c : Thread nD τ) (Pipeline.ucRefs τ sig) (W2 m c) ∗ ∃ r, prngReg c r)

set_option maxHeartbeats 2000000 in
set_option backward.isDefEq.respectTransparency.types false in
/-- THE RUN, with the result named: the result buffer ends at the update pipeline's output array, every argument as
    launched. -/
theorem run_result : θ_run defs (onTc (τ := τ) (main (F := F))) ⟨m, fun _ => 0, ρ⟩ (fun r => ∀ c : Dev nD,
      r.2.mem ((c.tc : Thread nD τ).loc main_v1) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c => by
      show iprop(StableHlo.held (c : Thread nD τ) (Pipeline.ucRefs τ sig) (W2 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_result m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c),
       (h c _ (mem_uc main_arg5 (by decide))).trans (W2_main_arg5 m c),
       (h c _ (mem_uc main_arg6 (by decide))).trans (W2_main_arg6 m c),
       (h c _ (mem_uc main_arg7 (by decide))).trans (W2_main_arg7 m c),
       (h c _ (mem_uc main_arg8 (by decide))).trans (W2_main_arg8 m c),
       (h c _ (mem_uc main_arg9 (by decide))).trans (W2_main_arg9 m c),
       (h c _ (mem_uc main_arg10 (by decide))).trans (W2_main_arg10 m c),
       (h c _ (mem_uc main_arg11 (by decide))).trans (W2_main_arg11 m c),
       (h c _ (mem_uc main_arg12 (by decide))).trans (W2_main_arg12 m c),
       (h c _ (mem_uc main_arg13 (by decide))).trans (W2_main_arg13 m c),
       (h c _ (mem_uc main_arg14 (by decide))).trans (W2_main_arg14 m c),
       (h c _ (mem_uc main_arg15 (by decide))).trans (W2_main_arg15 m c),
       (h c _ (mem_uc main_arg16 (by decide))).trans (W2_main_arg16 m c)⟩)

/-- THE FRAME: every argument array ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_result m ρ)

end Run

end Cert.KernelIdeal.Hand

end
-- ==== Proof.RefRun.lean ====
/-
  The reference program read back: its run (every weakly fair execution ends with the result buffer at the composed
  term of the host operations applied to the argument arrays, the arguments unchanged) and that term read one
  operation at a time at an index. Both are imported here so that the modules that compare the reference with the
  kernel have one place to take them from.
-/
import proofs.«168815_j88132728914046_1_alg».proof.Proof.Gen.ReferenceIdeal.Run
import proofs.«168815_j88132728914046_1_alg».proof.Proof.Gen.ReferenceIdeal.Read
-- ==== Proof.Spec.lean ====
/-
  The graph layer as a function of its argument arrays, entry by entry, on the extended reals.

  Nodes carry 128 features; `enc` maps them to 64 by one affine map, the same for every node:
      h[b, n, e] = (Σ_d x[b, n, d] · We[d, e]) + be[e].
  The layer then aggregates over a node's neighbourhood, a[b, n, d] = Σ_m adj[b, n, m] · h[b, m, d], and updates h
  by a gated rule. With, for two 64-vectors a and x, two 64×64 matrices and two 64-vectors of biases,
      gate a x W0 W1 b0 b1 e = ((Σ_d a[d] · W0[d, e] + b0[e]) + Σ_d x[d] · W1[d, e]) + b1[e],
  the update gate is z = logistic (gate a h …), the reset gate r = logistic (gate a h …), the candidate is
  c = gate a (r · h) …, masked and clipped below at zero, and the result is
      out = max (mask · c) 0 · z + h · (1 − z).
  Sums are in the order written; nothing here is rearranged, so no law of the extended reals is needed to compare
  two programs that both compute these terms. The constants one and zero are kept as the 32-bit words both programs
  print.
-/
import Idealize.ShloMosaic.PureOps.Ideal
import Idealize.ShloMosaic.Lib.ValueIdx

noncomputable section

namespace Cert.GraphLayer

open Idealize.ShloMosaic Idealize.ShloMosaic.ValueIdx

/-- Node features: batch × nodes × 128. -/
abbrev SX : Shape := ⟨3, ![4, 4096, 128]⟩
/-- Encoded features, and the result: batch × nodes × 64. -/
abbrev SH : Shape := ⟨3, ![4, 4096, 64]⟩
/-- Adjacency: batch × nodes × nodes. -/
abbrev SA : Shape := ⟨3, ![4, 4096, 4096]⟩
/-- Node mask: batch × nodes × 1. -/
abbrev SM : Shape := ⟨3, ![4, 4096, 1]⟩
/-- The encoder's matrix, 128 × 64; a gate's matrix, 64 × 64; a bias, 64. -/
abbrev SWe : Shape := ⟨2, ![128, 64]⟩
abbrev SW : Shape := ⟨2, ![64, 64]⟩
abbrev SB : Shape := ⟨1, ![64]⟩

/-- One and zero, as the words the programs print. -/
abbrev one : EReal := Ideal.ofBits .f32 0x3F800000#32
abbrev zero : EReal := Ideal.ofBits .f32 0x00000000#32

/-- The encoder at node (b, n), output feature e. -/
def encAt (x : FVec Ideal SX .f32) (We : FVec Ideal SWe .f32) (be : FVec Ideal SB .f32)
    (b : Fin 4) (n : Fin 4096) (e : Fin 64) : EReal :=
  (∑ d : Fin 128, x (ix3 b n d) * We (ix2 d e)) + be (ix1 e)

/-- The encoded features as an array. -/
def enc (x : FVec Ideal SX .f32) (We : FVec Ideal SWe .f32) (be : FVec Ideal SB .f32) : FVec Ideal SH .f32 :=
  fun i => encAt x We be (i 0) (i 1) (i 2)

/-- The six matrices and six biases of the gated update. -/
structure Gates where
  Wz0 : FVec Ideal SW .f32
  Wz1 : FVec Ideal SW .f32
  Wr0 : FVec Ideal SW .f32
  Wr1 : FVec Ideal SW .f32
  Wh0 : FVec Ideal SW .f32
  Wh1 : FVec Ideal SW .f32
  bz0 : FVec Ideal SB .f32
  bz1 : FVec Ideal SB .f32
  br0 : FVec Ideal SB .f32
  br1 : FVec Ideal SB .f32
  bh0 : FVec Ideal SB .f32
  bh1 : FVec Ideal SB .f32

/-- The neighbourhood aggregate of node (b, n), feature d. -/
def aggAt (adj : FVec Ideal SA .f32) (h : FVec Ideal SH .f32) (b : Fin 4) (n : Fin 4096) (d : Fin 64) : EReal :=
  ∑ m : Fin 4096, adj (ix3 b n m) * h (ix3 b m d)

/-- A 64-vector times a 64 × 64 matrix, at column e. -/
def lin (v : Fin 64 → EReal) (W : FVec Ideal SW .f32) (e : Fin 64) : EReal :=
  ∑ d : Fin 64, v d * W (ix2 d e)

/-- A gate's pre-activation: the aggregate's affine image plus the node's own, in the order the terms are added. -/
def gate (a x : Fin 64 → EReal) (W0 W1 : FVec Ideal SW .f32) (b0 b1 : FVec Ideal SB .f32) (e : Fin 64) : EReal :=
  ((lin a W0 e + b0 (ix1 e)) + lin x W1 e) + b1 (ix1 e)

/-- The update gate. -/
def zAt (adj : FVec Ideal SA .f32) (h : FVec Ideal SH .f32) (g : Gates) (b : Fin 4) (n : Fin 4096) (e : Fin 64) : EReal :=
  Ideal.logistic (gate (aggAt adj h b n) (fun d => h (ix3 b n d)) g.Wz0 g.Wz1 g.bz0 g.bz1 e)

/-- The reset gate. -/
def rAt (adj : FVec Ideal SA .f32) (h : FVec Ideal SH .f32) (g : Gates) (b : Fin 4) (n : Fin 4096) (e : Fin 64) : EReal :=
  Ideal.logistic (gate (aggAt adj h b n) (fun d => h (ix3 b n d)) g.Wr0 g.Wr1 g.br0 g.br1 e)

/-- The candidate, before masking. -/
def candAt (adj : FVec Ideal SA .f32) (h : FVec Ideal SH .f32) (g : Gates) (b : Fin 4) (n : Fin 4096) (e : Fin 64) : EReal :=
  gate (aggAt adj h b n) (fun d => rAt adj h g b n d * h (ix3 b n d)) g.Wh0 g.Wh1 g.bh0 g.bh1 e

/-- The layer's result at node (b, n), feature e. -/
def outAt (adj : FVec Ideal SA .f32) (h : FVec Ideal SH .f32) (mask : FVec Ideal SM .f32) (g : Gates)
    (b : Fin 4) (n : Fin 4096) (e : Fin 64) : EReal :=
  max (mask (ix3 b n (0 : Fin 1)) * candAt adj h g b n e) zero * zAt adj h g b n e
    + h (ix3 b n e) * (one - zAt adj h g b n e)

/-- The layer's result as an array, from already-encoded features. -/
def layer (adj : FVec Ideal SA .f32) (h : FVec Ideal SH .f32) (mask : FVec Ideal SM .f32) (g : Gates) : FVec Ideal SH .f32 :=
  fun i => outAt adj h mask g (i 0) (i 1) (i 2)

/-- The whole computation: encode, then one gated update. -/
def graphLayer (mask : FVec Ideal SM .f32) (adj : FVec Ideal SA .f32) (x : FVec Ideal SX .f32)
    (We : FVec Ideal SWe .f32) (be : FVec Ideal SB .f32) (g : Gates) : FVec Ideal SH .f32 :=
  layer adj (enc x We be) mask g

theorem enc_apply (x : FVec Ideal SX .f32) (We : FVec Ideal SWe .f32) (be : FVec Ideal SB .f32)
    (b : Fin 4) (n : Fin 4096) (e : Fin 64) : enc x We be (ix3 b n e) = encAt x We be b n e := rfl

theorem layer_apply (adj : FVec Ideal SA .f32) (h : FVec Ideal SH .f32) (mask : FVec Ideal SM .f32) (g : Gates)
    (b : Fin 4) (n : Fin 4096) (e : Fin 64) : layer adj h mask g (ix3 b n e) = outAt adj h mask g b n e := rfl

end Cert.GraphLayer

end
-- ==== Proof.RefValue.lean ====
/-
  The reference program computes the graph layer.

  Its last operation's value, read one host operation at a time, is at every index the term `graphLayer` spells:
  the three-dimensional contractions are plain sums over the contracted axis, the broadcasts of the biases and of
  the mask read their operand at the remaining coordinates, and the reference's `1 / (1 + exp (−t))` is the logistic
  function. The summands and the sums appear in the order `graphLayer` writes them, so the two sides are equal term
  by term; the one constant that has to be evaluated is the word of 1.0 under the logistic's quotient.
-/
import proofs.«168815_j88132728914046_1_alg».proof.Proof.RefRun
import proofs.«168815_j88132728914046_1_alg».proof.Proof.Spec

set_option maxRecDepth 16384

noncomputable section

namespace Cert.GraphLayer

open Idealize.ShloMosaic Idealize.ShloMosaic.TcCoe Idealize.ShloMosaic.ValueIdx Idealize.SL.Sem

open Cert.ReferenceIdeal.Read

/-! ## The index functions of the reference's contractions and broadcasts, at coordinates -/

private theorem lidx_v0 (b : Fin 4) (n : Fin 4096) (e : Fin 64) (k : Fin 128) : lidx_main_v0 (ix3 b n e) k = ix3 b n k :=
  funext fun a => Fin.ext (by match a with | ⟨0, _⟩ => rfl | ⟨1, _⟩ => rfl | ⟨2, _⟩ => rfl)
private theorem ridx_v0 (b : Fin 4) (n : Fin 4096) (e : Fin 64) (k : Fin 128) : ridx_main_v0 (ix3 b n e) k = ix2 k e :=
  funext fun a => Fin.ext (by match a with | ⟨0, _⟩ => rfl | ⟨1, _⟩ => rfl)
private theorem lidx_v4 (b : Fin 4) (n : Fin 4096) (d : Fin 64) (m : Fin 4096) : lidx_main_v4 (ix3 b n d) m = ix3 b n m :=
  funext fun a => Fin.ext (by match a with | ⟨0, _⟩ => rfl | ⟨1, _⟩ => rfl | ⟨2, _⟩ => rfl)
private theorem ridx_v4 (b : Fin 4) (n : Fin 4096) (d : Fin 64) (m : Fin 4096) : ridx_main_v4 (ix3 b n d) m = ix3 b m d :=
  funext fun a => Fin.ext (by match a with | ⟨0, _⟩ => rfl | ⟨1, _⟩ => rfl | ⟨2, _⟩ => rfl)
private theorem lidx_v5 (b : Fin 4) (n : Fin 4096) (e k : Fin 64) : lidx_main_v5 (ix3 b n e) k = ix3 b n k :=
  funext fun a => Fin.ext (by match a with | ⟨0, _⟩ => rfl | ⟨1, _⟩ => rfl | ⟨2, _⟩ => rfl)
private theorem ridx_v5 (b : Fin 4) (n : Fin 4096) (e k : Fin 64) : ridx_main_v5 (ix3 b n e) k = ix2 k e :=
  funext fun a => Fin.ext (by match a with | ⟨0, _⟩ => rfl | ⟨1, _⟩ => rfl)
private theorem lidx_v9 (b : Fin 4) (n : Fin 4096) (e k : Fin 64) : lidx_main_v9 (ix3 b n e) k = ix3 b n k :=
  funext fun a => Fin.ext (by match a with | ⟨0, _⟩ => rfl | ⟨1, _⟩ => rfl | ⟨2, _⟩ => rfl)
private theorem ridx_v9 (b : Fin 4) (n : Fin 4096) (e k : Fin 64) : ridx_main_v9 (ix3 b n e) k = ix2 k e :=
  funext fun a => Fin.ext (by match a with | ⟨0, _⟩ => rfl | ⟨1, _⟩ => rfl)
private theorem lidx_v20 (b : Fin 4) (n : Fin 4096) (e k : Fin 64) : lidx_main_v20 (ix3 b n e) k = ix3 b n k :=
  funext fun a => Fin.ext (by match a with | ⟨0, _⟩ => rfl | ⟨1, _⟩ => rfl | ⟨2, _⟩ => rfl)
private theorem ridx_v20 (b : Fin 4) (n : Fin 4096) (e k : Fin 64) : ridx_main_v20 (ix3 b n e) k = ix2 k e :=
  funext fun a => Fin.ext (by match a with | ⟨0, _⟩ => rfl | ⟨1, _⟩ => rfl)
private theorem lidx_v24 (b : Fin 4) (n : Fin 4096) (e k : Fin 64) : lidx_main_v24 (ix3 b n e) k = ix3 b n k :=
  funext fun a => Fin.ext (by match a with | ⟨0, _⟩ => rfl | ⟨1, _⟩ => rfl | ⟨2, _⟩ => rfl)
private theorem ridx_v24 (b : Fin 4) (n : Fin 4096) (e k : Fin 64) : ridx_main_v24 (ix3 b n e) k = ix2 k e :=
  funext fun a => Fin.ext (by match a with | ⟨0, _⟩ => rfl | ⟨1, _⟩ => rfl)
private theorem lidx_v35 (b : Fin 4) (n : Fin 4096) (e k : Fin 64) : lidx_main_v35 (ix3 b n e) k = ix3 b n k :=
  funext fun a => Fin.ext (by match a with | ⟨0, _⟩ => rfl | ⟨1, _⟩ => rfl | ⟨2, _⟩ => rfl)
private theorem ridx_v35 (b : Fin 4) (n : Fin 4096) (e k : Fin 64) : ridx_main_v35 (ix3 b n e) k = ix2 k e :=
  funext fun a => Fin.ext (by match a with | ⟨0, _⟩ => rfl | ⟨1, _⟩ => rfl)
private theorem lidx_v40 (b : Fin 4) (n : Fin 4096) (e k : Fin 64) : lidx_main_v40 (ix3 b n e) k = ix3 b n k :=
  funext fun a => Fin.ext (by match a with | ⟨0, _⟩ => rfl | ⟨1, _⟩ => rfl | ⟨2, _⟩ => rfl)
private theorem ridx_v40 (b : Fin 4) (n : Fin 4096) (e k : Fin 64) : ridx_main_v40 (ix3 b n e) k = ix2 k e :=
  funext fun a => Fin.ext (by match a with | ⟨0, _⟩ => rfl | ⟨1, _⟩ => rfl)
private theorem bidx_v2 (b : Fin 4) (n : Fin 4096) (e : Fin 64) : idx_main_v1 (idx_main_v2 (ix3 b n e)) = ix1 e :=
  funext fun a => Fin.ext (by match a with | ⟨0, _⟩ => rfl)
private theorem bidx_v7 (b : Fin 4) (n : Fin 4096) (e : Fin 64) : idx_main_v6 (idx_main_v7 (ix3 b n e)) = ix1 e :=
  funext fun a => Fin.ext (by match a with | ⟨0, _⟩ => rfl)
private theorem bidx_v12 (b : Fin 4) (n : Fin 4096) (e : Fin 64) : idx_main_v11 (idx_main_v12 (ix3 b n e)) = ix1 e :=
  funext fun a => Fin.ext (by match a with | ⟨0, _⟩ => rfl)
private theorem bidx_v22 (b : Fin 4) (n : Fin 4096) (e : Fin 64) : idx_main_v21 (idx_main_v22 (ix3 b n e)) = ix1 e :=
  funext fun a => Fin.ext (by match a with | ⟨0, _⟩ => rfl)
private theorem bidx_v27 (b : Fin 4) (n : Fin 4096) (e : Fin 64) : idx_main_v26 (idx_main_v27 (ix3 b n e)) = ix1 e :=
  funext fun a => Fin.ext (by match a with | ⟨0, _⟩ => rfl)
private theorem bidx_v37 (b : Fin 4) (n : Fin 4096) (e : Fin 64) : idx_main_v36 (idx_main_v37 (ix3 b n e)) = ix1 e :=
  funext fun a => Fin.ext (by match a with | ⟨0, _⟩ => rfl)
private theorem bidx_v43 (b : Fin 4) (n : Fin 4096) (e : Fin 64) : idx_main_v42 (idx_main_v43 (ix3 b n e)) = ix1 e :=
  funext fun a => Fin.ext (by match a with | ⟨0, _⟩ => rfl)
private theorem midx_v45 (b : Fin 4) (n : Fin 4096) (e : Fin 64) : idx_main_v45 (ix3 b n e) = ix3 b n (0 : Fin 1) :=
  funext fun a => Fin.ext (by match a with | ⟨0, _⟩ => rfl | ⟨1, _⟩ => rfl | ⟨2, _⟩ => rfl)

/-- The word of 1.0 denotes the real 1. -/
private theorem one_eval : Ideal.ofBits .f32 0x3F800000#32 = (1 : EReal) := by
  simp [Ideal.ofBits, Ideal.ieee, -EReal.coe_mul]; norm_num

/-! ## The arrays the reference names and reuses, at coordinates -/

section
variable (x0 : FVec Ideal SM .f32) (x1 : FVec Ideal SA .f32) (x2 : FVec Ideal SX .f32) (x3 : FVec Ideal SWe .f32)
  (x4 x5 x6 x7 x8 x9 : FVec Ideal SW .f32) (x10 x11 x12 x13 x14 x15 x16 : FVec Ideal SB .f32)

/-- The reference's first array, the product with the encoder's matrix plus its bias, is `enc`. -/
private theorem v3_eq : val_main_v3 (F := Ideal) x2 x3 x10 = enc x2 x3 x10 := by
  funext i
  obtain ⟨b, n, e, rfl⟩ : ∃ (b : Fin 4) (n : Fin 4096) (e : Fin 64), i = ix3 b n e := ⟨i 0, i 1, i 2, eq_ix3 i⟩
  rw [val_main_v3_apply, val_main_v0_apply, val_main_v2_apply, val_main_v1_apply]
  simp only [lidx_v0, ridx_v0, bidx_v2, Ideal.addf_def]
  rfl

/-- The batched contraction of the adjacency with the encoded features is the neighbourhood aggregate. -/
private theorem v4_at (b : Fin 4) (n : Fin 4096) (d : Fin 64) :
    val_main_v4 (F := Ideal) x1 x2 x3 x10 (ix3 b n d) = aggAt x1 (enc x2 x3 x10) b n d := by
  rw [val_main_v4_apply, v3_eq]
  simp only [lidx_v4, ridx_v4]
  rfl

/-- The update gate: the quotient `1 / (1 + exp (−t))` of the gate's pre-activation `t` is its logistic. -/
private theorem v19_at (b : Fin 4) (n : Fin 4096) (e : Fin 64) :
    val_main_v19 (F := Ideal) x1 x2 x3 x4 x5 x10 x11 x12 (ix3 b n e) = zAt x1 (enc x2 x3 x10) ⟨x4, x5, x6, x7, x8, x9, x11, x12, x13, x14, x15, x16⟩ b n e := by
  rw [val_main_v19_apply, val_main_v18_apply, val_main_cst_0_apply, val_main_v17_apply, val_main_v16_apply, val_main_cst_apply, val_main_v15_apply, val_main_v14_apply, val_main_v13_apply, val_main_v10_apply, val_main_v8_apply, val_main_v5_apply, val_main_v7_apply, val_main_v6_apply, val_main_v9_apply, val_main_v12_apply, val_main_v11_apply, v3_eq]
  simp only [lidx_v5, ridx_v5, lidx_v9, ridx_v9, bidx_v7, bidx_v12, v4_at, Ideal.addf_def, Ideal.hostDivf_def,
    Ideal.hostUnary_exp_def, Ideal.hostNegf_def, Ideal.negf_def, Ideal.ofBits_def, one_eval]
  rfl

/-- The reset gate, likewise. -/
private theorem v34_at (b : Fin 4) (n : Fin 4096) (e : Fin 64) :
    val_main_v34 (F := Ideal) x1 x2 x3 x6 x7 x10 x13 x14 (ix3 b n e) = rAt x1 (enc x2 x3 x10) ⟨x4, x5, x6, x7, x8, x9, x11, x12, x13, x14, x15, x16⟩ b n e := by
  rw [val_main_v34_apply, val_main_v33_apply, val_main_cst_2_apply, val_main_v32_apply, val_main_v31_apply, val_main_cst_1_apply, val_main_v30_apply, val_main_v29_apply, val_main_v28_apply, val_main_v25_apply, val_main_v23_apply, val_main_v20_apply, val_main_v22_apply, val_main_v21_apply, val_main_v24_apply, val_main_v27_apply, val_main_v26_apply, v3_eq]
  simp only [lidx_v20, ridx_v20, lidx_v24, ridx_v24, bidx_v22, bidx_v27, v4_at, Ideal.addf_def, Ideal.hostDivf_def,
    Ideal.hostUnary_exp_def, Ideal.hostNegf_def, Ideal.negf_def, Ideal.ofBits_def, one_eval]
  rfl

/-- The candidate: the aggregate's affine image plus that of the reset features `r · h`. -/
private theorem v44_at (b : Fin 4) (n : Fin 4096) (e : Fin 64) :
    val_main_v44 (F := Ideal) x1 x2 x3 x6 x7 x8 x9 x10 x13 x14 x15 x16 (ix3 b n e)
      = candAt x1 (enc x2 x3 x10) ⟨x4, x5, x6, x7, x8, x9, x11, x12, x13, x14, x15, x16⟩ b n e := by
  rw [val_main_v44_apply, val_main_v41_apply, val_main_v38_apply, val_main_v35_apply, val_main_v37_apply, val_main_v36_apply, val_main_v40_apply, val_main_v43_apply, val_main_v42_apply]
  simp only [lidx_v35, ridx_v35, lidx_v40, ridx_v40, bidx_v37, bidx_v43, val_main_v39_apply, v4_at,
    v34_at x1 x2 x3 x4 x5 x6 x7 x8 x9 x10 x11 x12 x13 x14 x15 x16, v3_eq, Ideal.addf_def, Ideal.mulf_def]
  rfl

end

/-- The reference's result, as a function of the seventeen argument arrays, is the graph layer. -/
theorem ref_is_graphLayer (x0 : FVec Ideal SM .f32) (x1 : FVec Ideal SA .f32) (x2 : FVec Ideal SX .f32) (x3 : FVec Ideal SWe .f32)
    (x4 x5 x6 x7 x8 x9 : FVec Ideal SW .f32) (x10 x11 x12 x13 x14 x15 x16 : FVec Ideal SB .f32) :
    Cert.ReferenceIdeal.Read.val_main_v52 (F := Ideal) x0 x1 x2 x3 x4 x5 x6 x7 x8 x9 x10 x11 x12 x13 x14 x15 x16
      = graphLayer x0 x1 x2 x3 x10 ⟨x4, x5, x6, x7, x8, x9, x11, x12, x13, x14, x15, x16⟩ := by
  funext i
  obtain ⟨b, n, e, rfl⟩ : ∃ (b : Fin 4) (n : Fin 4096) (e : Fin 64), i = ix3 b n e := ⟨i 0, i 1, i 2, eq_ix3 i⟩
  rw [val_main_v52_apply, val_main_v48_apply, val_main_v47_apply, val_main_v46_apply, val_main_v45_apply, val_main_call0_v0_apply, val_main_call0_cst_apply, val_main_v51_apply, val_main_v50_apply, val_main_v49_apply, val_main_cst_3_apply,
    v44_at x1 x2 x3 x4 x5 x6 x7 x8 x9 x10 x11 x12 x13 x14 x15 x16, v19_at x1 x2 x3 x4 x5 x6 x7 x8 x9 x10 x11 x12 x13 x14 x15 x16, v3_eq]
  simp only [midx_v45, Ideal.addf_def, Ideal.mulf_def, Ideal.subf_def, Ideal.maximumf_def, Ideal.ofBits_def]
  rfl

end Cert.GraphLayer

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.EncValue.lean ====
/-
  What the encoder region leaves in the encoded-features array.

  Point (b, i) of its grid writes rows 1024·i … 1024·i + 1023 of batch b; the sixteen points' blocks tile the array.
  In the block, row p and column e hold the kernel's product of the feature tile with the encoder matrix, read at
  (p, e) as the sum over the 128 features, plus the bias at e: the entry `encAt` of the whole arrays at node
  (b, 1024·i + p). Every index of the array lies in exactly one block, so the array after the last point is `enc`
  of the region's entry contents.
-/
import proofs.«168815_j88132728914046_1_alg».proof.Proof.EncodeBody
import proofs.«168815_j88132728914046_1_alg».proof.Proof.Spec
import proofs.«168815_j88132728914046_1_alg».proof.Proof.LibMatmul
import Idealize.ShloMosaic.Lib.Pipeline.Value
import Idealize.ShloMosaic.Lib.ValueLayout
import Idealize.ShloMosaic.PureOps.Ideal.Laws

set_option maxRecDepth 16384

noncomputable section

namespace Cert.GraphLayer

open Idealize.ShloMosaic Idealize.ShloMosaic.TcCoe Idealize.ShloMosaic.ValueIdx Idealize.SL.Sem

open Cert.KernelIdeal Cert.KernelIdeal.Gen Cert.KernelIdeal.Hand

/-! ## The payload at an index -/

/-- The encoder product's dimension numbers are the plain 1024×128 by 128×64 product's. -/
private theorem encDot_eq : dot_S1024x128_S128x64_S1024x64_1_0_0_1_n_n = DotDims.plain 1024 128 64 := rfl

/-- The body's payload at row p, column e of its block: the feature tile's row p against column e of the matrix, summed
    over the 128 features, plus the bias at e. The two shape casts only add or drop the leading unit axis, the bias row
    is the same for every p, and the change of format before the product is the identity on extended reals. -/
private theorem encPay_apply (x : FVec Ideal S1x1024x128 .f32) (w : FVec Ideal S128x64 .f32) (b : FVec Ideal S64 .f32)
    (u : Fin 1) (p : Fin 1024) (e : Fin 64) :
    k0_pay1 (F := Ideal) x w b (ix3 u p e) = (∑ d : Fin 128, x (ix3 (0 : Fin 1) p d) * w (ix2 d e)) + b (ix1 e) := by
  unfold k0_pay1
  refine (shapeCast_ab_1ab_apply _ _ u p e).trans ?_
  refine (addf_apply _ _ _).trans ?_
  refine congrArg₂ (· + ·) ?_ ?_
  · rw [encDot_eq]
    refine (Cert.Matmul.matmul_plain_apply none _ _ p e).trans ?_
    refine Finset.sum_congr rfl fun d _ => ?_
    refine congrArg₂ (· * ·) ?_ rfl
    exact shapeCast_1ab_ab_apply x _ p d
  · refine (broadcastTo_1b_ab_apply _ _ p e).trans ?_
    exact shapeCast_a_1a_apply b _ 0 e

/-! ## The blocks a point reads, against the block it writes -/

/-- The index maps over the 16 points: the feature window's block index is the output's on the batch and row
    axes and 0 on the feature axis; the matrix's and the bias's are 0; the output's is (b, i, 0) with b, i ≤ 3. -/
private theorem encIdx : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0 ∧ win0_2.index t (0 : Fin 1) = 0
    ∧ win0_3.index t (0 : Fin 3) ≤ 3 ∧ win0_3.index t (1 : Fin 3) ≤ 3 ∧ win0_3.index t (2 : Fin 3) = 0 :=
  (by decide +kernel : ∀ t : Fin grid0.N, _)

/-- At point t, the payload of the three input blocks at (u, p, e) is the encoder's entry at the node the output block
    puts there: batch = the block's batch index, node = 1024 · the block's row index + p. -/
private theorem encBlock_at (V : (c : Dev nD) → (b : Ref sig .tc) → Buf (Elt Ideal) ((c : Thread nD τ).loc b)) (c : Dev nD)
    (t : Fin cfg0.N) (u : Fin 1) (p : Fin 1024) (e : Fin 64) (bb : Fin 4) (n : Fin 4096) (e' : Fin 64)
    (hb : bb.val = win0_3.index t (0 : Fin 3) * 1 + 1 * u.val) (hn : n.val = win0_3.index t (1 : Fin 3) * 1024 + 1 * p.val)
    (he : e'.val = win0_3.index t (2 : Fin 3) * 64 + 1 * e.val) :
    k0_pay1 (F := Ideal) (encBlk V c 0 t) (encBlk V c 1 t) (encBlk V c 2 t) (ix3 u p e)
      = encAt (V c main_arg2) (V c main_arg3) (V c main_arg10) bb n e' := by
  obtain ⟨i00, i01, i02, i10, i11, i20, b0, b1, i32⟩ := encIdx t
  have hu : u.val = 0 := by have := u.isLt; omega
  have hee : e' = e := Fin.ext (by rw [he, i32]; omega)
  subst hee
  refine (encPay_apply _ _ _ u p e').trans ?_
  unfold encAt
  refine congrArg₂ (· + ·) (Finset.sum_congr rfl fun d _ => congrArg₂ (· * ·) ?_ ?_) ?_
  · show V c main_arg2 (((cfg0.win 0).blk t).view.emb (ix3 (0 : Fin 1) p d)) = V c main_arg2 (ix3 bb n d)
    congr 1; funext a; apply Fin.ext
    match a with
    | ⟨0, _⟩ => show win0_0.index t (0 : Fin 3) * 1 + 1 * 0 = bb.val; omega
    | ⟨1, _⟩ => show win0_0.index t (1 : Fin 3) * 1024 + 1 * p.val = n.val; omega
    | ⟨2, _⟩ => show win0_0.index t (2 : Fin 3) * 128 + 1 * d.val = d.val; omega
  · show V c main_arg3 (((cfg0.win 1).blk t).view.emb (ix2 d e')) = V c main_arg3 (ix2 d e')
    congr 1; funext a; apply Fin.ext
    match a with
    | ⟨0, _⟩ => show win0_1.index t (0 : Fin 2) * 128 + 1 * d.val = d.val; omega
    | ⟨1, _⟩ => show win0_1.index t (1 : Fin 2) * 64 + 1 * e'.val = e'.val; omega
  · show V c main_arg10 (((cfg0.win 2).blk t).view.emb (ix1 e')) = V c main_arg10 (ix1 e')
    congr 1; funext a; apply Fin.ext
    match a with
    | ⟨0, _⟩ => show win0_2.index t (0 : Fin 1) * 64 + 1 * e'.val = e'.val; omega

/-! ## What a point writes back -/

/-- The whole-buffer rectangles' offsets are zero on every axis. -/
private theorem encZ3 : (![0, 0, 0] : Fin 3 → Nat) = fun _ => 0 := funext fun a => by fin_cases a <;> rfl
private theorem encZ2 : (![0, 0] : Fin 2 → Nat) = fun _ => 0 := funext fun a => by fin_cases a <;> rfl
private theorem encZ1 : (![0] : Fin 1 → Nat) = fun _ => 0 := funext fun a => by fin_cases a <;> rfl

/-- What point t writes back to the encoded-features array is its block of `enc` of the entry contents. -/
private theorem encFlushed_eq (V : (c : Dev nD) → (b : Ref sig .tc) → Buf (Elt Ideal) ((c : Thread nD τ).loc b)) (c : Dev nD)
    (t : Fin cfg0.N) :
    (encDat (F := Ideal) V c).flushed 3 t
      = ((cfg0.win 3).blk t).view.read (Elt Ideal) (enc (V c main_arg2) (V c main_arg3) (V c main_arg10)) := by
  show (cfg0.win 3).cut (grid0.coords t) ((encDat (F := Ideal) V c).after 3 t) = _
  rw [encDat_after_out]
  unfold encOut
  rw [View.canon_unit_zero encZ3, View.ld_unit_zero (S := S1x1024x128) encZ3, View.ld_unit_zero (S := S128x64) encZ2,
    View.ld_unit_zero (S := S64) encZ1]
  funext j
  show k0_pay1 (F := Ideal) (encBlk V c 0 t) (encBlk V c 1 t) (encBlk V c 2 t) ((cfg0.win 3).xinj (grid0.coords t) j)
    = enc (V c main_arg2) (V c main_arg3) (V c main_arg10) (((cfg0.win 3).blk t).view.emb j)
  have hL : (cfg0.win 3).xinj (grid0.coords t) j = ix3 (j 0) (j 1) (j 2) :=
    funext fun a => by match a with | ⟨0, _⟩ => rfl | ⟨1, _⟩ => rfl | ⟨2, _⟩ => rfl
  refine (congrArg (k0_pay1 (F := Ideal) (encBlk V c 0 t) (encBlk V c 1 t) (encBlk V c 2 t)) hL).trans ?_
  refine Eq.trans ?_ (congrArg (enc (V c main_arg2) (V c main_arg3) (V c main_arg10))
    (eq_ix3 (((cfg0.win 3).blk t).view.emb j))).symm
  exact encBlock_at V c t (j 0) (j 1) (j 2) _ _ _ rfl rfl rfl

/-! ## The blocks tile the array -/

/-- Every pair (batch, row tile) is some point's output block index. -/
private theorem encOnto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- An index of the array is in point t's block iff each coordinate is in the block's range on its axis. -/
private theorem encMem_blk (t : Fin cfg0.N) (i : S4x4096x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0).slice (win0_3.rect t)).set ↔ _
  rw [View.set_slice_whole, Rect.mem_set_unit]
  exact Iff.rfl

/-- Node n of batch b lies in the block of the point whose output block index is (b, n / 1024, 0). -/
private theorem encTiles (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  obtain ⟨t, ht⟩ := encOnto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [encMem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The encoded-features array after the encoder's last point, from the contents `V` the region is entered at. -/
theorem encArr_eq (V : (c : Dev nD) → (b : Ref sig .tc) → Buf (Elt Ideal) ((c : Thread nD τ).loc b)) (c : Dev nD) :
    (encDat (F := Ideal) V c).arrAt 3 cfg0.N = enc (V c main_arg2) (V c main_arg3) (V c main_arg10) :=
  (encDat (F := Ideal) V c).arrAt_eq_of_cover 3 (enc (V c main_arg2) (V c main_arg3) (V c main_arg10))
    (fun t _ => encFlushed_eq V c t) encTiles

end Cert.GraphLayer

end
-- ==== Proof.UpdValue.lean ====
/-
  What the update region leaves in the result array.

  Point (b, i) of its grid writes rows 512·i … 512·i + 511 of batch b; the thirty-two points' blocks tile the array.
  In the block, row p and column e hold the gated update of node (b, 512·i + p) at feature e: the aggregate is the
  kernel's product of the adjacency tile with the batch's encoded features, read at (p, d) as the sum over the 4096
  nodes; each gate's pre-activation adds two 64-term products and two biases in the order `gate` writes them; the
  tile of encoded features the kernel reads through its second window is the same array's rows 512·i + p. So the
  array after the last point is `layer` of the region's entry contents.
-/
import proofs.«168815_j88132728914046_1_alg».proof.Proof.UpdateBody
import proofs.«168815_j88132728914046_1_alg».proof.Proof.Spec
import proofs.«168815_j88132728914046_1_alg».proof.Proof.LibMatmul
import Idealize.ShloMosaic.Lib.Pipeline.Value
import Idealize.ShloMosaic.Lib.ValueLayout
import Idealize.ShloMosaic.PureOps.Ideal.Laws

set_option maxRecDepth 16384

noncomputable section

namespace Cert.GraphLayer

open Idealize.ShloMosaic Idealize.ShloMosaic.TcCoe Idealize.ShloMosaic.ValueIdx Idealize.SL.Sem

open Cert.KernelIdeal Cert.KernelIdeal.Gen Cert.KernelIdeal.Hand

/-! ## The body's operations read at an entry -/

/-- The aggregate's product record has the dimension numbers of a plain 512×4096 by 4096×64 product. -/
private theorem dotAgg_eq : dot_S512x4096_S4096x64_S512x64_1_0_0_1_n_n = DotDims.plain 512 4096 64 := rfl

/-- The gates' product record has the dimension numbers of a plain 512×64 by 64×64 product. -/
private theorem dotLin_eq : dot_S512x64_S64x64_S512x64_1_0_0_1_n_n = DotDims.plain 512 64 64 := rfl

/-- The adjacency tile times the features, into the zero accumulator, at (p, d): the sum over the 4096 nodes. -/
private theorem aggMat_apply (l : FVec Ideal S512x4096 .bf16) (r : FVec Ideal S4096x64 .bf16) (p : Fin 512) (d : Fin 64) :
    matmul dot_S512x4096_S4096x64_S512x64_1_0_0_1_n_n none l r (constant (F := Ideal) S512x64 .f32 0x00000000#32) (ix2 p d)
      = ∑ m : Fin 4096, l (ix2 p m) * r (ix2 m d) := by
  rw [dotAgg_eq]
  exact Cert.Matmul.matmul_plain_apply none l r p d

/-- A 512×64 tile times a 64×64 matrix, into the zero accumulator, at (p, e): row p of the tile through the matrix. -/
private theorem linMat_apply (l : FVec Ideal S512x64 .bf16) (W : FVec Ideal S64x64 .bf16) (p : Fin 512) (e : Fin 64) :
    matmul dot_S512x64_S64x64_S512x64_1_0_0_1_n_n none l W (constant (F := Ideal) S512x64 .f32 0x00000000#32) (ix2 p e)
      = lin (fun d => l (ix2 p d)) W e := by
  rw [dotLin_eq]
  exact Cert.Matmul.matmul_plain_apply none l W p e

/-- A bias, cast to one row and broadcast over the 512 rows, at (p, e): the bias at e. -/
private theorem biasRow_apply (b : Vec Ideal S64 .f32) (p : Fin 512) (e : Fin 64) :
    broadcastTo S512x64 (shapeCast S1x64 b shapeCasts_S64_S1x64) broadcasts_S1x64_S512x64 (ix2 p e) = b (ix1 e) :=
  (broadcastTo_1b_ab_apply _ _ p e).trans (shapeCast_a_1a_apply b _ 0 e)

/-- The mask's column broadcast over the 64 features, at (p, e): the mask of row p. -/
private theorem maskCol_apply (m : FVec Ideal S512x1 .f32) (p : Fin 512) (e : Fin 64) :
    broadcastTo S512x64 m broadcasts_S512x1_S512x64 (ix2 p e) = m (ix2 p (0 : Fin 1)) := by
  refine broadcastTo_apply m _ (ix2 p e) (ix2 p (0 : Fin 1)) fun ax => ?_
  match ax with
  | ⟨0, _⟩ =>
    show p.val = if (512 : Nat) = 1 then 0 else p.val
    exact (if_neg (by decide)).symm
  | ⟨1, _⟩ =>
    show (0 : Nat) = if (1 : Nat) = 1 then 0 else e.val
    exact (if_pos rfl).symm

/-! ## A gate's pre-activation, as the body adds it -/

/-- The aggregate's product with the first matrix plus the first bias, then the node's own product with the second
    matrix, then the second bias: the order of the body's four additions, for each of its three gates. -/
private def gateVec (a x : FVec Ideal S512x64 .bf16) (W0 W1 : FVec Ideal S64x64 .bf16) (b0 b1 : Vec Ideal S64 .f32) :
    FVec Ideal S512x64 .f32 :=
  addf (addf (addf (matmul dot_S512x64_S64x64_S512x64_1_0_0_1_n_n none a W0 (constant S512x64 .f32 0x00000000#32))
          (broadcastTo S512x64 (shapeCast S1x64 b0 shapeCasts_S64_S1x64) broadcasts_S1x64_S512x64))
        (matmul dot_S512x64_S64x64_S512x64_1_0_0_1_n_n none x W1 (constant S512x64 .f32 0x00000000#32)))
    (broadcastTo S512x64 (shapeCast S1x64 b1 shapeCasts_S64_S1x64) broadcasts_S1x64_S512x64)

/-- At (p, e) it is the specification's `gate` of row p of the two tiles. -/
private theorem gateVec_apply (a x : FVec Ideal S512x64 .bf16) (W0 W1 : FVec Ideal S64x64 .bf16) (b0 b1 : Vec Ideal S64 .f32)
    (p : Fin 512) (e : Fin 64) :
    gateVec a x W0 W1 b0 b1 (ix2 p e) = gate (fun d => a (ix2 p d)) (fun d => x (ix2 p d)) W0 W1 b0 b1 e := by
  show ((matmul dot_S512x64_S64x64_S512x64_1_0_0_1_n_n none a W0 (constant (F := Ideal) S512x64 .f32 0x00000000#32) (ix2 p e)
        + broadcastTo S512x64 (shapeCast S1x64 b0 shapeCasts_S64_S1x64) broadcasts_S1x64_S512x64 (ix2 p e))
      + matmul dot_S512x64_S64x64_S512x64_1_0_0_1_n_n none x W1 (constant (F := Ideal) S512x64 .f32 0x00000000#32) (ix2 p e))
    + broadcastTo S512x64 (shapeCast S1x64 b1 shapeCasts_S64_S1x64) broadcasts_S1x64_S512x64 (ix2 p e) = _
  rw [linMat_apply, linMat_apply, biasRow_apply, biasRow_apply]
  rfl

/-! ## The body's block, entry by entry -/

/-- The aggregate of row p of the tile: the adjacency row against the batch's features. -/
private def aggB (adj : Vec Ideal S1x512x4096 .f32) (all : Vec Ideal S1x4096x64 .f32) (p : Fin 512) (d : Fin 64) : EReal :=
  ∑ m : Fin 4096, adj (ix3 (0 : Fin 1) p m) * all (ix3 (0 : Fin 1) m d)

/-- The update gate of row p. -/
private def zB (adj : Vec Ideal S1x512x4096 .f32) (all : Vec Ideal S1x4096x64 .f32) (own : Vec Ideal S1x512x64 .f32) (g : Gates)
    (p : Fin 512) (e : Fin 64) : EReal :=
  Ideal.logistic (gate (aggB adj all p) (fun d => own (ix3 (0 : Fin 1) p d)) g.Wz0 g.Wz1 g.bz0 g.bz1 e)

/-- The reset gate of row p. -/
private def rB (adj : Vec Ideal S1x512x4096 .f32) (all : Vec Ideal S1x4096x64 .f32) (own : Vec Ideal S1x512x64 .f32) (g : Gates)
    (p : Fin 512) (e : Fin 64) : EReal :=
  Ideal.logistic (gate (aggB adj all p) (fun d => own (ix3 (0 : Fin 1) p d)) g.Wr0 g.Wr1 g.br0 g.br1 e)

/-- The candidate of row p, before masking. -/
private def candB (adj : Vec Ideal S1x512x4096 .f32) (all : Vec Ideal S1x4096x64 .f32) (own : Vec Ideal S1x512x64 .f32) (g : Gates)
    (p : Fin 512) (e : Fin 64) : EReal :=
  gate (aggB adj all p) (fun d => rB adj all own g p d * own (ix3 (0 : Fin 1) p d)) g.Wh0 g.Wh1 g.bh0 g.bh1 e

/-- The result of row p. -/
private def outB (adj : Vec Ideal S1x512x4096 .f32) (all : Vec Ideal S1x4096x64 .f32) (own : Vec Ideal S1x512x64 .f32)
    (msk : Vec Ideal S1x512x1 .f32) (g : Gates) (p : Fin 512) (e : Fin 64) : EReal :=
  max (msk (ix3 (0 : Fin 1) p (0 : Fin 1)) * candB adj all own g p e) zero * zB adj all own g p e
    + own (ix3 (0 : Fin 1) p e) * (one - zB adj all own g p e)

/-- The aggregate payload at (p, d). -/
private theorem pay3_apply (adj : Vec Ideal S1x512x4096 .f32) (all : Vec Ideal S1x4096x64 .f32) (p : Fin 512) (d : Fin 64) :
    k1_pay3 adj all (ix2 p d) = aggB adj all p d := by
  unfold k1_pay3
  refine (aggMat_apply _ _ p d).trans ?_
  unfold aggB
  refine Finset.sum_congr rfl fun m _ => ?_
  show shapeCast S512x4096 adj shapeCasts_S1x512x4096_S512x4096 (ix2 p m) * shapeCast S4096x64 all shapeCasts_S1x4096x64_S4096x64 (ix2 m d) = _
  rw [shapeCast_1ab_ab_apply, shapeCast_1ab_ab_apply]

/-- The tile of the node's own features, as a matrix, at (p, d). -/
private theorem pay1_apply (own : Vec Ideal S1x512x64 .f32) (p : Fin 512) (d : Fin 64) :
    k1_pay1 own (ix2 p d) = own (ix3 (0 : Fin 1) p d) := by
  unfold k1_pay1
  exact shapeCast_1ab_ab_apply own _ p d

/-- The mask tile, as a column, at (p, 0). -/
private theorem pay2_apply (msk : Vec Ideal S1x512x1 .f32) (p : Fin 512) :
    k1_pay2 msk (ix2 p (0 : Fin 1)) = msk (ix3 (0 : Fin 1) p (0 : Fin 1)) := by
  unfold k1_pay2
  exact shapeCast_1ab_ab_apply msk _ p 0

/-- A gate's pre-activation over the aggregate payload and a second tile whose row p is known. -/
private theorem gatePre_apply (adj : Vec Ideal S1x512x4096 .f32) (all : Vec Ideal S1x4096x64 .f32) (x : FVec Ideal S512x64 .bf16)
    (xs : Fin 64 → EReal) (W0 W1 : Vec Ideal S64x64 .f32) (b0 b1 : Vec Ideal S64 .f32) (p : Fin 512) (q : Fin 64)
    (hx : ∀ d, x (ix2 p d) = xs d) :
    gateVec (k1_pay3 adj all) x (truncf .bf16 W0 bitsLt_bf16_f32) (truncf .bf16 W1 bitsLt_bf16_f32) b0 b1 (ix2 p q)
      = gate (aggB adj all p) xs W0 W1 b0 b1 q := by
  rw [gateVec_apply]
  have h1 : (fun d => k1_pay3 adj all (ix2 p d)) = aggB adj all p := funext fun d => pay3_apply adj all p d
  have h2 : (fun d => x (ix2 p d)) = xs := funext hx
  rw [h1, h2]
  rfl

/-- The reset gate's entry. -/
private theorem rVec_apply (adj : Vec Ideal S1x512x4096 .f32) (all : Vec Ideal S1x4096x64 .f32) (own : Vec Ideal S1x512x64 .f32)
    (g : Gates) (p : Fin 512) (q : Fin 64) :
    Ideal.logistic (gateVec (k1_pay3 adj all) (k1_pay4 own) (k1_pay6 g.Wr0) (k1_pay7 g.Wr1) g.br0 g.br1 (ix2 p q)) = rB adj all own g p q := by
  unfold rB
  exact congrArg Ideal.logistic (gatePre_apply adj all (k1_pay4 own) _ g.Wr0 g.Wr1 g.br0 g.br1 p q fun d => pay1_apply own p d)

/-- The update gate's entry. -/
private theorem zVec_apply (adj : Vec Ideal S1x512x4096 .f32) (all : Vec Ideal S1x4096x64 .f32) (own : Vec Ideal S1x512x64 .f32)
    (g : Gates) (p : Fin 512) (q : Fin 64) :
    Ideal.logistic (gateVec (k1_pay3 adj all) (k1_pay4 own) (truncf .bf16 g.Wz0 bitsLt_bf16_f32) (k1_pay5 g.Wz1) g.bz0 g.bz1 (ix2 p q)) = zB adj all own g p q := by
  unfold zB
  exact congrArg Ideal.logistic (gatePre_apply adj all (k1_pay4 own) _ g.Wz0 g.Wz1 g.bz0 g.bz1 p q fun d => pay1_apply own p d)

/-- The candidate's entry: the node's own tile enters through the reset gate. -/
private theorem cVec_apply (adj : Vec Ideal S1x512x4096 .f32) (all : Vec Ideal S1x4096x64 .f32) (own : Vec Ideal S1x512x64 .f32)
    (g : Gates) (p : Fin 512) (q : Fin 64) :
    gateVec (k1_pay3 adj all)
        (truncf .bf16 (mulf (logistic (gateVec (k1_pay3 adj all) (k1_pay4 own) (k1_pay6 g.Wr0) (k1_pay7 g.Wr1) g.br0 g.br1)) (k1_pay1 own)) bitsLt_bf16_f32)
        (k1_pay8 g.Wh0) (k1_pay9 g.Wh1) g.bh0 g.bh1 (ix2 p q)
      = candB adj all own g p q := by
  unfold candB
  refine gatePre_apply adj all _ _ g.Wh0 g.Wh1 g.bh0 g.bh1 p q fun d => ?_
  show Ideal.logistic (gateVec (k1_pay3 adj all) (k1_pay4 own) (k1_pay6 g.Wr0) (k1_pay7 g.Wr1) g.br0 g.br1 (ix2 p d)) * k1_pay1 own (ix2 p d) = _
  rw [rVec_apply, pay1_apply]

/-- THE STORED VALUE AT (0, p, e): the layer's rule over the point's blocks. -/
private theorem pay11_apply (adj : Vec Ideal S1x512x4096 .f32) (all : Vec Ideal S1x4096x64 .f32) (own : Vec Ideal S1x512x64 .f32)
    (msk : Vec Ideal S1x512x1 .f32) (g : Gates) (u : Fin 1) (p : Fin 512) (e : Fin 64) :
    k1_pay11 (k1_pay1 own) (k1_pay2 msk) (k1_pay3 adj all) (k1_pay4 own) (k1_pay5 g.Wz1) (k1_pay6 g.Wr0) (k1_pay7 g.Wr1) (k1_pay8 g.Wh0) (k1_pay9 g.Wh1)
        (k1_pay10 adj all g.Wz0 g.bz0) (constant S512x64 .f32 0x00000000#32) g.bz1 g.br0 g.br1 g.bh0 g.bh1 (ix3 u p e)
      = outB adj all own msk g p e := by
  unfold k1_pay11
  refine (shapeCast_ab_1ab_apply _ _ u p e).trans ?_
  show max (broadcastTo S512x64 (k1_pay2 msk) broadcasts_S512x1_S512x64 (ix2 p e)
          * gateVec (k1_pay3 adj all)
              (truncf .bf16 (mulf (logistic (gateVec (k1_pay3 adj all) (k1_pay4 own) (k1_pay6 g.Wr0) (k1_pay7 g.Wr1) g.br0 g.br1)) (k1_pay1 own)) bitsLt_bf16_f32)
              (k1_pay8 g.Wh0) (k1_pay9 g.Wh1) g.bh0 g.bh1 (ix2 p e))
        (Ideal.ofBits .f32 0x00000000#32)
      * Ideal.logistic (gateVec (k1_pay3 adj all) (k1_pay4 own) (truncf .bf16 g.Wz0 bitsLt_bf16_f32) (k1_pay5 g.Wz1) g.bz0 g.bz1 (ix2 p e))
    + k1_pay1 own (ix2 p e)
      * (Ideal.ofBits .f32 0x3F800000#32
          - Ideal.logistic (gateVec (k1_pay3 adj all) (k1_pay4 own) (truncf .bf16 g.Wz0 bitsLt_bf16_f32) (k1_pay5 g.Wz1) g.bz0 g.bz1 (ix2 p e))) = _
  rw [maskCol_apply, pay2_apply, cVec_apply, zVec_apply, pay1_apply]
  rfl

/-! ## The blocks as reads of the whole arrays -/

/-- The printed index maps, decided over the grid: the output's block index is (batch, row tile, 0) inside the 4 × 8
    grid of tiles; the adjacency, own-features and mask tiles move with it; the whole-features window follows the
    batch alone. -/
private theorem idx_facts : ∀ t : Fin cfg1.N,
    win1_16.index t (0 : Fin 3) < 4 ∧ win1_16.index t (1 : Fin 3) < 8 ∧ win1_16.index t (2 : Fin 3) = 0
    ∧ win1_0.index t (0 : Fin 3) = win1_16.index t (0 : Fin 3) ∧ win1_0.index t (1 : Fin 3) = win1_16.index t (1 : Fin 3) ∧ win1_0.index t (2 : Fin 3) = 0
    ∧ win1_1.index t (0 : Fin 3) = win1_16.index t (0 : Fin 3) ∧ win1_1.index t (1 : Fin 3) = 0 ∧ win1_1.index t (2 : Fin 3) = 0
    ∧ win1_2.index t (0 : Fin 3) = win1_16.index t (0 : Fin 3) ∧ win1_2.index t (1 : Fin 3) = win1_16.index t (1 : Fin 3) ∧ win1_2.index t (2 : Fin 3) = 0
    ∧ win1_3.index t (0 : Fin 3) = win1_16.index t (0 : Fin 3) ∧ win1_3.index t (1 : Fin 3) = win1_16.index t (1 : Fin 3) ∧ win1_3.index t (2 : Fin 3) = 0 :=
  (by decide +kernel : ∀ t : Fin grid1.N, _)

/-- Every tile of the result is some point's. -/
private theorem idx_onto : ∀ (q0 : Fin 4) (q1 : Fin 8), ∃ t : Fin cfg1.N, win1_16.index t = ![q0.val, q1.val, 0] :=
  (by decide +kernel : ∀ (q0 : Fin 4) (q1 : Fin 8), ∃ t : Fin grid1.N, win1_16.index t = ![q0.val, q1.val, 0])

/-- The adjacency tile at (0, p, m) is the array at (batch, 512·tile + p, m). -/
private theorem blk_adj (V : (c : Dev nD) → (b : Ref sig .tc) → Buf (Elt Ideal) ((c : Thread nD τ).loc b)) (c : Dev nD) (t : Fin cfg1.N)
    (p : Fin 512) (m : Fin 4096) (b : Fin 4) (n : Fin 4096)
    (hb : b.val = win1_16.index t (0 : Fin 3)) (hn : n.val = win1_16.index t (1 : Fin 3) * 512 + p.val) :
    (updBlk (F := Ideal) V c 0 t : Vec Ideal S1x512x4096 .f32) (ix3 (0 : Fin 1) p m) = V c main_arg1 (ix3 b n m) := by
  obtain ⟨-, -, -, e0, e1, e2, -⟩ := idx_facts t
  unfold updBlk
  rw [View.read_apply]
  show V c main_arg1 _ = V c main_arg1 _
  congr 1
  funext a
  apply Fin.ext
  match a with
  | ⟨0, _⟩ => show win1_0.index t (0 : Fin 3) * 1 + 1 * 0 = b.val; omega
  | ⟨1, _⟩ => show win1_0.index t (1 : Fin 3) * 512 + 1 * p.val = n.val; omega
  | ⟨2, _⟩ => show win1_0.index t (2 : Fin 3) * 4096 + 1 * m.val = m.val; omega

/-- The whole-features block at (0, m, d) is the array at (batch, m, d). -/
private theorem blk_all (V : (c : Dev nD) → (b : Ref sig .tc) → Buf (Elt Ideal) ((c : Thread nD τ).loc b)) (c : Dev nD) (t : Fin cfg1.N)
    (m : Fin 4096) (d : Fin 64) (b : Fin 4) (hb : b.val = win1_16.index t (0 : Fin 3)) :
    (updBlk (F := Ideal) V c 1 t : Vec Ideal S1x4096x64 .f32) (ix3 (0 : Fin 1) m d) = V c main_v0 (ix3 b m d) := by
  obtain ⟨-, -, -, -, -, -, e0, e1, e2, -⟩ := idx_facts t
  unfold updBlk
  rw [View.read_apply]
  show V c main_v0 _ = V c main_v0 _
  congr 1
  funext a
  apply Fin.ext
  match a with
  | ⟨0, _⟩ => show win1_1.index t (0 : Fin 3) * 1 + 1 * 0 = b.val; omega
  | ⟨1, _⟩ => show win1_1.index t (1 : Fin 3) * 4096 + 1 * m.val = m.val; omega
  | ⟨2, _⟩ => show win1_1.index t (2 : Fin 3) * 64 + 1 * d.val = d.val; omega

/-- The own-features tile at (0, p, d) is the same array at (batch, 512·tile + p, d). -/
private theorem blk_own (V : (c : Dev nD) → (b : Ref sig .tc) → Buf (Elt Ideal) ((c : Thread nD τ).loc b)) (c : Dev nD) (t : Fin cfg1.N)
    (p : Fin 512) (d : Fin 64) (b : Fin 4) (n : Fin 4096)
    (hb : b.val = win1_16.index t (0 : Fin 3)) (hn : n.val = win1_16.index t (1 : Fin 3) * 512 + p.val) :
    (updBlk (F := Ideal) V c 2 t : Vec Ideal S1x512x64 .f32) (ix3 (0 : Fin 1) p d) = V c main_v0 (ix3 b n d) := by
  obtain ⟨-, -, -, -, -, -, -, -, -, e0, e1, e2, -⟩ := idx_facts t
  unfold updBlk
  rw [View.read_apply]
  show V c main_v0 _ = V c main_v0 _
  congr 1
  funext a
  apply Fin.ext
  match a with
  | ⟨0, _⟩ => show win1_2.index t (0 : Fin 3) * 1 + 1 * 0 = b.val; omega
  | ⟨1, _⟩ => show win1_2.index t (1 : Fin 3) * 512 + 1 * p.val = n.val; omega
  | ⟨2, _⟩ => show win1_2.index t (2 : Fin 3) * 64 + 1 * d.val = d.val; omega

/-- The mask tile at (0, p, 0) is the array at (batch, 512·tile + p, 0). -/
private theorem blk_msk (V : (c : Dev nD) → (b : Ref sig .tc) → Buf (Elt Ideal) ((c : Thread nD τ).loc b)) (c : Dev nD) (t : Fin cfg1.N)
    (p : Fin 512) (b : Fin 4) (n : Fin 4096)
    (hb : b.val = win1_16.index t (0 : Fin 3)) (hn : n.val = win1_16.index t (1 : Fin 3) * 512 + p.val) :
    (updBlk (F := Ideal) V c 3 t : Vec Ideal S1x512x1 .f32) (ix3 (0 : Fin 1) p (0 : Fin 1)) = V c main_arg0 (ix3 b n (0 : Fin 1)) := by
  obtain ⟨-, -, -, -, -, -, -, -, -, -, -, -, e0, e1, e2⟩ := idx_facts t
  unfold updBlk
  rw [View.read_apply]
  show V c main_arg0 _ = V c main_arg0 _
  congr 1
  funext a
  apply Fin.ext
  match a with
  | ⟨0, _⟩ => show win1_3.index t (0 : Fin 3) * 1 + 1 * 0 = b.val; omega
  | ⟨1, _⟩ => show win1_3.index t (1 : Fin 3) * 512 + 1 * p.val = n.val; omega
  | ⟨2, _⟩ => show win1_3.index t (2 : Fin 3) * 1 + 1 * 0 = 0; omega

/-- Window 4's block is its whole matrix. -/
private theorem blk_4 (V : (c : Dev nD) → (b : Ref sig .tc) → Buf (Elt Ideal) ((c : Thread nD τ).loc b)) (c : Dev nD) (t : Fin cfg1.N) :
    (updBlk (F := Ideal) V c 4 t : Vec Ideal S64x64 .f32) = V c main_arg4 := by
  have h0 : win1_4.index t (0 : Fin 2) = 0 := rfl
  have h1 : win1_4.index t (1 : Fin 2) = 0 := rfl
  funext j
  unfold updBlk
  rw [View.read_apply]
  show V c main_arg4 _ = V c main_arg4 j
  congr 1
  funext a
  apply Fin.ext
  match a with
  | ⟨0, _⟩ => show win1_4.index t (0 : Fin 2) * 64 + 1 * (j 0).val = (j 0).val; rw [h0]; omega
  | ⟨1, _⟩ => show win1_4.index t (1 : Fin 2) * 64 + 1 * (j 1).val = (j 1).val; rw [h1]; omega

/-- Window 5's block is its whole matrix. -/
private theorem blk_5 (V : (c : Dev nD) → (b : Ref sig .tc) → Buf (Elt Ideal) ((c : Thread nD τ).loc b)) (c : Dev nD) (t : Fin cfg1.N) :
    (updBlk (F := Ideal) V c 5 t : Vec Ideal S64x64 .f32) = V c main_arg5 := by
  have h0 : win1_5.index t (0 : Fin 2) = 0 := rfl
  have h1 : win1_5.index t (1 : Fin 2) = 0 := rfl
  funext j
  unfold updBlk
  rw [View.read_apply]
  show V c main_arg5 _ = V c main_arg5 j
  congr 1
  funext a
  apply Fin.ext
  match a with
  | ⟨0, _⟩ => show win1_5.index t (0 : Fin 2) * 64 + 1 * (j 0).val = (j 0).val; rw [h0]; omega
  | ⟨1, _⟩ => show win1_5.index t (1 : Fin 2) * 64 + 1 * (j 1).val = (j 1).val; rw [h1]; omega

/-- Window 6's block is its whole matrix. -/
private theorem blk_6 (V : (c : Dev nD) → (b : Ref sig .tc) → Buf (Elt Ideal) ((c : Thread nD τ).loc b)) (c : Dev nD) (t : Fin cfg1.N) :
    (updBlk (F := Ideal) V c 6 t : Vec Ideal S64x64 .f32) = V c main_arg6 := by
  have h0 : win1_6.index t (0 : Fin 2) = 0 := rfl
  have h1 : win1_6.index t (1 : Fin 2) = 0 := rfl
  funext j
  unfold updBlk
  rw [View.read_apply]
  show V c main_arg6 _ = V c main_arg6 j
  congr 1
  funext a
  apply Fin.ext
  match a with
  | ⟨0, _⟩ => show win1_6.index t (0 : Fin 2) * 64 + 1 * (j 0).val = (j 0).val; rw [h0]; omega
  | ⟨1, _⟩ => show win1_6.index t (1 : Fin 2) * 64 + 1 * (j 1).val = (j 1).val; rw [h1]; omega

/-- Window 7's block is its whole matrix. -/
private theorem blk_7 (V : (c : Dev nD) → (b : Ref sig .tc) → Buf (Elt Ideal) ((c : Thread nD τ).loc b)) (c : Dev nD) (t : Fin cfg1.N) :
    (updBlk (F := Ideal) V c 7 t : Vec Ideal S64x64 .f32) = V c main_arg7 := by
  have h0 : win1_7.index t (0 : Fin 2) = 0 := rfl
  have h1 : win1_7.index t (1 : Fin 2) = 0 := rfl
  funext j
  unfold updBlk
  rw [View.read_apply]
  show V c main_arg7 _ = V c main_arg7 j
  congr 1
  funext a
  apply Fin.ext
  match a with
  | ⟨0, _⟩ => show win1_7.index t (0 : Fin 2) * 64 + 1 * (j 0).val = (j 0).val; rw [h0]; omega
  | ⟨1, _⟩ => show win1_7.index t (1 : Fin 2) * 64 + 1 * (j 1).val = (j 1).val; rw [h1]; omega

/-- Window 8's block is its whole matrix. -/
private theorem blk_8 (V : (c : Dev nD) → (b : Ref sig .tc) → Buf (Elt Ideal) ((c : Thread nD τ).loc b)) (c : Dev nD) (t : Fin cfg1.N) :
    (updBlk (F := Ideal) V c 8 t : Vec Ideal S64x64 .f32) = V c main_arg8 := by
  have h0 : win1_8.index t (0 : Fin 2) = 0 := rfl
  have h1 : win1_8.index t (1 : Fin 2) = 0 := rfl
  funext j
  unfold updBlk
  rw [View.read_apply]
  show V c main_arg8 _ = V c main_arg8 j
  congr 1
  funext a
  apply Fin.ext
  match a with
  | ⟨0, _⟩ => show win1_8.index t (0 : Fin 2) * 64 + 1 * (j 0).val = (j 0).val; rw [h0]; omega
  | ⟨1, _⟩ => show win1_8.index t (1 : Fin 2) * 64 + 1 * (j 1).val = (j 1).val; rw [h1]; omega

/-- Window 9's block is its whole matrix. -/
private theorem blk_9 (V : (c : Dev nD) → (b : Ref sig .tc) → Buf (Elt Ideal) ((c : Thread nD τ).loc b)) (c : Dev nD) (t : Fin cfg1.N) :
    (updBlk (F := Ideal) V c 9 t : Vec Ideal S64x64 .f32) = V c main_arg9 := by
  have h0 : win1_9.index t (0 : Fin 2) = 0 := rfl
  have h1 : win1_9.index t (1 : Fin 2) = 0 := rfl
  funext j
  unfold updBlk
  rw [View.read_apply]
  show V c main_arg9 _ = V c main_arg9 j
  congr 1
  funext a
  apply Fin.ext
  match a with
  | ⟨0, _⟩ => show win1_9.index t (0 : Fin 2) * 64 + 1 * (j 0).val = (j 0).val; rw [h0]; omega
  | ⟨1, _⟩ => show win1_9.index t (1 : Fin 2) * 64 + 1 * (j 1).val = (j 1).val; rw [h1]; omega

/-- Window 10's block is its whole bias. -/
private theorem blk_10 (V : (c : Dev nD) → (b : Ref sig .tc) → Buf (Elt Ideal) ((c : Thread nD τ).loc b)) (c : Dev nD) (t : Fin cfg1.N) :
    (updBlk (F := Ideal) V c 10 t : Vec Ideal S64 .f32) = V c main_arg11 := by
  have h0 : win1_10.index t (0 : Fin 1) = 0 := rfl
  funext j
  unfold updBlk
  rw [View.read_apply]
  show V c main_arg11 _ = V c main_arg11 j
  congr 1
  funext a
  apply Fin.ext
  match a with
  | ⟨0, _⟩ => show win1_10.index t (0 : Fin 1) * 64 + 1 * (j 0).val = (j 0).val; rw [h0]; omega

/-- Window 11's block is its whole bias. -/
private theorem blk_11 (V : (c : Dev nD) → (b : Ref sig .tc) → Buf (Elt Ideal) ((c : Thread nD τ).loc b)) (c : Dev nD) (t : Fin cfg1.N) :
    (updBlk (F := Ideal) V c 11 t : Vec Ideal S64 .f32) = V c main_arg12 := by
  have h0 : win1_11.index t (0 : Fin 1) = 0 := rfl
  funext j
  unfold updBlk
  rw [View.read_apply]
  show V c main_arg12 _ = V c main_arg12 j
  congr 1
  funext a
  apply Fin.ext
  match a with
  | ⟨0, _⟩ => show win1_11.index t (0 : Fin 1) * 64 + 1 * (j 0).val = (j 0).val; rw [h0]; omega

/-- Window 12's block is its whole bias. -/
private theorem blk_12 (V : (c : Dev nD) → (b : Ref sig .tc) → Buf (Elt Ideal) ((c : Thread nD τ).loc b)) (c : Dev nD) (t : Fin cfg1.N) :
    (updBlk (F := Ideal) V c 12 t : Vec Ideal S64 .f32) = V c main_arg13 := by
  have h0 : win1_12.index t (0 : Fin 1) = 0 := rfl
  funext j
  unfold updBlk
  rw [View.read_apply]
  show V c main_arg13 _ = V c main_arg13 j
  congr 1
  funext a
  apply Fin.ext
  match a with
  | ⟨0, _⟩ => show win1_12.index t (0 : Fin 1) * 64 + 1 * (j 0).val = (j 0).val; rw [h0]; omega

/-- Window 13's block is its whole bias. -/
private theorem blk_13 (V : (c : Dev nD) → (b : Ref sig .tc) → Buf (Elt Ideal) ((c : Thread nD τ).loc b)) (c : Dev nD) (t : Fin cfg1.N) :
    (updBlk (F := Ideal) V c 13 t : Vec Ideal S64 .f32) = V c main_arg14 := by
  have h0 : win1_13.index t (0 : Fin 1) = 0 := rfl
  funext j
  unfold updBlk
  rw [View.read_apply]
  show V c main_arg14 _ = V c main_arg14 j
  congr 1
  funext a
  apply Fin.ext
  match a with
  | ⟨0, _⟩ => show win1_13.index t (0 : Fin 1) * 64 + 1 * (j 0).val = (j 0).val; rw [h0]; omega

/-- Window 14's block is its whole bias. -/
private theorem blk_14 (V : (c : Dev nD) → (b : Ref sig .tc) → Buf (Elt Ideal) ((c : Thread nD τ).loc b)) (c : Dev nD) (t : Fin cfg1.N) :
    (updBlk (F := Ideal) V c 14 t : Vec Ideal S64 .f32) = V c main_arg15 := by
  have h0 : win1_14.index t (0 : Fin 1) = 0 := rfl
  funext j
  unfold updBlk
  rw [View.read_apply]
  show V c main_arg15 _ = V c main_arg15 j
  congr 1
  funext a
  apply Fin.ext
  match a with
  | ⟨0, _⟩ => show win1_14.index t (0 : Fin 1) * 64 + 1 * (j 0).val = (j 0).val; rw [h0]; omega

/-- Window 15's block is its whole bias. -/
private theorem blk_15 (V : (c : Dev nD) → (b : Ref sig .tc) → Buf (Elt Ideal) ((c : Thread nD τ).loc b)) (c : Dev nD) (t : Fin cfg1.N) :
    (updBlk (F := Ideal) V c 15 t : Vec Ideal S64 .f32) = V c main_arg16 := by
  have h0 : win1_15.index t (0 : Fin 1) = 0 := rfl
  funext j
  unfold updBlk
  rw [View.read_apply]
  show V c main_arg16 _ = V c main_arg16 j
  congr 1
  funext a
  apply Fin.ext
  match a with
  | ⟨0, _⟩ => show win1_15.index t (0 : Fin 1) * 64 + 1 * (j 0).val = (j 0).val; rw [h0]; omega

/-! ## From the blocks to the layer -/

private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- WHAT THE BODY LEAVES IN ITS OUTPUT BUFFER, at (0, p, e): its one store covers the buffer and its loads read their
    buffers whole, so it is the stored value. -/
private theorem updOut_apply (adj : Vec Ideal S1x512x4096 .f32) (all : Vec Ideal S1x4096x64 .f32) (own : Vec Ideal S1x512x64 .f32)
    (msk : Vec Ideal S1x512x1 .f32) (g : Gates) (u : Fin 1) (p : Fin 512) (e : Fin 64) :
    updOut (F := Ideal) adj all own msk g.Wz0 g.Wz1 g.Wr0 g.Wr1 g.Wh0 g.Wh1 g.bz0 g.bz1 g.br0 g.br1 g.bh0 g.bh1 (ix3 u p e)
      = outB adj all own msk g p e := by
  unfold updOut
  rw [View.canon_unit_zero hz3]
  simp only [View.ld_unit_zero (S := S1x512x4096) hz3, View.ld_unit_zero (S := S1x4096x64) hz3,
    View.ld_unit_zero (S := S1x512x64) hz3, View.ld_unit_zero (S := S1x512x1) hz3,
    View.ld_unit_zero (S := S64x64) hz2, View.ld_unit_zero (S := S64) hz1]
  exact pay11_apply adj all own msk g u p e

/-- The block-level rule is the layer's rule at node (b, n) when row p of the tiles is row n of batch b. -/
private theorem outB_eq_outAt (adj : Vec Ideal S1x512x4096 .f32) (all : Vec Ideal S1x4096x64 .f32) (own : Vec Ideal S1x512x64 .f32)
    (msk : Vec Ideal S1x512x1 .f32) (g : Gates) (A : FVec Ideal SA .f32) (H : FVec Ideal SH .f32) (M : FVec Ideal SM .f32)
    (p : Fin 512) (b : Fin 4) (n : Fin 4096)
    (hadj : ∀ m, adj (ix3 (0 : Fin 1) p m) = A (ix3 b n m)) (hall : ∀ m d, all (ix3 (0 : Fin 1) m d) = H (ix3 b m d))
    (hown : ∀ d, own (ix3 (0 : Fin 1) p d) = H (ix3 b n d)) (hmsk : msk (ix3 (0 : Fin 1) p (0 : Fin 1)) = M (ix3 b n (0 : Fin 1)))
    (e : Fin 64) : outB adj all own msk g p e = outAt A H M g b n e := by
  have hagg : aggB adj all p = aggAt A H b n := funext fun d => by
    unfold aggB aggAt
    exact Finset.sum_congr rfl fun m _ => by rw [hadj m, hall m d]
  have hr : ∀ q, rB adj all own g p q = rAt A H g b n q := fun q => by
    unfold rB rAt
    rw [hagg, funext hown]
  have hz : zB adj all own g p e = zAt A H g b n e := by
    unfold zB zAt
    rw [hagg, funext hown]
  have hc : candB adj all own g p e = candAt A H g b n e := by
    unfold candB candAt
    rw [hagg, funext fun d => (by rw [hr d, hown d] : rB adj all own g p d * own (ix3 (0 : Fin 1) p d) = rAt A H g b n d * H (ix3 b n d))]
  unfold outB outAt
  rw [hmsk, hc, hz, hown e]

/-! ## What a point writes back, and the array after the last point -/

/-- The gates' matrices and biases as the region finds them. -/
private abbrev gOf (V : (c : Dev nD) → (b : Ref sig .tc) → Buf (Elt Ideal) ((c : Thread nD τ).loc b)) (c : Dev nD) : Gates :=
  ⟨(V c main_arg4), (V c main_arg5), (V c main_arg6), (V c main_arg7), (V c main_arg8), (V c main_arg9), (V c main_arg11), (V c main_arg12), (V c main_arg13), (V c main_arg14), (V c main_arg15), (V c main_arg16)⟩

/-- Point t's output block at (u, p, e) is the layer's result at node (batch, 512·tile + p), feature e. -/
private theorem entry_eq (V : (c : Dev nD) → (b : Ref sig .tc) → Buf (Elt Ideal) ((c : Thread nD τ).loc b)) (c : Dev nD) (t : Fin cfg1.N) (u : Fin 1) (p : Fin 512) (e : Fin 64) (b : Fin 4) (n : Fin 4096)
    (hb : b.val = win1_16.index t (0 : Fin 3)) (hn : n.val = win1_16.index t (1 : Fin 3) * 512 + p.val) :
    updOut (F := Ideal) (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t) (ix3 u p e)
      = outAt (V c main_arg1) (V c main_v0) (V c main_arg0) (gOf V c) b n e := by
  rw [blk_4 V c t, blk_5 V c t, blk_6 V c t, blk_7 V c t, blk_8 V c t, blk_9 V c t, blk_10 V c t, blk_11 V c t, blk_12 V c t,
    blk_13 V c t, blk_14 V c t, blk_15 V c t]
  refine (updOut_apply (updBlk V c 0 t) (updBlk V c 1 t) (updBlk V c 2 t) (updBlk V c 3 t) (gOf V c) u p e).trans ?_
  exact outB_eq_outAt _ _ _ _ _ _ _ _ p b n (fun m => blk_adj V c t p m b n hb hn) (fun m d => blk_all V c t m d b hb)
    (fun d => blk_own V c t p d b n hb hn) (blk_msk V c t p b n hb hn) e

/-- The same at an index of the block. -/
private theorem entry_eq_idx (V : (c : Dev nD) → (b : Ref sig .tc) → Buf (Elt Ideal) ((c : Thread nD τ).loc b)) (c : Dev nD) (t : Fin cfg1.N) (j : S1x512x64.Idx) (b : Fin 4) (n : Fin 4096)
    (hb : b.val = win1_16.index t (0 : Fin 3)) (hn : n.val = win1_16.index t (1 : Fin 3) * 512 + (j 1).val) :
    updOut (F := Ideal) (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t) j
      = outAt (V c main_arg1) (V c main_v0) (V c main_arg0) (gOf V c) b n (j 2) :=
  (congrArg (updOut (F := Ideal) (updBlk V c 0 t) (updBlk V c 1 t) (updBlk V c 2 t) (updBlk V c 3 t) (updBlk V c 4 t) (updBlk V c 5 t) (updBlk V c 6 t) (updBlk V c 7 t) (updBlk V c 8 t) (updBlk V c 9 t) (updBlk V c 10 t) (updBlk V c 11 t) (updBlk V c 12 t) (updBlk V c 13 t) (updBlk V c 14 t) (updBlk V c 15 t)) (eq_ix3 j)).trans (entry_eq V c t (j 0) (j 1) (j 2) b n hb hn)

/-- WHAT POINT t WRITES BACK is its block of the layer's result. -/
private theorem flushed_eq (V : (c : Dev nD) → (b : Ref sig .tc) → Buf (Elt Ideal) ((c : Thread nD τ).loc b)) (c : Dev nD) (t : Fin cfg1.N) :
    (updDat (F := Ideal) V c).flushed 16 t
      = ((cfg1.win 16).blk t).view.read (Elt Ideal) (layer (V c main_arg1) (V c main_v0) (V c main_arg0) (gOf V c)) := by
  show (cfg1.win 16).cut (grid1.coords t) ((updDat (F := Ideal) V c).after 16 t) = _
  rw [updDat_after_out]
  obtain ⟨l0, l1, l2, -⟩ := idx_facts t
  funext j
  have hj0 : (j 0).val < 1 := (j 0).isLt
  have hj1 : (j 1).val < 512 := (j 1).isLt
  have hemb : ((cfg1.win 16).blk t).view.emb j
      = ix3 (⟨win1_16.index t (0 : Fin 3), l0⟩ : Fin 4) (⟨win1_16.index t (1 : Fin 3) * 512 + (j 1).val, by omega⟩ : Fin 4096) (j 2) := by
    funext a
    apply Fin.ext
    match a with
    | ⟨0, _⟩ => show win1_16.index t (0 : Fin 3) * 1 + 1 * (j 0).val = win1_16.index t (0 : Fin 3); omega
    | ⟨1, _⟩ => show win1_16.index t (1 : Fin 3) * 512 + 1 * (j 1).val = win1_16.index t (1 : Fin 3) * 512 + (j 1).val; omega
    | ⟨2, _⟩ => show win1_16.index t (2 : Fin 3) * 64 + 1 * (j 2).val = (j 2).val; omega
  rw [View.read_apply, hemb]
  exact entry_eq_idx V c t j _ _ rfl rfl

/-- Every index of the result is in some point's block: row r of batch b in the block of point (b, r / 512). -/
private theorem cover (i : S4x4096x64.Idx) : ∃ t : Fin cfg1.N, (cfg1.win 16).flush t = true ∧ i ∈ ((cfg1.win 16).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 512, by omega⟩
  have q0 : win1_16.index t (0 : Fin 3) = (i 0).val := congrFun ht 0
  have q1 : win1_16.index t (1 : Fin 3) = (i 1).val / 512 := congrFun ht 1
  have q2 : win1_16.index t (2 : Fin 3) = 0 := congrFun ht 2
  refine ⟨t, flush1_16 t, ?_⟩
  show i ∈ ((View.whole main_v1).slice (win1_16.rect t)).set
  rw [View.set_slice_whole, Rect.mem_set_unit]
  intro a
  match a with
  | ⟨0, _⟩ => show win1_16.index t (0 : Fin 3) * 1 ≤ (i 0).val ∧ (i 0).val < win1_16.index t (0 : Fin 3) * 1 + 1; omega
  | ⟨1, _⟩ => show win1_16.index t (1 : Fin 3) * 512 ≤ (i 1).val ∧ (i 1).val < win1_16.index t (1 : Fin 3) * 512 + 512; omega
  | ⟨2, _⟩ => show win1_16.index t (2 : Fin 3) * 64 ≤ (i 2).val ∧ (i 2).val < win1_16.index t (2 : Fin 3) * 64 + 64; omega

/-- The result array after the update's last point, from the contents `V` the region is entered at. -/
theorem updArr_eq (V : (c : Dev nD) → (b : Ref sig .tc) → Buf (Elt Ideal) ((c : Thread nD τ).loc b)) (c : Dev nD) :
    (updDat (F := Ideal) V c).arrAt 16 cfg1.N
      = layer (V c main_arg1) (V c main_v0) (V c main_arg0) ⟨(V c main_arg4), (V c main_arg5), (V c main_arg6), (V c main_arg7), (V c main_arg8), (V c main_arg9), (V c main_arg11), (V c main_arg12), (V c main_arg13), (V c main_arg14), (V c main_arg15), (V c main_arg16)⟩ :=
  (updDat (F := Ideal) V c).arrAt_eq_of_cover 16 _ (fun t _ => flushed_eq V c t) cover

end Cert.GraphLayer

end
-- ==== Proof.lean ====
/-
  The graph layer's kernel against its reference.

  Both programs compute, per batch and node, an affine encoding h = x · We + be of the node's 128 features into 64,
  the neighbourhood aggregate a = adj · h, two gates z and r (the logistic of an affine image of a and h) and a
  candidate (an affine image of a and r · h), and return max (mask · candidate) 0 · z + h · (1 − z). The reference
  does it on whole arrays; the kernel in two launches, the encoder over 1024-row tiles and the update over 512-row
  tiles, the update reading the encoded features twice, whole (for the aggregate) and by tile (for the node's own).
  Read on the extended reals the two compute the same terms in the same order, entry by entry: a change of float
  format is the identity there, a product into a zero accumulator is the plain sum, and the kernel's logistic is by
  definition the quotient the reference spells. No law of arithmetic is used, so the inputs' finiteness is never
  needed.

  The frames. Each kernel program is its two regions in sequence. A region's own part is that its body, run on the
  staging buffers, leaves the output buffer at one function of the input blocks and the rest as found; the rest is
  the several-regions launch of the pipeline library, each region entered with every unscoped buffer at the contents
  the one before left. The update's two windows on one array each hold half of that array's share, dealt at the
  region's entry and joined at its exit. The reference's frame is its run with the result dropped.
-/
import proofs.«168815_j88132728914046_1_alg».proof.Defs
import proofs.«168815_j88132728914046_1_alg».proof.Proof.Gen.Kernel
import proofs.«168815_j88132728914046_1_alg».proof.Proof.Gen.KernelIdeal
import proofs.«168815_j88132728914046_1_alg».proof.Proof.Gen.ReferenceIdeal
import proofs.«168815_j88132728914046_1_alg».proof.Proof.Gen.Pre_finite_inputs
import proofs.«168815_j88132728914046_1_alg».proof.Proof.KRun
import proofs.«168815_j88132728914046_1_alg».proof.Proof.Run
import proofs.«168815_j88132728914046_1_alg».proof.Proof.RefRun
import proofs.«168815_j88132728914046_1_alg».proof.Proof.RefValue
import proofs.«168815_j88132728914046_1_alg».proof.Proof.EncValue
import proofs.«168815_j88132728914046_1_alg».proof.Proof.UpdValue

set_option maxRecDepth 16384

noncomputable section

namespace Cert.Proof

open Idealize.ShloMosaic Idealize.ShloMosaic.TcCoe Idealize.SL.Sem

/-- The idealized kernel's result array is the graph layer of the launch arrays: the update region leaves the layer of
    its entry contents, of which the encoded features are what the encoder region left, the encoding of ITS entry
    contents, and every other array it reads is an argument no region has written. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.resultArr (F := Ideal) m c
      = Cert.GraphLayer.graphLayer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg10))
          ⟨(m ((c.tc : Thread Cert.KernelIdeal.nD Cert.KernelIdeal.τ).loc Cert.KernelIdeal.main_arg4)), (m ((c.tc : Thread Cert.KernelIdeal.nD Cert.KernelIdeal.τ).loc Cert.KernelIdeal.main_arg5)), (m ((c.tc : Thread Cert.KernelIdeal.nD Cert.KernelIdeal.τ).loc Cert.KernelIdeal.main_arg6)), (m ((c.tc : Thread Cert.KernelIdeal.nD Cert.KernelIdeal.τ).loc Cert.KernelIdeal.main_arg7)), (m ((c.tc : Thread Cert.KernelIdeal.nD Cert.KernelIdeal.τ).loc Cert.KernelIdeal.main_arg8)), (m ((c.tc : Thread Cert.KernelIdeal.nD Cert.KernelIdeal.τ).loc Cert.KernelIdeal.main_arg9)), (m ((c.tc : Thread Cert.KernelIdeal.nD Cert.KernelIdeal.τ).loc Cert.KernelIdeal.main_arg11)), (m ((c.tc : Thread Cert.KernelIdeal.nD Cert.KernelIdeal.τ).loc Cert.KernelIdeal.main_arg12)), (m ((c.tc : Thread Cert.KernelIdeal.nD Cert.KernelIdeal.τ).loc Cert.KernelIdeal.main_arg13)), (m ((c.tc : Thread Cert.KernelIdeal.nD Cert.KernelIdeal.τ).loc Cert.KernelIdeal.main_arg14)), (m ((c.tc : Thread Cert.KernelIdeal.nD Cert.KernelIdeal.τ).loc Cert.KernelIdeal.main_arg15)), (m ((c.tc : Thread Cert.KernelIdeal.nD Cert.KernelIdeal.τ).loc Cert.KernelIdeal.main_arg16))⟩ := by
  unfold Cert.KernelIdeal.Hand.resultArr Cert.GraphLayer.graphLayer
  rw [Cert.GraphLayer.updArr_eq]
  have hfeat : Cert.KernelIdeal.Hand.V1 m c Cert.KernelIdeal.main_v0
      = Cert.GraphLayer.enc (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) :=
    (Cert.KernelIdeal.Hand.W1_arr m c 3).trans (Cert.GraphLayer.encArr_eq (Cert.KernelIdeal.Hand.V0 m) c)
  have h0 : Cert.KernelIdeal.Hand.V1 m c Cert.KernelIdeal.main_arg0 = (m ((c.tc : Thread Cert.KernelIdeal.nD Cert.KernelIdeal.τ).loc Cert.KernelIdeal.main_arg0)) := Cert.KernelIdeal.Hand.W1_of_ne m c Cert.KernelIdeal.main_arg0 (by decide)
  have h1 : Cert.KernelIdeal.Hand.V1 m c Cert.KernelIdeal.main_arg1 = (m ((c.tc : Thread Cert.KernelIdeal.nD Cert.KernelIdeal.τ).loc Cert.KernelIdeal.main_arg1)) := Cert.KernelIdeal.Hand.W1_of_ne m c Cert.KernelIdeal.main_arg1 (by decide)
  have h4 : Cert.KernelIdeal.Hand.V1 m c Cert.KernelIdeal.main_arg4 = (m ((c.tc : Thread Cert.KernelIdeal.nD Cert.KernelIdeal.τ).loc Cert.KernelIdeal.main_arg4)) := Cert.KernelIdeal.Hand.W1_of_ne m c Cert.KernelIdeal.main_arg4 (by decide)
  have h5 : Cert.KernelIdeal.Hand.V1 m c Cert.KernelIdeal.main_arg5 = (m ((c.tc : Thread Cert.KernelIdeal.nD Cert.KernelIdeal.τ).loc Cert.KernelIdeal.main_arg5)) := Cert.KernelIdeal.Hand.W1_of_ne m c Cert.KernelIdeal.main_arg5 (by decide)
  have h6 : Cert.KernelIdeal.Hand.V1 m c Cert.KernelIdeal.main_arg6 = (m ((c.tc : Thread Cert.KernelIdeal.nD Cert.KernelIdeal.τ).loc Cert.KernelIdeal.main_arg6)) := Cert.KernelIdeal.Hand.W1_of_ne m c Cert.KernelIdeal.main_arg6 (by decide)
  have h7 : Cert.KernelIdeal.Hand.V1 m c Cert.KernelIdeal.main_arg7 = (m ((c.tc : Thread Cert.KernelIdeal.nD Cert.KernelIdeal.τ).loc Cert.KernelIdeal.main_arg7)) := Cert.KernelIdeal.Hand.W1_of_ne m c Cert.KernelIdeal.main_arg7 (by decide)
  have h8 : Cert.KernelIdeal.Hand.V1 m c Cert.KernelIdeal.main_arg8 = (m ((c.tc : Thread Cert.KernelIdeal.nD Cert.KernelIdeal.τ).loc Cert.KernelIdeal.main_arg8)) := Cert.KernelIdeal.Hand.W1_of_ne m c Cert.KernelIdeal.main_arg8 (by decide)
  have h9 : Cert.KernelIdeal.Hand.V1 m c Cert.KernelIdeal.main_arg9 = (m ((c.tc : Thread Cert.KernelIdeal.nD Cert.KernelIdeal.τ).loc Cert.KernelIdeal.main_arg9)) := Cert.KernelIdeal.Hand.W1_of_ne m c Cert.KernelIdeal.main_arg9 (by decide)
  have h11 : Cert.KernelIdeal.Hand.V1 m c Cert.KernelIdeal.main_arg11 = (m ((c.tc : Thread Cert.KernelIdeal.nD Cert.KernelIdeal.τ).loc Cert.KernelIdeal.main_arg11)) := Cert.KernelIdeal.Hand.W1_of_ne m c Cert.KernelIdeal.main_arg11 (by decide)
  have h12 : Cert.KernelIdeal.Hand.V1 m c Cert.KernelIdeal.main_arg12 = (m ((c.tc : Thread Cert.KernelIdeal.nD Cert.KernelIdeal.τ).loc Cert.KernelIdeal.main_arg12)) := Cert.KernelIdeal.Hand.W1_of_ne m c Cert.KernelIdeal.main_arg12 (by decide)
  have h13 : Cert.KernelIdeal.Hand.V1 m c Cert.KernelIdeal.main_arg13 = (m ((c.tc : Thread Cert.KernelIdeal.nD Cert.KernelIdeal.τ).loc Cert.KernelIdeal.main_arg13)) := Cert.KernelIdeal.Hand.W1_of_ne m c Cert.KernelIdeal.main_arg13 (by decide)
  have h14 : Cert.KernelIdeal.Hand.V1 m c Cert.KernelIdeal.main_arg14 = (m ((c.tc : Thread Cert.KernelIdeal.nD Cert.KernelIdeal.τ).loc Cert.KernelIdeal.main_arg14)) := Cert.KernelIdeal.Hand.W1_of_ne m c Cert.KernelIdeal.main_arg14 (by decide)
  have h15 : Cert.KernelIdeal.Hand.V1 m c Cert.KernelIdeal.main_arg15 = (m ((c.tc : Thread Cert.KernelIdeal.nD Cert.KernelIdeal.τ).loc Cert.KernelIdeal.main_arg15)) := Cert.KernelIdeal.Hand.W1_of_ne m c Cert.KernelIdeal.main_arg15 (by decide)
  have h16 : Cert.KernelIdeal.Hand.V1 m c Cert.KernelIdeal.main_arg16 = (m ((c.tc : Thread Cert.KernelIdeal.nD Cert.KernelIdeal.τ).loc Cert.KernelIdeal.main_arg16)) := Cert.KernelIdeal.Hand.W1_of_ne m c Cert.KernelIdeal.main_arg16 (by decide)
  rw [hfeat, h0, h1, h4, h5, h6, h7, h8, h9, h11, h12, h13, h14, h15, h16]

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories that agree on the arguments, the idealized kernel's result buffer ends at the graph layer of its
    launch arrays and the reference's at the graph layer of its own: the same arrays, so the same result. -/
theorem algebraic : Cert.algebraic_KernelIdeal_ReferenceIdeal := by
  intro m ρ m' ρ' _ hagree
  refine ⟨fun c => Cert.KernelIdeal.Hand.resultArr (F := Ideal) m c, Cert.KernelIdeal.Hand.run_result m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10, e11, e12, e13, e14, e15, e16⟩ := hagree c
  rw [Cert.ReferenceIdeal.Read.val_main_v52_eq, e0, e1, e2, e3, e4, e5, e6, e7, e8, e9, e10, e11, e12, e13, e14, e15, e16, Cert.GraphLayer.ref_is_graphLayer]
  exact (kernel_result m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
